-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S100000x512 : Shape := ⟨2, ![100000, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x512 .f32) (main_arg1 : FVec F S100000x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 32 := constantI S_ 32 100000#32
  let main_v11 : IVec S512 32 := broadcastInDim S512 ![] bcast_S_S512 main_c_3
  let main_v12 : IVec S512 1 := cmpi .slt main_arg2 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Kernel.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S2x512x1 : Shape := ⟨3, ![2, 512, 1]⟩
abbrev S2x512 : Shape := ⟨2, ![2, 512]⟩
abbrev S5000x512 : Shape := ⟨2, ![5000, 512]⟩
abbrev S1x512x1 : Shape := ⟨3, ![1, 512, 1]⟩
abbrev S5000 : Shape := ⟨1, ![5000]⟩
abbrev S5000x1 : Shape := ⟨2, ![5000, 1]⟩
abbrev S512x5000 : Shape := ⟨2, ![512, 5000]⟩

abbrev nBuf : Space → Nat
  | .hbm => 79
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x1, .i32⟩
  | .hbm, ⟨14, _⟩ => ⟨S2x512x1, .f32⟩
  | .hbm, ⟨15, _⟩ => ⟨S2x512, .f32⟩
  | .hbm, ⟨16, _⟩ => ⟨S_, .f32⟩
  | .hbm, ⟨17, _⟩ => ⟨S512, .f32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S_, .i32⟩
  | .hbm, ⟨22, _⟩ => ⟨S512, .i32⟩
  | .hbm, ⟨23, _⟩ => ⟨S512, .i32⟩
  | .hbm, ⟨24, _⟩ => ⟨S512, .i32⟩
  | .hbm, ⟨25, _⟩ => ⟨S512x1, .i32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512x1, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S_, .f32⟩
  | .hbm, ⟨42, _⟩ => ⟨S512, .f32⟩
  | .hbm, ⟨43, _⟩ => ⟨S512, .f32⟩
  | .hbm, ⟨44, _⟩ => ⟨S_, .f32⟩
  | .hbm, ⟨45, _⟩ => ⟨S512, .f32⟩
  | .hbm, ⟨46, _⟩ => ⟨S512, .f32⟩
  | .hbm, ⟨47, _⟩ => ⟨S512, .f32⟩
  | .hbm, ⟨48, _⟩ => ⟨S_, .f32⟩
  | .hbm, ⟨49, _⟩ => ⟨S512, .f32⟩
  | .hbm, ⟨50, _⟩ => ⟨S512, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S512, .f32⟩
  | .hbm, ⟨55, _⟩ => ⟨S_, .f32⟩
  | .hbm, ⟨56, _⟩ => ⟨S512, .f32⟩
  | .hbm, ⟨57, _⟩ => ⟨S512, .i1⟩
  | .hbm, ⟨58, _⟩ => ⟨S512, .f32⟩
  | .hbm, ⟨59, _⟩ => ⟨S_, .f32⟩
  | .hbm, ⟨60, _⟩ => ⟨S512, .f32⟩
  | .hbm, ⟨61, _⟩ => ⟨S512, .f32⟩
  | .hbm, ⟨62, _⟩ => ⟨S_, .f32⟩
  | .hbm, ⟨63, _⟩ => ⟨S512, .f32⟩
  | .hbm, ⟨64, _⟩ => ⟨S512, .f32⟩
  | .hbm, ⟨65, _⟩ => ⟨S512, .f32⟩
  | .hbm, ⟨66, _⟩ => ⟨S512, .f32⟩
  | .hbm, ⟨67, _⟩ => ⟨S512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .local _ .vmem, ⟨0, _⟩ => ⟨S512x512, .f32⟩
  | .local _ .vmem, ⟨1, _⟩ => ⟨S5000x512, .f32⟩
  | .local _ .vmem, ⟨2, _⟩ => ⟨S5000x512, .f32⟩
  | .local _ .vmem, ⟨3, _⟩ => ⟨S512x1, .i32⟩
  | .local _ .vmem, ⟨4, _⟩ => ⟨S1x512x1, .f32⟩
  | .local _ .vmem, ⟨5, _⟩ => ⟨S1x512x1, .f32⟩
  | .local _ .vmem, ⟨6, _⟩ => ⟨S512x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_call0_v0 : Ref sig .tc := ⟨.hbm, 3, rfl⟩
abbrev main_call0_call0_cst : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_0 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_c_1 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_call1_v0 : Ref sig .tc := ⟨.hbm, 27, rfl⟩
abbrev main_call0_call1_cst : Ref sig .tc := ⟨.hbm, 28, rfl⟩
abbrev main_call0_call1_v1 : Ref sig .tc := ⟨.hbm, 29, rfl⟩
abbrev main_call0_v16 : Ref sig .tc := ⟨.hbm, 30, rfl⟩
abbrev main_call0_cst_2 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_cst_3 : Ref sig .tc := ⟨.hbm, 38, rfl⟩
abbrev main_call0_v23 : Ref sig .tc := ⟨.hbm, 39, rfl⟩
abbrev main_call0_v24 : Ref sig .tc := ⟨.hbm, 40, rfl⟩
abbrev main_call0_cst_4 : Ref sig .tc := ⟨.hbm, 41, rfl⟩
abbrev main_call0_v25 : Ref sig .tc := ⟨.hbm, 42, rfl⟩
abbrev main_call0_v26 : Ref sig .tc := ⟨.hbm, 43, rfl⟩
abbrev main_call0_cst_5 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_cst_6 : Ref sig .tc := ⟨.hbm, 48, rfl⟩
abbrev main_call0_v30 : Ref sig .tc := ⟨.hbm, 49, rfl⟩
abbrev main_call0_v31 : Ref sig .tc := ⟨.hbm, 50, rfl⟩
abbrev main_call0_cst_7 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_cst_8 : Ref sig .tc := ⟨.hbm, 55, rfl⟩
abbrev main_call0_v35 : Ref sig .tc := ⟨.hbm, 56, rfl⟩
abbrev main_call0_v36 : Ref sig .tc := ⟨.hbm, 57, rfl⟩
abbrev main_call0_v37 : Ref sig .tc := ⟨.hbm, 58, rfl⟩
abbrev main_call0_cst_9 : Ref sig .tc := ⟨.hbm, 59, rfl⟩
abbrev main_call0_v38 : Ref sig .tc := ⟨.hbm, 60, rfl⟩
abbrev main_call0_v39 : Ref sig .tc := ⟨.hbm, 61, rfl⟩
abbrev main_call0_cst_10 : Ref sig .tc := ⟨.hbm, 62, rfl⟩
abbrev main_call0_v40 : Ref sig .tc := ⟨.hbm, 63, rfl⟩
abbrev main_call0_v41 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_cst_11 : Ref sig .tc := ⟨.hbm, 68, rfl⟩
abbrev main_call0_v45 : Ref sig .tc := ⟨.hbm, 69, rfl⟩
abbrev main_call0_v46 : Ref sig .tc := ⟨.hbm, 70, rfl⟩
abbrev main_call0_cst_12 : Ref sig .tc := ⟨.hbm, 71, rfl⟩
abbrev main_call0_v47 : Ref sig .tc := ⟨.hbm, 72, rfl⟩
abbrev main_call0_v48 : Ref sig .tc := ⟨.hbm, 73, rfl⟩
abbrev main_call0_v49 : Ref sig .tc := ⟨.hbm, 74, rfl⟩
abbrev main_call0_cst_13 : Ref sig .tc := ⟨.hbm, 75, rfl⟩
abbrev main_call0_v50 : Ref sig .tc := ⟨.hbm, 76, rfl⟩
abbrev main_call0_cst_14 : Ref sig .tc := ⟨.hbm, 77, rfl⟩
abbrev main_v0 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  shapeCasts_S2x512x1_S2x512 : S2x512x1.ShapeCasts S2x512
  reducesTo_S2x512_S512_d0 : S2x512.ReducesTo [0] S512
  bcast_S_S512 : S_.BroadcastsInDim S512 (![] : Fin 0 → Fin S512.rank)
  reducesTo_S512_S_d0 : S512.ReducesTo [0] S_
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S5000x512_S5000x512_0_0 : ∀ a, (![0, 0] : Fin 2 → Nat) a + S5000x512.size a ≤ S5000x512.size a
  h_S5000x512 : 0 < S5000x512.numel
  reduces_S5000x512_S5000 : S5000x512.Reduces [1] S5000
  shapeCasts_S5000_S5000x1 : S5000.ShapeCasts S5000x1
  broadcasts_S5000x1_S5000x512 : S5000x1.Broadcasts S5000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S5000x512_p1_0_S512x5000 : S5000x512.Transposes [1, 0] S512x5000
  iota_S512x5000_d1_w32 : S512x5000.Iotas .tc 32 [1]
  broadcasts_S512x1_S512x5000 : S512x1.Broadcasts S512x5000
  reduces_S512x5000_S512 : S512x5000.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  gather_S100000x512_S512x1_S512x512_1_0_n_n_0_1_1512_wf : GatherDims.WF S100000x512 S512x1 S512x512 [1] [0] [] [0] [] 1 ![1, 512]
  dot_S512x512_S512x5000_S512x5000_1_0_0_1_n_n_wf : DotDims.WF S512x512 S512x5000 S512x5000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S100000x512.size a
  hwx0_1 : ∀ i : grid0.Coords, EltTy.bits .f32 = 32 ∨ (Rect.block (s := S100000x512) S5000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)

variable [Facts₀]

def gather_S100000x512_S512x1_S512x512_1_0_n_n_0_1_1512 : GatherDims S100000x512 S512x1 S512x512 where
  offsetDims := [1]
  collapsedSliceDims := [0]
  operandBatchingDims := []
  startIndicesBatchingDims := []
  startIndexMap := [0]
  indexVectorDim := 1
  sliceSizes := ![1, 512]
  wf := gather_S100000x512_S512x1_S512x512_1_0_n_n_0_1_1512_wf
def dot_S512x512_S512x5000_S512x5000_1_0_0_1_n_n : DotDims S512x512 S512x5000 S512x5000 where
  lhsContracting := [1]
  rhsContracting := [0]
  lhsNonContracting := [0]
  rhsNonContracting := [1]
  lhsBatch := []
  rhsBatch := []
  wf := dot_S512x512_S512x5000_S512x5000_1_0_0_1_n_n_wf

abbrev win0_0 : Pipeline.Window sig grid0 :=
  Pipeline.Window.ofSpec (Memref.whole main_call0_v4) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S100000x512 : Shape := ⟨2, ![100000, 512]⟩
abbrev S512 : Shape := ⟨1, ![512]⟩
abbrev S_ : Shape := ⟨0, ![]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S1x100000 : Shape := ⟨2, ![1, 100000]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S100000x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S512x100000, .f32⟩
  | .hbm, ⟨25, _⟩ => ⟨S512x100000, .f32⟩
  | .hbm, ⟨26, _⟩ => ⟨S_, .f32⟩
  | .hbm, ⟨27, _⟩ => ⟨S512x100000, .f32⟩
  | .hbm, ⟨28, _⟩ => ⟨S512x100000, .f32⟩
  | .hbm, ⟨29, _⟩ => ⟨S_, .f32⟩
  | .hbm, ⟨30, _⟩ => ⟨S512x100000, .f32⟩
  | .hbm, ⟨31, _⟩ => ⟨S512x100000, .f32⟩
  | .hbm, ⟨32, _⟩ => ⟨S512x100000, .f32⟩
  | .hbm, ⟨33, _⟩ => ⟨S_, .f32⟩
  | .hbm, ⟨34, _⟩ => ⟨S512x100000, .f32⟩
  | .hbm, ⟨35, _⟩ => ⟨S512x100000, .f32⟩
  | .hbm, ⟨36, _⟩ => ⟨S_, .f32⟩
  | .hbm, ⟨37, _⟩ => ⟨S512x100000, .f32⟩
  | .hbm, ⟨38, _⟩ => ⟨S512x100000, .f32⟩
  | .hbm, ⟨39, _⟩ => ⟨S512x100000, .f32⟩
  | .hbm, ⟨40, _⟩ => ⟨S_, .f32⟩
  | .hbm, ⟨41, _⟩ => ⟨S512x100000, .f32⟩
  | .hbm, ⟨42, _⟩ => ⟨S512x100000, .i1⟩
  | .hbm, ⟨43, _⟩ => ⟨S512x100000, .f32⟩
  | .hbm, ⟨44, _⟩ => ⟨S512x1, .i32⟩
  | .hbm, ⟨45, _⟩ => ⟨S1x100000, .i32⟩
  | .hbm, ⟨46, _⟩ => ⟨S512x100000, .i32⟩
  | .hbm, ⟨47, _⟩ => ⟨S512x100000, .i32⟩
  | .hbm, ⟨48, _⟩ => ⟨S512x100000, .i1⟩
  | .hbm, ⟨49, _⟩ => ⟨S512x100000, .f32⟩
  | .hbm, ⟨50, _⟩ => ⟨S512x100000, .f32⟩
  | .hbm, ⟨51, _⟩ => ⟨S_, .f32⟩
  | .hbm, ⟨52, _⟩ => ⟨S512x100000, .f32⟩
  | .hbm, ⟨53, _⟩ => ⟨S512x100000, .f32⟩
  | .hbm, ⟨54, _⟩ => ⟨S512x100000, .f32⟩
  | .hbm, ⟨55, _⟩ => ⟨S512x100000, .f32⟩
  | .hbm, ⟨56, _⟩ => ⟨S_, .f32⟩
  | .hbm, ⟨57, _⟩ => ⟨S512x100000, .f32⟩
  | .hbm, ⟨58, _⟩ => ⟨S512x100000, .f32⟩
  | .hbm, ⟨59, _⟩ => ⟨S_, .f32⟩
  | .hbm, ⟨60, _⟩ => ⟨S512, .f32⟩
  | .hbm, ⟨61, _⟩ => ⟨S_, .f32⟩
  | .hbm, ⟨62, _⟩ => ⟨S512, .f32⟩
  | .hbm, ⟨63, _⟩ => ⟨S512, .f32⟩
  | .hbm, ⟨64, _⟩ => ⟨S512x1, .f32⟩
  | .hbm, ⟨65, _⟩ => ⟨S512x100000, .f32⟩
  | .hbm, ⟨66, _⟩ => ⟨S512x100000, .f32⟩
  | .hbm, ⟨67, _⟩ => ⟨S512x100000, .f32⟩
  | .hbm, ⟨68, _⟩ => ⟨S_, .f32⟩
  | .hbm, ⟨69, _⟩ => ⟨S512, .f32⟩
  | .hbm, ⟨70, _⟩ => ⟨S512x1, .f32⟩
  | .hbm, ⟨71, _⟩ => ⟨S512x1, .f32⟩
  | .hbm, ⟨72, _⟩ => ⟨S512x100000, .f32⟩
  | .hbm, ⟨73, _⟩ => ⟨S512x100000, .f32⟩
  | .hbm, ⟨74, _⟩ => ⟨S512x1, .i32⟩
  | .hbm, ⟨75, _⟩ => ⟨S_, .i32⟩
  | .hbm, ⟨76, _⟩ => ⟨S512x1, .i32⟩
  | .hbm, ⟨77, _⟩ => ⟨S512x1, .i1⟩
  | .hbm, ⟨78, _⟩ => ⟨S_, .i32⟩
  | .hbm, ⟨79, _⟩ => ⟨S512x1, .i32⟩
  | .hbm, ⟨80, _⟩ => ⟨S512x1, .i32⟩
  | .hbm, ⟨81, _⟩ => ⟨S512x1, .i32⟩
  | .hbm, ⟨82, _⟩ => ⟨S512x1x1, .i32⟩
  | .hbm, ⟨83, _⟩ => ⟨S1, .i32⟩
  | .hbm, ⟨84, _⟩ => ⟨S_, .i32⟩
  | .hbm, ⟨85, _⟩ => ⟨S512x1x1, .i32⟩
  | .hbm, ⟨86, _⟩ => ⟨S512x1x1, .i1⟩
  | .hbm, ⟨87, _⟩ => ⟨S1x1x1, .i32⟩
  | .hbm, ⟨88, _⟩ => ⟨S512x1x1, .i32⟩
  | .hbm, ⟨89, _⟩ => ⟨S512x1x1, .i1⟩
  | .hbm, ⟨90, _⟩ => ⟨S512x1x1, .i1⟩
  | .hbm, ⟨91, _⟩ => ⟨S_, .i1⟩
  | .hbm, ⟨92, _⟩ => ⟨S512x1, .i1⟩
  | .hbm, ⟨93, _⟩ => ⟨S512x1, .f32⟩
  | .hbm, ⟨94, _⟩ => ⟨S_, .f32⟩
  | .hbm, ⟨95, _⟩ => ⟨S512x1, .f32⟩
  | .hbm, ⟨96, _⟩ => ⟨S512x1, .f32⟩
  | .hbm, ⟨97, _⟩ => ⟨S512, .f32⟩
  | .hbm, ⟨98, _⟩ => ⟨S512, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_call4_cst : Ref sig .tc := ⟨.hbm, 59, rfl⟩
abbrev main_call4_v0 : Ref sig .tc := ⟨.hbm, 60, rfl⟩
abbrev main_call4_cst_0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_v5 : Ref sig .tc := ⟨.hbm, 66, rfl⟩
abbrev main_call4_v6 : Ref sig .tc := ⟨.hbm, 67, rfl⟩
abbrev main_call4_cst_1 : Ref sig .tc := ⟨.hbm, 68, rfl⟩
abbrev main_call4_v7 : Ref sig .tc := ⟨.hbm, 69, rfl⟩
abbrev main_call4_v8 : Ref sig .tc := ⟨.hbm, 70, rfl⟩
abbrev main_call4_v9 : Ref sig .tc := ⟨.hbm, 71, rfl⟩
abbrev main_call4_v10 : Ref sig .tc := ⟨.hbm, 72, rfl⟩
abbrev main_v34 : Ref sig .tc := ⟨.hbm, 73, rfl⟩
abbrev main_v35 : Ref sig .tc := ⟨.hbm, 74, rfl⟩
abbrev main_call5_c : Ref sig .tc := ⟨.hbm, 75, rfl⟩
abbrev main_call5_v0 : Ref sig .tc := ⟨.hbm, 76, rfl⟩
abbrev main_call5_v1 : Ref sig .tc := ⟨.hbm, 77, rfl⟩
abbrev main_call5_c_0 : Ref sig .tc := ⟨.hbm, 78, rfl⟩
abbrev main_call5_v2 : Ref sig .tc := ⟨.hbm, 79, rfl⟩
abbrev main_call5_v3 : Ref sig .tc := ⟨.hbm, 80, rfl⟩
abbrev main_call5_v4 : Ref sig .tc := ⟨.hbm, 81, rfl⟩
abbrev main_call5_v5 : Ref sig .tc := ⟨.hbm, 82, rfl⟩
abbrev main_call5_c_1 : Ref sig .tc := ⟨.hbm, 83, rfl⟩
abbrev main_call5_c_2 : Ref sig .tc := ⟨.hbm, 84, rfl⟩
abbrev main_call5_v6 : Ref sig .tc := ⟨.hbm, 85, rfl⟩
abbrev main_call5_v7 : Ref sig .tc := ⟨.hbm, 86, rfl⟩
abbrev main_call5_v8 : Ref sig .tc := ⟨.hbm, 87, rfl⟩
abbrev main_call5_v9 : Ref sig .tc := ⟨.hbm, 88, rfl⟩
abbrev main_call5_v10 : Ref sig .tc := ⟨.hbm, 89, rfl⟩
abbrev main_call5_v11 : Ref sig .tc := ⟨.hbm, 90, rfl⟩
abbrev main_call5_c_3 : Ref sig .tc := ⟨.hbm, 91, rfl⟩
abbrev main_call5_v12 : Ref sig .tc := ⟨.hbm, 92, rfl⟩
abbrev main_call5_v13 : Ref sig .tc := ⟨.hbm, 93, rfl⟩
abbrev main_call5_cst : Ref sig .tc := ⟨.hbm, 94, rfl⟩
abbrev main_call5_v14 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_8 : Ref sig .tc := ⟨.hbm, 99, rfl⟩
abbrev main_v39 : Ref sig .tc := ⟨.hbm, 100, rfl⟩
abbrev main_cst_9 : Ref sig .tc := ⟨.hbm, 101, rfl⟩
abbrev main_v40 : Ref sig .tc := ⟨.hbm, 102, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S512x100000 : S_.BroadcastsInDim S512x100000 (![] : Fin 0 → Fin S512x100000.rank)
  bcast_S512x1_S512x100000_0_1 : S512x1.BroadcastsInDim S512x100000 (![0, 1] : Fin 2 → Fin S512x100000.rank)
  bcast_S1x100000_S512x100000_0_1 : S1x100000.BroadcastsInDim S512x100000 (![0, 1] : Fin 2 → Fin S512x100000.rank)
  reducesTo_S512x100000_S512_d1 : S512x100000.ReducesTo [1] S512
  bcast_S_S512 : S_.BroadcastsInDim S512 (![] : Fin 0 → Fin S512.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  shapeCasts_S512x1_S512 : S512x1.ShapeCasts S512
  reducesTo_S512_S_d0 : S512.ReducesTo [0] S_
  dot_S512x512_S512x100000_S512x100000_1_0_0_1_n_n_wf : DotDims.WF S512x512 S512x100000 S512x100000 [1] [0] [0] [1] [] []
  gather_S512x100000_S512x1x1_S512x1_n_1_0_0_1_2_11_wf : GatherDims.WF S512x100000 S512x1x1 S512x1 [] [1] [0] [1] [0] 2 ![1, 1]

variable [Facts₀]

def dot_S512x512_S512x100000_S512x100000_1_0_0_1_n_n : DotDims S512x512 S512x100000 S512x100000 where
  lhsContracting := [1]
  rhsContracting := [0]
  lhsNonContracting := [0]
  rhsNonContracting := [1]
  lhsBatch := []
  rhsBatch := []
  wf := dot_S512x512_S512x100000_S512x100000_1_0_0_1_n_n_wf
def gather_S512x100000_S512x1x1_S512x1_n_1_0_0_1_2_11 : GatherDims S512x100000 S512x1x1 S512x1 where
  offsetDims := []
  collapsedSliceDims := [1]
  operandBatchingDims := [0]
  startIndicesBatchingDims := [0]
  startIndexMap := [1]
  indexVectorDim := 2
  sliceSizes := ![1, 1]
  wf := gather_S512x100000_S512x1x1_S512x1_n_1_0_0_1_2_11_wf

class Facts : Prop extends Facts₀ where

variable [Facts]
-- ==== Proof.KPieces.lean ====
/-
  What one run of the kernel's body leaves behind, as values.

  The body keeps a running sum per batch row in a scratch column. At the first tile of a group it stores zeros there;
  at every tile it adds the tile's masked sums of exponentials to what the scratch holds, stores the new sums back, and
  copies them to the output block. So after a tile the scratch holds `previous + tile` (with `previous` the zero column
  at a group's first tile) and the output block holds the same column with a leading unit axis.
-/
import proofs.«431268_j55817394979146_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile of a group: the scratch, holding `acc`, ends at `acc + tile`. -/
theorem scratch_later (c : Dev nD) (i : grid0.Coords) (a2 : Memref sig .tc .vmem S512x512 .f32) (h2 : a2.IsWhole) (a3 : Memref sig .tc .vmem S5000x512 .f32) (h3 : a3.IsWhole) (a4 : Memref sig .tc .vmem S512x1 .i32) (h4 : a4.IsWhole) (a5 : Memref sig .tc .vmem S1x512x1 .f32) (h5 : a5.IsWhole) (a6 : Memref sig .tc .vmem S512x1 .f32) (h6 : a6.IsWhole) (hc : ¬cond0_0 i)
    (x0 : Vec F S512x512 .f32) (x1 : Vec F S5000x512 .f32) (x2 : Vec F S512x1 .i32) (acc : Vec F S512x1 .f32) :
    sout0_B_0 c i a2 h2 a3 h3 a4 h4 a5 h5 a6 h6 hc x0 x1 x2 acc = k0_pay1 acc (k0_pay4 i x1 x0 x2) := by
  unfold sout0_B_0
  rw [View.read_writes_eq_canon _ _ _ (scover0_B_0 c i a2 h2 a3 h3 a4 h4 a5 h5 a6 h6 hc x0 x1 x2 acc)]
  unfold kernelRun0_B
  dsimp only
  sl_unfold_words
  rw [View.canon_unit_zero hz2]
  simp only [View.readAt_eq_ld, h2.read_unread, h3.read_unread, h4.read_unread, h6.read_unread,
    View.ld_unit_zero (S := S512x1) hz2, View.ld_unit_zero (S := S5000x512) hz2, View.ld_unit_zero (S := S512x512) hz2]

/-- A later tile of a group: the output block ends at the new scratch column with a leading unit axis. -/
theorem block_later (c : Dev nD) (i : grid0.Coords) (a2 : Memref sig .tc .vmem S512x512 .f32) (h2 : a2.IsWhole) (a3 : Memref sig .tc .vmem S5000x512 .f32) (h3 : a3.IsWhole) (a4 : Memref sig .tc .vmem S512x1 .i32) (h4 : a4.IsWhole) (a5 : Memref sig .tc .vmem S1x512x1 .f32) (h5 : a5.IsWhole) (a6 : Memref sig .tc .vmem S512x1 .f32) (h6 : a6.IsWhole) (hc : ¬cond0_0 i)
    (x0 : Vec F S512x512 .f32) (x1 : Vec F S5000x512 .f32) (x2 : Vec F S512x1 .i32) (acc : Vec F S512x1 .f32) :
    out0_B_3 c i a2 h2 a3 h3 a4 h4 a5 h5 a6 h6 hc x0 x1 x2 acc = k0_pay2 (k0_pay1 acc (k0_pay4 i x1 x0 x2)) := by
  unfold out0_B_3
  rw [View.read_writes_eq_canon _ _ _ (cover0_B_3 c i a2 h2 a3 h3 a4 h4 a5 h5 a6 h6 hc x0 x1 x2 acc)]
  unfold kernelRun0_B
  dsimp only
  sl_unfold_words
  rw [View.canon_unit_zero hz3, View.readCov_cons_toLoadRect]
  simp only [View.readAt_eq_ld, h2.read_unread, h3.read_unread, h4.read_unread, h6.read_unread,
    View.ld_unit_zero (S := S512x1) hz2, View.ld_unit_zero (S := S5000x512) hz2, View.ld_unit_zero (S := S512x512) hz2]

/-- The first tile of a group: the scratch is zeroed, then ends at `0 + tile`. -/
theorem scratch_first (c : Dev nD) (i : grid0.Coords) (a2 : Memref sig .tc .vmem S512x512 .f32) (h2 : a2.IsWhole) (a3 : Memref sig .tc .vmem S5000x512 .f32) (h3 : a3.IsWhole) (a4 : Memref sig .tc .vmem S512x1 .i32) (h4 : a4.IsWhole) (a5 : Memref sig .tc .vmem S1x512x1 .f32) (h5 : a5.IsWhole) (a6 : Memref sig .tc .vmem S512x1 .f32) (h6 : a6.IsWhole) (hc : cond0_0 i)
    (x0 : Vec F S512x512 .f32) (x1 : Vec F S5000x512 .f32) (x2 : Vec F S512x1 .i32) :
    sout0_A_0 c i a2 h2 a3 h3 a4 h4 a5 h5 a6 h6 hc x0 x1 x2 = k0_pay1 (k0_pay3 (F := F)) (k0_pay4 i x1 x0 x2) := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_cons_unit_zero (S := S512x1) hz2, View.readCov_unit_zero (S := S512x1) _ hz2]
  simp only [View.readAt_eq_ld, h2.read_unread, h3.read_unread, h4.read_unread,
    View.ld_unit_zero (S := S512x1) hz2, View.ld_unit_zero (S := S5000x512) hz2, View.ld_unit_zero (S := S512x512) hz2]

/-- The first tile of a group: the output block ends at `0 + tile` with a leading unit axis. -/
theorem block_first (c : Dev nD) (i : grid0.Coords) (a2 : Memref sig .tc .vmem S512x512 .f32) (h2 : a2.IsWhole) (a3 : Memref sig .tc .vmem S5000x512 .f32) (h3 : a3.IsWhole) (a4 : Memref sig .tc .vmem S512x1 .i32) (h4 : a4.IsWhole) (a5 : Memref sig .tc .vmem S1x512x1 .f32) (h5 : a5.IsWhole) (a6 : Memref sig .tc .vmem S512x1 .f32) (h6 : a6.IsWhole) (hc : cond0_0 i)
    (x0 : Vec F S512x512 .f32) (x1 : Vec F S5000x512 .f32) (x2 : Vec F S512x1 .i32) :
    out0_A_3 c i a2 h2 a3 h3 a4 h4 a5 h5 a6 h6 hc x0 x1 x2 = k0_pay2 (k0_pay1 (k0_pay3 (F := F)) (k0_pay4 i x1 x0 x2)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3, View.readCov_cons_toLoadRect, View.readCov_unit_zero (S := S512x1) _ hz2]
  simp only [View.readAt_eq_ld, h2.read_unread, h3.read_unread, h4.read_unread,
    View.ld_unit_zero (S := S512x1) hz2, View.ld_unit_zero (S := S5000x512) hz2, View.ld_unit_zero (S := S512x512) hz2]

end Cert.KernelIdeal.Pieces

end
-- ==== Proof.KAcc.lean ====
/-
  The scratch column and the output block after every grid point.

  Grid point `n` is tile `n % 10` of group `n / 10`. After it the scratch holds the sum of the group's tiles so far
  (each tile's masked row sums of exponentials), the zero column being added first at a group's first tile; the output
  block holds the same column with a leading unit axis. At the extended reals the zero column and the order of the
  additions disappear: the scratch after tile `s` of group `g` is, row by row, the sum of the tiles 0 … s of the group.
-/
import proofs.«431268_j55817394979146_2_alg».proof.Proof.KPieces
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen Cert.KernelIdeal.Pieces

section AnyValues

variable {F : FTy → Type} [FloatOps F]
variable (m : (ℓ : Loc nD τ sig) → Buf (Elt F) ℓ)

/-- The masked row sums of the tile of grid point `t`. -/
abbrev tileAt (c : Dev nD) (t : Fin cfg0.N) : FVec F S512x1 .f32 :=
  k0_pay4 (grid0.coords t) (iblk m c 1 t) (iblk m c 0 t) (iblk m c 2 t)

/-- After any point the output block is the scratch column with a leading unit axis. -/
theorem block_eq (c : Dev nD) (t : Fin cfg0.N) :
    (outsAt0 m c t.val t.isLt).1 = k0_pay2 (outsAt0 m c t.val t.isLt).2 := by
  by_cases h0 : t.val % 10 = 0
  · rw [outsAt0_A m c t h0]
    dsimp only
    rw [scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)]
    exact block_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [outsAt0_B m c t h0]
    dsimp only
    rw [scratch_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2]
    exact block_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2

/-- At a group's first tile the scratch ends at the zero column plus the tile. -/
theorem scratch_at_first (c : Dev nD) (t : Fin cfg0.N) (h0 : t.val % 10 = 0) :
    (outsAt0 m c t.val t.isLt).2 = k0_pay1 (k0_pay3 (F := F)) (tileAt m c t) := by
  rw [outsAt0_A m c t h0]
  dsimp only
  exact scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)

/-- At a later tile the scratch ends at what the point before left plus the tile. -/
theorem scratch_at_later (c : Dev nD) (t : Fin cfg0.N) (h0 : ¬t.val % 10 = 0) :
    (outsAt0 m c t.val t.isLt).2
      = k0_pay1 (outsAt0 m c (t.val - 1) (Nat.lt_of_le_of_lt (Nat.sub_le _ _) t.isLt)).2 (tileAt m c t) := by
  rw [outsAt0_B m c t h0]
  dsimp only
  exact scratch_later c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
    (outsAt0 m c (t.val - 1) (Nat.lt_of_le_of_lt (Nat.sub_le _ _) t.isLt)).2

end AnyValues

/-! ## At the extended reals -/

variable (m : (ℓ : Loc nD τ sig) → Buf (Elt Ideal) ℓ)

/-- The sum of two columns, entry by entry. -/
theorem pay1_apply (a : Vec Ideal S512x1 .f32) (b : FVec Ideal S512x1 .f32) (j : S512x1.Idx) :
    k0_pay1 (F := Ideal) a b j = a j + b j := by
  unfold k0_pay1
  rw [shapeCast_self]
  rfl

/-- The zero column. -/
theorem pay3_apply (j : S512x1.Idx) : k0_pay3 (F := Ideal) j = 0 := by
  unfold k0_pay3
  rw [shapeCast_self]
  exact Ideal.ofBits_zero_f32

/-- The output block read at (0, r, 0) is the column at (r, 0). -/
theorem pay2_apply (a : Vec Ideal S512x1 .f32) (u : Fin 1) (r : Fin 512) (v : Fin 1) :
    k0_pay2 (F := Ideal) a (ix3 u r v) = a (ix2 r v) := by
  unfold k0_pay2
  exact shapeCast_ab_1ab_apply a _ u r v

/-- The tile of grid point `n`, for every natural `n` (the zero column past the grid). -/
def tileNat (c : Dev nD) (n : ℕ) : FVec Ideal S512x1 .f32 :=
  if h : n < cfg0.N then tileAt m c ⟨n, h⟩ else k0_pay3 (F := Ideal)

theorem tileNat_of_lt (c : Dev nD) (t : Fin cfg0.N) : tileNat m c t.val = tileAt m c t := by
  unfold tileNat
  rw [dif_pos t.isLt]

/-- After tile `s` of group `g` the scratch holds, row by row, the sum of the group's tiles 0 … s. -/
theorem scratch_sum (c : Dev nD) (g : ℕ) (hg : g < 2) (j : S512x1.Idx) :
    ∀ (s : ℕ) (hs : s < 10) (h : 10 * g + s < cfg0.N),
      (outsAt0 m c (10 * g + s) h).2 j = ∑ u ∈ Finset.range (s + 1), tileNat m c (10 * g + u) j
  | 0, _, h => by
    have h0 : (⟨10 * g + 0, h⟩ : Fin cfg0.N).val % 10 = 0 := by dsimp only; omega
    have e := scratch_at_first m c ⟨10 * g + 0, h⟩ h0
    dsimp only at e
    rw [e, pay1_apply, pay3_apply, zero_add, Finset.sum_range_one]
    exact congrFun (tileNat_of_lt m c ⟨10 * g + 0, h⟩).symm j
  | s + 1, hs, h => by
    have h0 : ¬(⟨10 * g + (s + 1), h⟩ : Fin cfg0.N).val % 10 = 0 := by dsimp only; omega
    have e := scratch_at_later m c ⟨10 * g + (s + 1), h⟩ h0
    dsimp only at e
    have ih := scratch_sum c g hg j s (by omega) (by omega)
    rw [e, pay1_apply, Finset.sum_range_succ _ (s + 1)]
    exact congrArg₂ (· + ·) ih (congrFun (tileNat_of_lt m c ⟨10 * g + (s + 1), h⟩).symm j)

end Cert.KernelIdeal.Acc

end
-- ==== Proof.KFinal.lean ====
/-
  What the kernel's region leaves in its output array.

  The output array has one [512, 1] column per group of ten tiles. The block of group `g` is written back once, after
  the group's last tile (grid points 9 and 19), when the scratch holds the sum of the group's ten tiles; the two blocks
  tile the array. So entry (g, r, 0) of the array ends at the sum over the tiles 10 g … 10 g + 9 of row r's masked sums.
-/
import proofs.«431268_j55817394979146_2_alg».proof.Proof.KAcc
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KernelIdeal.Acc

variable (m : (ℓ : Loc nD τ sig) → Buf (Elt Ideal) ℓ)

/-- Entry (a, b) of a [512, 1] column, for any naturals (zero outside the column). -/
def entry (f : FVec Ideal S512x1 .f32) (a b : ℕ) : EReal :=
  if h : a < 512 ∧ b < 1 then f (ix2 ⟨a, h.1⟩ ⟨b, h.2⟩) else 0

theorem entry_ix (f : FVec Ideal S512x1 .f32) (r : Fin 512) (v : Fin 1) : entry f r.val v.val = f (ix2 r v) := by
  unfold entry
  rw [dif_pos ⟨r.isLt, v.isLt⟩]

/-- The array the region leaves: at (g, r, 0) the sum of the ten tiles of group g at row r. -/
def groupSums (c : Dev nD) : Buf (Elt Ideal) ((c : Thread nD τ).loc main_call0_v6) :=
  fun (j : S2x512x1.Idx) =>
    (∑ u ∈ Finset.range 10, entry (tileNat m c (10 * (j 0).val + u)) (j 1).val (j 2).val : EReal)

theorem groupSums_apply (c : Dev nD) (g : Fin 2) (r : Fin 512) (v : Fin 1) :
    groupSums m c (ix3 g r v) = ∑ u ∈ Finset.range 10, tileNat m c (10 * g.val + u) (ix2 r v) := by
  show ∑ u ∈ Finset.range 10, entry (tileNat m c (10 * g.val + u)) r.val v.val = _
  exact Finset.sum_congr rfl fun u _ => entry_ix _ r v

/-- The output window's block index at point t: the group's number, then zeros. -/
theorem block_index : ∀ t : Fin cfg0.N, win0_3.index t (0 : Fin 3) = t.val / 10 ∧ win0_3.index t (1 : Fin 3) = 0
    ∧ win0_3.index t (2 : Fin 3) = 0 :=
  (by decide +kernel : ∀ t : Fin grid0.N, win0_3.index t (0 : Fin 3) = t.val / 10 ∧ win0_3.index t (1 : Fin 3) = 0
    ∧ win0_3.index t (2 : Fin 3) = 0)

/-- What a write-back writes is the group's block of `groupSums`. -/
theorem flushed_eq (c : Dev nD) (t : Fin cfg0.N) (hf : (cfg0.win 3).flush t = true) :
    (dats m 0 c).flushed 3 t = ((cfg0.win 3).blk t).view.read (Elt Ideal) (groupSums m c) := by
  have h9 : t.val % 10 = 9 := (flush0_3 t).mp hf
  have hN : t.val < 20 := lt_of_lt_of_eq t.isLt (show cfg0.N = 20 from N_0)
  obtain ⟨e0, e1, e2⟩ := block_index t
  show (cfg0.win 3).cut (grid0.coords t) ((dats m 0 c).after 3 t) = _
  rw [after0_3, block_eq]
  funext y
  obtain ⟨u, r, v, rfl⟩ : ∃ (u : Fin 1) (r : Fin 512) (v : Fin 1), y = ix3 u r v := ⟨y 0, y 1, y 2, eq_ix3 y⟩
  have hu : u.val = 0 := by omega
  have hv : v.val = 0 := by omega
  show k0_pay2 (F := Ideal) (outsAt0 m c t.val t.isLt).2 (ix3 u r v)
    = ∑ k ∈ Finset.range 10, entry (tileNat m c (10 * (win0_3.index t (0 : Fin 3) * 1 + 1 * u.val) + k))
        (win0_3.index t (1 : Fin 3) * 512 + 1 * r.val) (win0_3.index t (2 : Fin 3) * 1 + 1 * v.val)
  rw [pay2_apply, e0, e1, e2]
  have hs : ∀ (n : ℕ) (hn : 10 * (t.val / 10) + 9 = n) (h' : n < cfg0.N),
      (outsAt0 m c n h').2 (ix2 r v) = ∑ k ∈ Finset.range (9 + 1), tileNat m c (10 * (t.val / 10) + k) (ix2 r v) := by
    intro n hn h'
    subst hn
    exact scratch_sum m c (t.val / 10) (by omega) (ix2 r v) 9 (by omega) h'
  rw [hs t.val (by omega) t.isLt]
  refine Finset.sum_congr rfl fun k _ => ?_
  have a0 : t.val / 10 * 1 + 1 * u.val = t.val / 10 := by omega
  have a1 : 0 * 512 + 1 * r.val = r.val := by omega
  have a2 : 0 * 1 + 1 * v.val = v.val := by omega
  rw [a0, a1, a2, entry_ix]

/-- Every entry of the array is in the block of its group's last point. -/
theorem covered (c : Dev nD) (i : S2x512x1.Idx) :
    ∃ t : Fin cfg0.N, (cfg0.win 3).flush t = true ∧ i ∈ ((cfg0.win 3).blk t).view.set := by
  have h0 : (i 0).val < 2 := (i 0).isLt
  have h1 : (i 1).val < 512 := (i 1).isLt
  have h2 : (i 2).val < 1 := (i 2).isLt
  have hN : cfg0.N = 20 := N_0
  obtain ⟨t, ht⟩ : ∃ t : Fin cfg0.N, t.val = 10 * (i 0).val + 9 := ⟨⟨10 * (i 0).val + 9, by omega⟩, rfl⟩
  refine ⟨t, (flush0_3 t).mpr (by omega), ?_⟩
  obtain ⟨e0, e1, e2⟩ := block_index t
  show i ∈ ((View.whole main_call0_v6).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 512 ≤ (i 1).val ∧ (i 1).val < win0_3.index t (1 : Fin 3) * 512 + 512
    rw [e1]; omega
  | ⟨2, _⟩ =>
    show win0_3.index t (2 : Fin 3) * 1 ≤ (i 2).val ∧ (i 2).val < win0_3.index t (2 : Fin 3) * 1 + 1
    rw [e2]; omega

/-- The output array after the region. -/
theorem final (c : Dev nD) : (dats m 0 c).arrAt 3 cfg0.N = groupSums m c :=
  (dats m 0 c).arrAt_eq_of_cover 3 (groupSums m c) (flushed_eq m c) (covered c)

end Cert.KernelIdeal.Final

end
-- ==== Proof.KTailDef.lean ====
/-
  The host operations that follow the kernel's region, as one pure function of what they read: the two groups'
  partial sums the region leaves, the batch scaled to unit rows, the class table and the labels.

  For each row the label's class vector is taken out of the table (a label counted from the end when its word is
  negative), scaled by its clamped norm, and multiplied into the row: the label's cosine. Its margin value `p` enters the
  loss twice: the row's sum of exponentials is the two groups' sums plus exp (30 p − 30), and the loss is the
  logarithm of that sum plus 30 (1 − p). The result is the mean of the rows' losses.
-/
import proofs.«431268_j55817394979146_2_alg».proof.Proof.Gen.KernelIdeal

noncomputable section

namespace Cert.KernelIdeal.Tail

open Idealize.ShloMosaic Cert.KernelIdeal Cert.KernelIdeal.Gen

variable {F : FTy → Type} [FloatOps F]

/-- The labels as a column of row numbers of the class table: a negative word is counted from the end. -/
def rowIdx (tgt : IVec S512 32) : IVec S512x1 32 :=
  broadcastInDim S512x1 ![0] bcast_S512_S512x1_0
    (select (cmpi .slt tgt (broadcastInDim S512 ![] bcast_S_S512 (constantI S_ 32 0#32)))
      (addi tgt (broadcastInDim S512 ![] bcast_S_S512 (constantI S_ 32 100000#32))) tgt)

/-- Row `i`: the class vector of row `i`'s label, scaled by its clamped norm. -/
def labelRows (w : FVec F S100000x512 .f32) (tgt : IVec S512 32) : FVec F S512x512 .f32 :=
  let rows : FVec F S512x512 .f32 :=
    Host.gather gather_S100000x512_S512x1_S512x512_1_0_n_n_0_1_1512 w (rowIdx tgt)
  Host.divf rows
    (broadcastInDim S512x512 ![0, 1] bcast_S512x1_S512x512_0_1
      (broadcastInDim S512x1 ![0] bcast_S512_S512x1_0
        (maximumf
          (Host.sqrt (Host.reduceAdd (mulf rows rows) (constant S_ .f32 0x00000000#32) reducesTo_S512x512_S512_d1 h_S_))
          (broadcastInDim S512 ![] bcast_S_S512 (constant S_ .f32 0x2B8CBCCC#32)))))

/-- The cosine of each row against its label's class vector. -/
def labelCos (xn : FVec F S512x512 .f32) (w : FVec F S100000x512 .f32) (tgt : IVec S512 32) : FVec F S512 .f32 :=
  Host.reduceAdd (mulf xn (labelRows w tgt)) (constant S_ .f32 0x00000000#32) reducesTo_S512x512_S512_d1 h_S_

/-- The margin value of each cosine: c · cos m − √(max (1 − c²) 0) · sin m where c is positive, c otherwise. -/
def marginVec (c : FVec F S512 .f32) : FVec F S512 .f32 :=
  select (cmpf .ogt c (broadcastInDim S512 ![] bcast_S_S512 (constant S_ .f32 0x00000000#32)))
    (subf (mulf c (broadcastInDim S512 ![] bcast_S_S512 (constant S_ .f32 0x3F60A940#32)))
      (mulf
        (Host.sqrt (maximumf
          (subf (broadcastInDim S512 ![] bcast_S_S512 (constant S_ .f32 0x3F800000#32)) (mulf c c))
          (broadcastInDim S512 ![] bcast_S_S512 (constant S_ .f32 0x00000000#32))))
        (broadcastInDim S512 ![] bcast_S_S512 (constant S_ .f32 0x3EF57744#32))))
    c

/-- The rows' losses from the two groups' partial sums `l` and the labels' margin values `p`. -/
def rowLoss (l : FVec F S2x512x1 .f32) (p : FVec F S512 .f32) : FVec F S512 .f32 :=
  addf
    (Host.log (addf
      (Host.reduceAdd (fun i => shapeCast S2x512 l shapeCasts_S2x512x1_S2x512 i) (constant S_ .f32 0x00000000#32)
        reducesTo_S2x512_S512_d0 h_S_)
      (Host.exp (subf (mulf (broadcastInDim S512 ![] bcast_S_S512 (constant S_ .f32 0x41F00000#32)) p)
        (broadcastInDim S512 ![] bcast_S_S512 (constant S_ .f32 0x41F00000#32))))))
    (mulf (broadcastInDim S512 ![] bcast_S_S512 (constant S_ .f32 0x41F00000#32))
      (subf (broadcastInDim S512 ![] bcast_S_S512 (constant S_ .f32 0x3F800000#32)) p))

/-- The mean of a vector of 512 losses. -/
def meanVec (n : FVec F S512 .f32) : FVec F S_ .f32 :=
  Host.divf (Host.reduceAdd n (constant S_ .f32 0x00000000#32) reducesTo_S512_S_d0 h_S_)
    (constant S_ .f32 0x44000000#32)

/-- Everything after the region. -/
def tail (l : FVec F S2x512x1 .f32) (xn : FVec F S512x512 .f32) (w : FVec F S100000x512 .f32)
    (tgt : IVec S512 32) : FVec F S_ .f32 :=
  meanVec (rowLoss l (marginVec (labelCos xn w tgt)))

end Cert.KernelIdeal.Tail

end
-- ==== Proof.Spec.lean ====
/-
  The margin-softmax loss of a batch of rows against a table of class vectors, written twice over the extended
  reals.

  Each row of the batch and each class vector is scaled to unit length (its Euclidean norm kept away from zero by a
  small constant); the cosine of row i against class j is the inner product of the two scaled vectors. The class a row
  is labelled with has its cosine replaced by the margin value: cos (θ + m) = c · cos m − √(1 − c²) · sin m where the
  cosine c is positive, c itself otherwise. The loss of a row is the negative log-softmax of the scaled logits at the
  label, and the result is the mean over the rows.

  `kernelRow` shifts every logit by the scale itself (a cosine is at most 1) and sums the exponentials of all classes
  but the label, adding the label's own term afterwards; `referenceRow` shifts by the row's maximum and sums over every
  class. The two agree wherever the inputs are real numbers: that is the log-sum-exp shift law.
-/
import Idealize.ShloMosaic.PureOps.Ideal
import Idealize.ShloMosaic.PureOps.Ideal.Laws
import Idealize.ShloMosaic.Lib.ValueIdx

noncomputable section

open scoped BigOperators

namespace MarginLoss

open Idealize.ShloMosaic Idealize.ShloMosaic.ValueIdx

/-- The small constant the norms are clamped from below by (the float nearest 1e-12). -/
abbrev epsE : EReal := Ideal.ofBits .f32 0x2B8CBCCC#32
/-- The scale of the logits: 30. -/
abbrev scaleE : EReal := Ideal.ofBits .f32 0x41F00000#32
/-- The float nearest cos 0.5. -/
abbrev cosmE : EReal := Ideal.ofBits .f32 0x3F60A940#32
/-- The float nearest sin 0.5. -/
abbrev sinmE : EReal := Ideal.ofBits .f32 0x3EF57744#32
/-- One. -/
abbrev oneE : EReal := Ideal.ofBits .f32 0x3F800000#32
/-- The pattern of −∞, from which a running maximum starts. -/
abbrev negInfE : EReal := Ideal.ofBits .f32 0xFF800000#32
/-- The number of rows, as the mean divides by it: 512. -/
abbrev rowsE : EReal := Ideal.ofBits .f32 0x44000000#32

/-- The Euclidean norm of a vector, clamped from below by the small constant. -/
def clampedNorm {n : ℕ} (v : Fin n → EReal) : EReal := max (Ideal.sqrt (∑ d, v d * v d)) epsE

/-- Entry `d` of row `i` of a matrix of 512-vectors, the row scaled by its clamped norm. -/
def unitRow {r : ℕ} (x : (⟨2, ![r, 512]⟩ : Shape).Idx → EReal) (i : Fin r) (d : Fin 512) : EReal :=
  Ideal.div (x (ix2 i d)) (clampedNorm fun d' => x (ix2 i d'))

/-- The cosine of batch row `i` against class `j`: the inner product of the two scaled vectors. -/
def cosine (x : (⟨2, ![512, 512]⟩ : Shape).Idx → EReal) (w : (⟨2, ![100000, 512]⟩ : Shape).Idx → EReal)
    (i : Fin 512) (j : Fin 100000) : EReal :=
  ∑ d : Fin 512, unitRow x i d * unitRow w j d

/-- The margin value of a cosine `c`: c · cos m − √(max (1 − c²) 0) · sin m where c is positive, c otherwise. -/
def margin (c : EReal) : EReal :=
  if 0 < c then c * cosmE - Ideal.sqrt (max (oneE - c * c) 0) * sinmE else c

/-- The exponentials of the scaled cosines of row `i`, each shifted by the scale, summed over every class but `t`. -/
def maskedExpSum (x : (⟨2, ![512, 512]⟩ : Shape).Idx → EReal) (w : (⟨2, ![100000, 512]⟩ : Shape).Idx → EReal)
    (t : Fin 100000) (i : Fin 512) : EReal :=
  ∑ j : Fin 100000, if j = t then 0 else Ideal.exp (scaleE * cosine x w i j - scaleE)

/-- The loss of row `i` labelled `t`, the logits shifted by the scale and the label's term added apart. -/
def kernelRow (x : (⟨2, ![512, 512]⟩ : Shape).Idx → EReal) (w : (⟨2, ![100000, 512]⟩ : Shape).Idx → EReal)
    (t : Fin 100000) (i : Fin 512) : EReal :=
  Ideal.log (maskedExpSum x w t i + Ideal.exp (scaleE * margin (cosine x w i t) - scaleE))
    + scaleE * (oneE - margin (cosine x w i t))

/-- The scaled logit of row `i` at class `j` when the row is labelled `t`: the margin value at the label, the
    cosine elsewhere, written with the label's indicator as a factor. -/
def logit (x : (⟨2, ![512, 512]⟩ : Shape).Idx → EReal) (w : (⟨2, ![100000, 512]⟩ : Shape).Idx → EReal)
    (t : Fin 100000) (i : Fin 512) (j : Fin 100000) : EReal :=
  scaleE * ((if j = t then (1 : EReal) else 0) * margin (cosine x w i j)
    + (oneE - (if j = t then (1 : EReal) else 0)) * cosine x w i j)

/-- The maximum of row `i`'s logits, folded from −∞. -/
def rowMax (x : (⟨2, ![512, 512]⟩ : Shape).Idx → EReal) (w : (⟨2, ![100000, 512]⟩ : Shape).Idx → EReal)
    (t : Fin 100000) (i : Fin 512) : EReal :=
  max negInfE (Finset.univ.fold max negInfE (logit x w t i))

/-- The loss of row `i` labelled `t` as the negative log-softmax at the label, the logits shifted by the row's
    maximum. -/
def referenceRow (x : (⟨2, ![512, 512]⟩ : Shape).Idx → EReal) (w : (⟨2, ![100000, 512]⟩ : Shape).Idx → EReal)
    (t : Fin 100000) (i : Fin 512) : EReal :=
  -((logit x w t i t - rowMax x w t i)
    - Ideal.log (∑ j : Fin 100000, Ideal.exp (logit x w t i j - rowMax x w t i)))

/-- The mean of the rows' losses. -/
def meanLoss (r : Fin 512 → EReal) : EReal := Ideal.div (∑ i : Fin 512, r i) rowsE

end MarginLoss

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.KTailApply.lean ====
/-
  The host operations that follow the kernel's region, read at an index.

  The tail is a composition of elementwise operations, broadcasts, a reshape, one row-take and sums along one axis.
  Each is read at an index by coordinates: a broadcast reads the entry its coordinates name, the reshape that drops a
  trailing unit axis reads the same coordinates with 0 appended, the row-take reads the table at the row the label names
  (a label below 100000 is nonnegative read signed, so it is not counted from the end and not clamped), and a sum along
  one axis is the sum over that axis's coordinate. Put together, the tail is the mean over the rows of
  log (the two groups' sums + exp (30 p − 30)) + 30 (1 − p), p the margin value of the row's cosine against the unit
  vector of its label's class.
-/
import proofs.«431268_j55817394979146_2_alg».proof.Proof.KTailDef
import proofs.«431268_j55817394979146_2_alg».proof.Proof.Spec
import proofs.«431268_j55817394979146_2_alg».proof.Proof.LibGatherRows
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.Tail

open Idealize.ShloMosaic Idealize.ShloMosaic.ValueIdx Cert.KernelIdeal MarginLoss

/-! ## Broadcasts and the reshape, read by coordinates -/

section Layout
variable {α : Type}

/-- A vector laid out as a column reads, at (i, 0), its entry i. -/
theorem column_apply (h1 : S512.BroadcastsInDim S512x1 (![0] : Fin 1 → Fin S512x1.rank)) (v : S512.Idx → α)
    (i : Fin 512) (z : Fin 1) : broadcastInDim S512x1 ![0] h1 v (ix2 i z) = v (ix1 i) :=
  broadcastInDim_apply _ h1 v (ix2 i z) (ix1 i) fun a => match a with
    | ⟨0, _⟩ => rfl

/-- A vector laid out as a column and then spread over 512 columns reads, at (i, d), its entry i. -/
theorem spread_apply (h1 : S512.BroadcastsInDim S512x1 (![0] : Fin 1 → Fin S512x1.rank))
    (h2 : S512x1.BroadcastsInDim S512x512 (![0, 1] : Fin 2 → Fin S512x512.rank)) (v : S512.Idx → α) (i d : Fin 512) :
    broadcastInDim S512x512 ![0, 1] h2 (broadcastInDim S512x1 ![0] h1 v) (ix2 i d) = v (ix1 i) :=
  (broadcastInDim_apply _ h2 _ (ix2 i d) (ix2 i (0 : Fin 1)) fun a => match a with
    | ⟨0, _⟩ => rfl
    | ⟨1, _⟩ => rfl).trans (column_apply h1 v i 0)

/-- The reshape that drops the trailing unit axis of a [2, 512, 1] array reads, at (g, i), the entry (g, i, 0):
    both have row-major position 512 g + i. -/
theorem squeeze_apply (h : S2x512x1.ShapeCasts S2x512) (l : S2x512x1.Idx → α) (g : Fin 2) (i : Fin 512) :
    shapeCast S2x512 l h (ix2 g i) = l (ix3 g i (0 : Fin 1)) :=
  shapeCast_apply l h _ _ (by
    rw [Shape.rowMajor_val_three, Shape.rowMajor_val_two]
    show (g.val * 512 + i.val) * 1 + 0 = g.val * 512 + i.val
    omega)

end Layout

/-! ## Sums along one axis, from the zero pattern -/

/-- The sum along the columns of a [512, 512] array, at row i: the sum over d of the entries (i, d). -/
theorem rowSum_apply (h' : S512x512.ReducesTo [1] S512) (hu : 0 < S_.numel) (x : FVec Ideal S512x512 .f32) (i : Fin 512) :
    Host.reduceAdd (F := Ideal) x (constant S_ .f32 0x00000000#32) h' hu (ix1 i) = ∑ d : Fin 512, x (ix2 i d) := by
  have h : S512x512.Reduces [1] S512 := by decide
  show Ideal.hostReduceAdd h' x (Ideal.ofBits .f32 0x00000000#32) (ix1 i) = _
  rw [Ideal.hostReduceAdd_single h' h, Ideal.ofBits_zero_f32, zero_add]
  exact Finset.sum_congr rfl fun d _ => congrArg x (funext fun c => match c with
    | ⟨0, _⟩ => rfl
    | ⟨1, _⟩ => rfl)

/-- The sum along the first axis of a [2, 512] array, at column i: the two entries (0, i) and (1, i) added. -/
theorem groupSum_apply (h' : S2x512.ReducesTo [0] S512) (hu : 0 < S_.numel) (x : FVec Ideal S2x512 .f32) (i : Fin 512) :
    Host.reduceAdd (F := Ideal) x (constant S_ .f32 0x00000000#32) h' hu (ix1 i)
      = x (ix2 (0 : Fin 2) i) + x (ix2 (1 : Fin 2) i) := by
  have h : S2x512.Reduces [0] S512 := by decide
  show Ideal.hostReduceAdd h' x (Ideal.ofBits .f32 0x00000000#32) (ix1 i) = _
  rw [Ideal.hostReduceAdd_single h' h, Ideal.ofBits_zero_f32, zero_add]
  refine (Fin.sum_univ_two _).trans ?_
  exact congrArg₂ (· + ·)
    (congrArg x (funext fun c => match c with
      | ⟨0, _⟩ => rfl
      | ⟨1, _⟩ => rfl))
    (congrArg x (funext fun c => match c with
      | ⟨0, _⟩ => rfl
      | ⟨1, _⟩ => rfl))

/-- The sum of a vector of 512 entries: the sum over i of the entries (an index of the vector is its one coordinate). -/
theorem totalSum_apply (h' : S512.ReducesTo [0] S_) (hu : 0 < S_.numel) (x : FVec Ideal S512 .f32) (j : S_.Idx) :
    Host.reduceAdd (F := Ideal) x (constant S_ .f32 0x00000000#32) h' hu j = ∑ i : Fin 512, x (ix1 i) := by
  show Ideal.hostReduceAdd h' x (Ideal.ofBits .f32 0x00000000#32) j = _
  rw [Ideal.hostReduceAdd_total h' (fun b => b.elim0), Ideal.ofBits_zero_f32, zero_add]
  exact (Equiv.sum_comp (idxEquiv1 (n := 512)).symm x).symm

/-! ## The labels as row numbers -/

/-- A label word below 100000 is nonnegative read signed: it does not test negative. -/
theorem not_negative {w : BitVec 32} (h : w.toNat < 100000) : IntOp.cmpi .slt w 0#32 = 0#1 := by
  refine eq_zero_of_ne_one fun e => ?_
  rw [IntOp.cmpi_slt, StableHlo.Predicate.toInt_eq_toNat_of_lt (by omega)] at e
  have h0 : (0#32 : BitVec 32).toInt = 0 := by decide
  omega

/-- The row number of a label below 100000 is the label itself. -/
theorem rowIdx_apply (tgt : IVec S512 32) (i : Fin 512) (z : Fin 1) (h : (tgt (ix1 i)).toNat < 100000) :
    rowIdx tgt (ix2 i z) = tgt (ix1 i) := by
  unfold rowIdx
  rw [column_apply]
  show Scalar.select (IntOp.cmpi .slt (tgt (ix1 i)) 0#32) (IntOp.addi (tgt (ix1 i)) 100000#32) (tgt (ix1 i)) = _
  rw [not_negative h, select_zero]

/-- The row taken for row i of the batch is the class vector of its label: the label is in range, so reading it signed
    and clamping it into [0, 99999] changes nothing. -/
theorem rows_apply (w : FVec Ideal S100000x512 .f32) (tgt : IVec S512 32) (i d : Fin 512)
    (h : (tgt (ix1 i)).toNat < 100000) :
    Host.gather gather_S100000x512_S512x1_S512x512_1_0_n_n_0_1_1512 w (rowIdx tgt) (ix2 i d)
      = w (ix2 ⟨(tgt (ix1 i)).toNat, h⟩ d) := by
  refine (GatherRows.gather_rows_apply (N := 100000) (C := 512) (n := 512) (by decide)
    Gen.gather_S100000x512_S512x1_S512x512_1_0_n_n_0_1_1512_wf w (rowIdx tgt) i d).trans ?_
  refine congrArg (fun r => w (ix2 r d)) (Fin.ext ?_)
  show min (rowIdx tgt (ix2 i ⟨0, Nat.one_pos⟩)).toInt.toNat (100000 - 1) = (tgt (ix1 i)).toNat
  rw [rowIdx_apply tgt i _ h, StableHlo.Predicate.toInt_eq_toNat_of_lt (by omega), Int.toNat_natCast]
  omega

/-! ## The label's unit vector, cosine and margin value -/

/-- Row i of the scaled label rows is the unit vector of the class row i is labelled with. -/
theorem labelRows_apply (w : FVec Ideal S100000x512 .f32) (tgt : IVec S512 32)
    (hr : ∀ i : Fin 512, (tgt (ix1 i)).toNat < 100000) (i d : Fin 512) :
    labelRows (F := Ideal) w tgt (ix2 i d) = unitRow w ⟨(tgt (ix1 i)).toNat, hr i⟩ d := by
  unfold labelRows unitRow clampedNorm
  show Ideal.div (Host.gather gather_S100000x512_S512x1_S512x512_1_0_n_n_0_1_1512 w (rowIdx tgt) (ix2 i d))
    (broadcastInDim (s := S512x1) S512x512 ![0, 1] Gen.bcast_S512x1_S512x512_0_1
      (broadcastInDim (s := S512) S512x1 ![0] Gen.bcast_S512_S512x1_0 _) (ix2 i d)) = _
  rw [spread_apply, rows_apply w tgt i d (hr i)]
  show Ideal.div _ (max (Ideal.sqrt (Host.reduceAdd (F := Ideal) _ (constant S_ .f32 0x00000000#32)
    Gen.reducesTo_S512x512_S512_d1 Gen.h_S_ (ix1 i))) epsE) = _
  rw [rowSum_apply]
  refine congrArg (fun s => Ideal.div _ (max (Ideal.sqrt s) epsE)) (Finset.sum_congr rfl fun k _ => ?_)
  show Host.gather gather_S100000x512_S512x1_S512x512_1_0_n_n_0_1_1512 w (rowIdx tgt) (ix2 i k)
    * Host.gather gather_S100000x512_S512x1_S512x512_1_0_n_n_0_1_1512 w (rowIdx tgt) (ix2 i k) = _
  rw [rows_apply w tgt i k (hr i)]

/-- The cosine of row i against its label's class: the sum over d of the row's entry times the unit vector's. -/
theorem labelCos_apply (xn : FVec Ideal S512x512 .f32) (w : FVec Ideal S100000x512 .f32) (tgt : IVec S512 32)
    (hr : ∀ i : Fin 512, (tgt (ix1 i)).toNat < 100000) (i : Fin 512) :
    labelCos (F := Ideal) xn w tgt (ix1 i)
      = ∑ d : Fin 512, xn (ix2 i d) * unitRow w ⟨(tgt (ix1 i)).toNat, hr i⟩ d := by
  unfold labelCos
  rw [rowSum_apply]
  exact Finset.sum_congr rfl fun d _ => congrArg (xn (ix2 i d) * ·) (labelRows_apply w tgt hr i d)

/-- The comparison "greater than" is 1 where the strict inequality holds … -/
theorem cmp_ogt_of_lt {x y : EReal} (h : y < x) : Ideal.cmp .ogt x y = 1#1 := by
  show BitVec.ofBool (decide (y < x)) = 1#1
  rw [decide_eq_true h]; rfl

/-- … and 0 where it does not. -/
theorem cmp_ogt_of_not_lt {x y : EReal} (h : ¬y < x) : Ideal.cmp .ogt x y = 0#1 := by
  show BitVec.ofBool (decide (y < x)) = 0#1
  rw [decide_eq_false h]; rfl

/-- The margin vector at row i is the margin value of the cosine there. -/
theorem marginVec_apply (c : FVec Ideal S512 .f32) (i : Fin 512) :
    marginVec (F := Ideal) c (ix1 i) = margin (c (ix1 i)) := by
  show Scalar.select (Ideal.cmp .ogt (c (ix1 i)) (Ideal.ofBits .f32 0x00000000#32))
    (c (ix1 i) * cosmE - Ideal.sqrt (max (oneE - c (ix1 i) * c (ix1 i)) (Ideal.ofBits .f32 0x00000000#32)) * sinmE)
    (c (ix1 i)) = _
  rw [Ideal.ofBits_zero_f32]
  unfold margin
  by_cases h : 0 < c (ix1 i)
  · rw [cmp_ogt_of_lt h, select_one, if_pos h]
  · rw [cmp_ogt_of_not_lt h, select_zero, if_neg h]

/-! ## The rows' losses and their mean -/

/-- The loss of row i: the logarithm of the two groups' sums plus the label's own term, plus 30 (1 − p). -/
theorem rowLoss_apply (l : FVec Ideal S2x512x1 .f32) (p : FVec Ideal S512 .f32) (i : Fin 512) :
    rowLoss (F := Ideal) l p (ix1 i)
      = Ideal.log ((l (ix3 (0 : Fin 2) i (0 : Fin 1)) + l (ix3 (1 : Fin 2) i (0 : Fin 1)))
          + Ideal.exp (scaleE * p (ix1 i) - scaleE))
        + scaleE * (oneE - p (ix1 i)) := by
  show Ideal.log (Host.reduceAdd (F := Ideal) (fun j => shapeCast S2x512 l Gen.shapeCasts_S2x512x1_S2x512 j)
      (constant S_ .f32 0x00000000#32) Gen.reducesTo_S2x512_S512_d0 Gen.h_S_ (ix1 i)
        + Ideal.exp (scaleE * p (ix1 i) - scaleE))
      + scaleE * (oneE - p (ix1 i)) = _
  rw [groupSum_apply, squeeze_apply, squeeze_apply]

/-- The mean of a vector of 512 losses is the mean of its entries. -/
theorem meanVec_eq (n : FVec Ideal S512 .f32) : meanVec (F := Ideal) n = fun _ => meanLoss fun i => n (ix1 i) := by
  funext j
  show Ideal.div (Host.reduceAdd (F := Ideal) n (constant S_ .f32 0x00000000#32) Gen.reducesTo_S512_S_d0 Gen.h_S_ j)
    (Ideal.ofBits .f32 0x44000000#32) = _
  rw [totalSum_apply]
  rfl

/-! ## The tail -/

/-- The tail at its one index: the mean over the rows of the loss written with the label's margin value. -/
theorem tail_apply (l : FVec Ideal S2x512x1 .f32) (xn : FVec Ideal S512x512 .f32) (w : FVec Ideal S100000x512 .f32)
    (tgt : IVec S512 32) (hr : ∀ i : Fin 512, (tgt (ix1 i)).toNat < 100000) :
    tail (F := Ideal) l xn w tgt = fun _ => meanLoss fun i =>
      Ideal.log ((l (ix3 (0 : Fin 2) i (0 : Fin 1)) + l (ix3 (1 : Fin 2) i (0 : Fin 1)))
          + Ideal.exp (scaleE * margin (∑ d : Fin 512, xn (ix2 i d) * unitRow w ⟨(tgt (ix1 i)).toNat, hr i⟩ d) - scaleE))
        + scaleE * (oneE - margin (∑ d : Fin 512, xn (ix2 i d) * unitRow w ⟨(tgt (ix1 i)).toNat, hr i⟩ d)) := by
  unfold tail
  rw [meanVec_eq]
  funext _
  refine congrArg meanLoss (funext fun i => ?_)
  rw [rowLoss_apply, marginVec_apply, labelCos_apply xn w tgt hr i]

end Cert.KernelIdeal.Tail

end
-- ==== Proof.KHeadDef.lean ====
/-
  The host operations before the kernel's region, as pure functions of the arguments: the batch with each row scaled
  by its clamped Euclidean norm, and the labels laid out as a column.
-/
import proofs.«431268_j55817394979146_2_alg».proof.Proof.Gen.KernelIdeal

noncomputable section

namespace Cert.KernelIdeal.Head

open Idealize.ShloMosaic Cert.KernelIdeal Cert.KernelIdeal.Gen

variable {F : FTy → Type} [FloatOps F]

/-- The batch, each row divided by the larger of its Euclidean norm and the small constant. -/
def unitBatch (x : FVec F S512x512 .f32) : FVec F S512x512 .f32 :=
  Host.divf x
    (broadcastInDim S512x512 ![0, 1] bcast_S512x1_S512x512_0_1
      (maximumf
        (Host.sqrt (broadcastInDim S512x1 ![0] bcast_S512_S512x1_0
          (Host.reduceAdd (mulf x x) (constant S_ .f32 0x00000000#32) reducesTo_S512x512_S512_d1 h_S_)))
        (broadcastInDim S512x1 ![] bcast_S_S512x1 (constant S_ .f32 0x2B8CBCCC#32))))

/-- The labels as a [512, 1] column. -/
def labelCol (tgt : IVec S512 32) : IVec S512x1 32 :=
  broadcastInDim S512x1 ![0] bcast_S512_S512x1_0 tgt

end Cert.KernelIdeal.Head

end
-- ==== Proof.KHeadApply.lean ====
/-
  The host operations before the kernel's region, read at an index.

  The scaled batch at (i, d) is the entry x (i, d) divided by row i's clamped norm: the divisor is a [512, 1] column
  repeated along each row, so at (i, d) it is the column at (i, 0); the column is the larger of two columns, the
  square root of the rows' sums of squares laid out as a column and the small constant repeated; a vector laid out as
  a column reads at (i, 0) the vector at i, a repeated scalar reads the scalar everywhere, and the sum of row i's
  squares from the initial value zero is Σ_d x (i, d) · x (i, d). The labels laid out as a column read at (i, 0) the
  label of row i.
-/
import proofs.«431268_j55817394979146_2_alg».proof.Proof.KHeadDef
import proofs.«431268_j55817394979146_2_alg».proof.Proof.Spec
import Idealize.ShloMosaic.Lib.ValueIdx
import Idealize.ShloMosaic.Lib.IdealHost
import Idealize.ShloMosaic.PureOps.Ideal.Laws

open scoped BigOperators

namespace Cert.KernelIdeal.Head

open Idealize.ShloMosaic Idealize.ShloMosaic.ValueIdx Cert.KernelIdeal MarginLoss

/-! ### Re-indexings at an index -/

/-- A [512, 1] column repeated along the rows of a [512, 512] array reads, at (i, d), the column at (i, 0). -/
theorem rowsOfCol_apply {α : Type} (h : S512x1.BroadcastsInDim S512x512 ![0, 1]) (v : S512x1.Idx → α)
    (i : Fin 512) (d : Fin 512) :
    broadcastInDim S512x512 ![0, 1] h v (ix2 i d) = v (ix2 i ⟨0, Nat.one_pos⟩) := by
  unfold broadcastInDim
  refine congrArg v (funext fun a => ?_)
  match a with
  | ⟨0, _⟩ => rfl
  | ⟨1, _⟩ => rfl

/-- A 512-vector laid out as a [512, 1] column reads, at (i, 0), the vector at i. -/
theorem colOfVec_apply {α : Type} (h : S512.BroadcastsInDim S512x1 ![0]) (v : S512.Idx → α) (i : Fin 512) :
    broadcastInDim S512x1 ![0] h v (ix2 i ⟨0, Nat.one_pos⟩) = v (ix1 i) := by
  unfold broadcastInDim
  refine congrArg v (funext fun a => ?_)
  match a with
  | ⟨0, _⟩ => rfl

/-! ### The sums of squares -/

/-- The host's sum over the columns of the squares, from the initial value zero, is at row i the sum over d of
    x (i, d) · x (i, d). -/
theorem sumSq_apply (x : FVec Ideal S512x512 .f32) (i : Fin 512) :
    Host.reduceAdd (mulf x x) (constant S_ .f32 0x00000000#32) Gen.reducesTo_S512x512_S512_d1 Gen.h_S_ (ix1 i)
      = ∑ d : Fin 512, x (ix2 i d) * x (ix2 i d) := by
  have h : S512x512.Reduces [1] S512 := by decide
  refine (Ideal.hostReduceAdd_single Gen.reducesTo_S512x512_S512_d1 h (mulf x x) _ (ix1 i)).trans ?_
  rw [constant_apply, Ideal.ofBits_zero_f32, zero_add]
  refine Finset.sum_congr rfl fun k _ => ?_
  have e : h.lift (ix1 i) k = ix2 i k := by
    funext a
    match a with
    | ⟨0, _⟩ => rfl
    | ⟨1, _⟩ => rfl
  rw [mulf_apply, e]
  rfl

/-! ### The two host functions -/

/-- The scaled batch at (i, d) is the entry divided by the row's clamped norm. -/
theorem unitBatch_apply (x : FVec Ideal S512x512 .f32) (i : Fin 512) (d : Fin 512) :
    unitBatch (F := Ideal) x (ix2 i d) = unitRow x i d := by
  unfold unitBatch
  rw [hostDivf_apply, rowsOfCol_apply, maximumf_apply]
  show Ideal.div (x (ix2 i d))
      (max (Ideal.sqrt (broadcastInDim S512x1 ![0] Gen.bcast_S512_S512x1_0
          (Host.reduceAdd (mulf x x) (constant S_ .f32 0x00000000#32) Gen.reducesTo_S512x512_S512_d1 Gen.h_S_)
          (ix2 i ⟨0, Nat.one_pos⟩)))
        (broadcastInDim S512x1 ![] Gen.bcast_S_S512x1 (constant (F := Ideal) S_ .f32 0x2B8CBCCC#32)
          (ix2 i ⟨0, Nat.one_pos⟩)))
    = unitRow x i d
  rw [colOfVec_apply, sumSq_apply, broadcastInDim_scalar_apply, constant_apply]
  rfl

/-- The labels laid out as a column read at (i, 0) the label of row i. -/
theorem labelCol_apply (tgt : IVec S512 32) (i : Fin 512) :
    labelCol tgt (ix2 i ⟨0, Nat.one_pos⟩) = tgt (ix1 i) := by
  unfold labelCol
  exact colOfVec_apply _ tgt i

end Cert.KernelIdeal.Head
-- ==== Proof.KTile.lean ====
/-
  The body's arithmetic for one tile of 5000 classes, read at one row of the batch.

  A tile holds 5000 class vectors of length 512. Each is scaled to unit length: the sum of its squares, the square
  root, the maximum with the small constant, and the division of every entry by that clamped norm. The product of the
  batch with the transposed scaled tile gives, at row r and lane l, the inner product of batch row r with scaled class l.
  That cosine is scaled by 30 and shifted by 30, exponentiated, and replaced by zero at the lane whose global class
  number (the tile's first class plus the lane, as a 32-bit word) is the row's label. The row's result is the sum of
  those 5000 lanes.
-/
import proofs.«431268_j55817394979146_2_alg».proof.Proof.Gen.KernelIdeal.Skeleton
import proofs.«431268_j55817394979146_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen MarginLoss Idealize.ShloMosaic Idealize.ShloMosaic.ValueIdx

/-! ## Columns: a vector as a one-column matrix, and a column spread over the lanes -/

/-- An `[a]` vector cast to the column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p ⟨0, Nat.one_pos⟩) := by
  refine broadcastTo_apply v h (ix2 p c) (ix2 p ⟨0, Nat.one_pos⟩) fun ax => ?_
  match ax with
  | ⟨0, _⟩ =>
    show p.val = if a = 1 then 0 else p.val
    split
    · have := p.isLt; omega
    · rfl
  | ⟨1, _⟩ => rfl

/-! ## The sum over the lanes of a matrix, read at a row -/

/-- The sum over axis 1 of an `[a, b]` matrix, read at row `p`, is the sum of that row's `b` entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext c
  apply Fin.ext
  match c with
  | ⟨0, _⟩ => rfl
  | ⟨1, _⟩ => rfl

/-! ## The product of the batch with the transposed tile, read at an entry -/

theorem lhsAxis0 (j : S512x5000.Idx) (q : dot_S512x512_S512x5000_S512x5000_1_0_0_1_n_n.contr.Idx) :
    (dot_S512x512_S512x5000_S512x5000_1_0_0_1_n_n.lhsIdx j q 0).val = (j 0).val := by
  unfold DotDims.lhsIdx
  rw [dif_neg (show ¬(0 : Fin S512x512.rank) ∈ dot_S512x512_S512x5000_S512x5000_1_0_0_1_n_n.lhsBatch by decide),
    dif_pos (show (0 : Fin S512x512.rank) ∈ dot_S512x512_S512x5000_S512x5000_1_0_0_1_n_n.lhsNonContracting by decide)]
  rfl
theorem lhsAxis1 (j : S512x5000.Idx) (q : dot_S512x512_S512x5000_S512x5000_1_0_0_1_n_n.contr.Idx) :
    (dot_S512x512_S512x5000_S512x5000_1_0_0_1_n_n.lhsIdx j q 1).val = (q ⟨0, by decide⟩).val :=
  dot_S512x512_S512x5000_S512x5000_1_0_0_1_n_n.lhsIdx_val_of_single rfl j q
theorem rhsAxis0 (j : S512x5000.Idx) (q : dot_S512x512_S512x5000_S512x5000_1_0_0_1_n_n.contr.Idx) :
    (dot_S512x512_S512x5000_S512x5000_1_0_0_1_n_n.rhsIdx j q 0).val = (q ⟨0, by decide⟩).val :=
  dot_S512x512_S512x5000_S512x5000_1_0_0_1_n_n.rhsIdx_val_of_single rfl j q
theorem rhsAxis1 (j : S512x5000.Idx) (q : dot_S512x512_S512x5000_S512x5000_1_0_0_1_n_n.contr.Idx) :
    (dot_S512x512_S512x5000_S512x5000_1_0_0_1_n_n.rhsIdx j q 1).val = (j 1).val := by
  unfold DotDims.rhsIdx
  rw [dif_neg (show ¬(1 : Fin S512x5000.rank) ∈ dot_S512x512_S512x5000_S512x5000_1_0_0_1_n_n.rhsBatch by decide),
    dif_pos (show (1 : Fin S512x5000.rank) ∈ dot_S512x512_S512x5000_S512x5000_1_0_0_1_n_n.rhsNonContracting by decide)]
  rfl

/-- The product into a zero accumulator, read at `(r, l)`: the inner product of row `r` of the left operand with
    column `l` of the right. -/
theorem dot_apply (A : FVec Ideal S512x512 .bf16) (B : FVec Ideal S512x5000 .bf16) (r : Fin 512) (l : Fin 5000) :
    matmul dot_S512x512_S512x5000_S512x5000_1_0_0_1_n_n none A B (constant (F := Ideal) S512x5000 .f32 0x00000000#32) (ix2 r l)
      = ∑ d : Fin 512, A (ix2 r d) * B (ix2 d l) := by
  simp only [matmul]
  rw [Ideal.matmul_constant_zero_apply,
    ← Equiv.sum_comp (contrEquiv1 dot_S512x512_S512x5000_S512x5000_1_0_0_1_n_n 512 rfl rfl).symm]
  refine Finset.sum_congr rfl fun k _ => ?_
  have hk := contrEquiv1_symm_val dot_S512x512_S512x5000_S512x5000_1_0_0_1_n_n 512 rfl rfl k
  have el : dot_S512x512_S512x5000_S512x5000_1_0_0_1_n_n.lhsIdx (ix2 r l)
      ((contrEquiv1 dot_S512x512_S512x5000_S512x5000_1_0_0_1_n_n 512 rfl rfl).symm k) = ix2 r k :=
    funext fun a => Fin.ext (by
      match a with
      | ⟨0, _⟩ => exact lhsAxis0 _ _
      | ⟨1, _⟩ => exact (lhsAxis1 _ _).trans hk)
  have er : dot_S512x512_S512x5000_S512x5000_1_0_0_1_n_n.rhsIdx (ix2 r l)
      ((contrEquiv1 dot_S512x512_S512x5000_S512x5000_1_0_0_1_n_n 512 rfl rfl).symm k) = ix2 k l :=
    funext fun a => Fin.ext (by
      match a with
      | ⟨0, _⟩ => exact (rhsAxis0 _ _).trans hk
      | ⟨1, _⟩ => exact rhsAxis1 _ _)
  rw [el, er]

/-! ## A class row scaled to unit length -/

/-- Entry `(l, d)` of the tile after each row is divided by its clamped norm (and the format narrowed, which
    changes nothing on the extended reals) is the specification's `unitRow`. -/
theorem scaledTile_apply (wb : FVec Ideal S5000x512 .f32) (l : Fin 5000) (d : Fin 512)
    (hR : S5000x512.Reduces [1] S5000) (hφ : FKind.Formats .f32)
    (hacc : (0x00000000#32 : BitVec 32) = FKind.add.neutral .f32 hφ)
    (hC : S5000.ShapeCasts S5000x1) (hB : S5000x1.Broadcasts S5000x512) (hT : FTy.bits .bf16 < FTy.bits .f32) :
    truncf .bf16 (divf wb (broadcastTo S5000x512 (maximumf (Idealize.ShloMosaic.sqrt
        (shapeCast S5000x1 (multiReduction .add [1] S5000 (mulf wb wb) 0x00000000#32 hR hφ hacc) hC))
        (broadcast S5000x1 (Scalar.ofBits (F := Ideal) .f32 0x2B8CBCCC#32))) hB)) hT (ix2 l d)
      = unitRow wb l d := by
  unfold unitRow clampedNorm
  show Ideal.div (wb (ix2 l d)) (broadcastTo S5000x512 _ hB (ix2 l d)) = _
  refine congrArg (Ideal.div (wb (ix2 l d))) ?_
  refine (broadcastTo_a1_ab_apply _ hB l d).trans ?_
  show max (Ideal.sqrt (shapeCast S5000x1 _ hC (ix2 l ⟨0, Nat.one_pos⟩))) epsE = _
  refine congrArg (fun z => max (Ideal.sqrt z) epsE) ?_
  refine (shapeCast_a_a1_apply _ hC l _).trans ?_
  exact laneSum_apply (mulf wb wb) hR hφ hacc l

/-! ## The class number of a lane, and the label's lane -/

/-- The number of the first class of the tile at grid point (g, s): (10 g + s) · 5000. -/
def colBase (i : grid0.Coords) : ℕ := ((i 0).val * 10 + (i 1).val) * 5000

/-- The tile's first class number, built from the grid coordinates by 32-bit multiplications and additions, plus the
    lane: the word of `colBase i + l` (a word of a sum or product is the sum or product of the words). -/
theorem classWord (i : grid0.Coords) (l : ℕ) :
    IntOp.addi (Scalar.muli (Scalar.addi (Scalar.muli (BitVec.ofNat 32 (i 0).val) 10#32) (BitVec.ofNat 32 (i 1).val)) 5000#32)
        (BitVec.ofNat 32 l)
      = BitVec.ofNat 32 (colBase i + l) := by
  show (BitVec.ofNat 32 (i 0).val * 10#32 + BitVec.ofNat 32 (i 1).val) * 5000#32 + BitVec.ofNat 32 l = _
  rw [colBase, BitVec.ofNat_add, BitVec.ofNat_mul, BitVec.ofNat_add, BitVec.ofNat_mul]

/-- The comparison of two words for equality gives the bit `1` exactly when they are equal. -/
theorem cmpi_eq_one_iff (x y : BitVec 32) : IntOp.cmpi .eq x y = 1#1 ↔ x = y := by
  have hb : ∀ b : Bool, BitVec.ofBool b = 1#1 ↔ b = true := by intro b; cases b <;> decide
  simp only [IntOp.cmpi, hb, beq_iff_eq]

/-- The mask's bit at `(r, l)` is set exactly when lane `l`'s class number is row `r`'s label. -/
theorem maskBit_iff (i : grid0.Coords) (tb : IVec S512x1 32) (r : Fin 512) (l : Fin 5000)
    (hI : S512x5000.Iotas .tc 32 [1]) (hC : S512x1.ShapeCasts S512x1) (hB : S512x1.Broadcasts S512x5000) :
    cmpi .eq (addi (broadcast S512x5000
          (Scalar.muli (Scalar.addi (Scalar.muli (BitVec.ofNat 32 (i 0).val) 10#32) (BitVec.ofNat 32 (i 1).val)) 5000#32))
          (iota .tc S512x5000 32 [1] hI))
        (broadcastTo S512x5000 (shapeCast S512x1 tb hC) hB) (ix2 r l) = 1#1
      ↔ BitVec.ofNat 32 (colBase i + l.val) = tb (ix2 r ⟨0, Nat.one_pos⟩) := by
  have e1 : iota .tc S512x5000 32 [1] hI (ix2 r l) = BitVec.ofNat 32 l.val :=
    iota_single_apply .tc S512x5000 32 1 hI (ix2 r l)
  have e2 : broadcastTo S512x5000 (shapeCast S512x1 tb hC) hB (ix2 r l) = tb (ix2 r ⟨0, Nat.one_pos⟩) := by
    rw [shapeCast_self]
    exact broadcastTo_a1_ab_apply tb hB r l
  show IntOp.cmpi .eq (IntOp.addi _ (iota .tc S512x5000 32 [1] hI (ix2 r l)))
      (broadcastTo S512x5000 (shapeCast S512x1 tb hC) hB (ix2 r l)) = 1#1 ↔ _
  rw [e1, e2, broadcast_apply, classWord]
  exact cmpi_eq_one_iff _ _

/-- A select on a bit that is set exactly when `P` holds is the `if` on `P`. -/
theorem select_of_iff {α : Type} (c : BitVec 1) (P : Prop) [Decidable P] (h : c = 1#1 ↔ P) (x y : α) :
    Scalar.select c x y = if P then x else y := by
  unfold Scalar.select
  by_cases hp : P
  · have hc : c = 1 := h.mpr hp
    rw [if_pos hp]
    exact if_pos hc
  · have hc : ¬c = 1 := fun hc => hp (h.mp hc)
    rw [if_neg hp]
    exact if_neg hc

/-! ## The exponential of the scaled, shifted product -/

/-- Thirty times an entry, less thirty, exponentiated: read at an index. -/
theorem expStage_apply (M : FVec Ideal S512x5000 .f32) (j : S512x5000.Idx) :
    Idealize.ShloMosaic.exp (subf (mulf (broadcast S512x5000 (Scalar.ofBits (F := Ideal) .f32 0x41F00000#32)) M)
        (broadcast S512x5000 (Scalar.ofBits (F := Ideal) .f32 0x41F00000#32))) j
      = Ideal.exp (scaleE * M j - scaleE) := rfl

/-! ## The tile's payload at a row -/

/-- The tile's payload at row `r`: the sum over the 5000 lanes of the exponential of the scaled, shifted cosine of
    batch row `r` against class `l` of the tile, the lane of the row's label left out. -/
theorem tile_apply (i : grid0.Coords) (wb : FVec Ideal S5000x512 .f32) (xb : FVec Ideal S512x512 .f32)
    (tb : IVec S512x1 32) (r : Fin 512) :
    k0_pay4 (F := Ideal) i wb xb tb (ix2 r ⟨0, Nat.one_pos⟩)
      = ∑ l : Fin 5000, if BitVec.ofNat 32 (colBase i + l.val) = tb (ix2 r ⟨0, Nat.one_pos⟩) then (0 : EReal)
          else Ideal.exp (scaleE * (∑ d : Fin 512, xb (ix2 r d) * unitRow wb l d) - scaleE) := by
  unfold k0_pay4
  refine (shapeCast_a_a1_apply _ _ r _).trans ?_
  refine (laneSum_apply _ _ _ _ r).trans ?_
  refine Finset.sum_congr rfl fun l _ => ?_
  refine (select_of_iff _ _ (maskBit_iff i tb r l _ _ _) _ _).trans ?_
  refine if_congr Iff.rfl Ideal.ofBits_zero_f32 ?_
  refine (expStage_apply _ _).trans ?_
  refine congrArg (fun z => Ideal.exp (scaleE * z - scaleE)) ?_
  refine (dot_apply _ _ r l).trans ?_
  refine Finset.sum_congr rfl fun d _ => ?_
  refine congrArg₂ (· * ·) ?_ ?_
  · exact congrFun (shapeCast_self xb _) (ix2 r d)
  · refine (transpose_ix2_apply _ _ d l).trans ?_
    exact scaledTile_apply wb l d _ _ _ _ _ _

end Cert.KernelIdeal.TileValue

end
-- ==== Proof.KBlocks.lean ====
/-
  The three input windows' blocks at a grid point, read off the arguments, and the tile's value with them.

  At grid point t (of 20, in row-major order of the 2 × 10 grid) the class table's window holds rows
  5000 t … 5000 t + 4999 of the table; the batch's window holds the whole scaled batch, which the operations before
  the region computed from the batch argument (each row divided by its clamped norm); the labels' window holds the
  labels laid out as a column. So the tile's sum at row r is, lane by lane, the exponential of the scaled, shifted
  cosine of batch row r against class 5000 t + l of the table, the lane of the row's label left out: a scaled class
  row of the block is the scaled row of the table, and the inner product of two scaled rows is the cosine.
-/
import proofs.«431268_j55817394979146_2_alg».proof.Proof.Gen.KernelIdeal.Frame
import proofs.«431268_j55817394979146_2_alg».proof.Proof.KTile
import proofs.«431268_j55817394979146_2_alg».proof.Proof.KHeadDef
import proofs.«431268_j55817394979146_2_alg».proof.Proof.KHeadApply
import proofs.«431268_j55817394979146_2_alg».proof.Proof.Spec
import Idealize.ShloMosaic.Lib.StableHlo.Run
import Idealize.ShloMosaic.Lib.ValueIdx
import Idealize.ShloMosaic.Lib.Pipeline.Value

noncomputable section

open scoped BigOperators

namespace Cert.KernelIdeal.Blocks

open Cert.KernelIdeal Cert.KernelIdeal.Gen MarginLoss Idealize.ShloMosaic Idealize.ShloMosaic.TcCoe Idealize.SL.Sem
  Idealize.ShloMosaic.ValueIdx

variable (m : (ℓ : Loc nD τ sig) → Buf (Elt Ideal) ℓ)

/-! ## The grid: twenty points, the class table's block index the point's number -/

/-- Lane l of the tile at point t is a class of the table: 5000 t + l < 100000. -/
theorem col_lt' (t : Fin cfg0.N) (l : Fin 5000) : t.val * 5000 + l.val < 100000 := by
  have hN : cfg0.N = 20 := N_0
  have ht : t.val < 20 := lt_of_lt_of_eq t.isLt hN
  have hl := l.isLt
  omega

/-- The windows' block indices over the grid: the batch's and the labels' windows stay at block (0, 0), the class
    table's is at block (t, 0); and the grid coordinates (g, s) of point t satisfy 10 g + s = t. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ (grid0.coords t 0).val * 10 + (grid0.coords t 1).val = t.val :=
  (by decide +kernel : ∀ t : Fin grid0.N, _)

/-- The first class of the tile at point t is 5000 t. -/
theorem colBase_coords (t : Fin cfg0.N) : TileValue.colBase (grid0.coords t) = t.val * 5000 := by
  unfold TileValue.colBase
  rw [(idx_facts t).2.2.2.2.2.2]

/-! ## What the region finds in the two computed arrays -/

/-- The scaled batch the region finds is the batch argument with each row divided by its clamped norm. -/
theorem V_unitBatch (c : Dev nD) :
    (V m c main_call0_v4 : S512x512.Idx → EReal) = Head.unitBatch (F := Ideal) (m ((c : Thread nD τ).loc main_arg0)) := by
  show StableHlo.after hostOps0 (fun b => m (c, b)) (Proc.devRef .tc main_call0_v4) = _
  after_results
  rfl

/-- The label column the region finds is the labels argument laid out as a column. -/
theorem V_labelCol (c : Dev nD) :
    (V m c main_call0_v5 : S512x1.Idx → BitVec 32) = Head.labelCol (m ((c : Thread nD τ).loc main_arg2)) := by
  show StableHlo.after hostOps0 (fun b => m (c, b)) (Proc.devRef .tc main_call0_v5) = _
  after_results
  rfl

/-! ## The three blocks at a point, entry by entry -/

/-- The batch's block at any point, at (r, d), is the scaled batch: row r's entry d over the row's clamped norm. -/
theorem batchBlock_apply (c : Dev nD) (t : Fin cfg0.N) (r d : Fin 512) :
    (iblk m c 0 t : Vec Ideal S512x512 .f32) (ix2 r d) = unitRow (m ((c : Thread nD τ).loc main_arg0)) r d := by
  obtain ⟨e0, e1, -⟩ := idx_facts t
  have hb : (iblk m c 0 t : Vec Ideal S512x512 .f32) (ix2 r d)
      = (V m c main_call0_v4 : S512x512.Idx → EReal) (ix2 r d) := by
    unfold iblk
    rw [View.read_apply]
    show V m c main_call0_v4 _ = V m c main_call0_v4 _
    refine congrArg (V m c main_call0_v4) ?_
    funext a
    apply Fin.ext
    match a with
    | ⟨0, _⟩ => show win0_0.index t (0 : Fin 2) * 512 + 1 * r.val = r.val; rw [e0]; omega
    | ⟨1, _⟩ => show win0_0.index t (1 : Fin 2) * 512 + 1 * d.val = d.val; rw [e1]; omega
  rw [hb, V_unitBatch]
  exact Head.unitBatch_apply _ r d

/-- The class table's block at point t, at (l, d), is the table at row 5000 t + l. -/
theorem tileBlock_apply (c : Dev nD) (t : Fin cfg0.N) (l : Fin 5000) (d : Fin 512) :
    (iblk m c 1 t : Vec Ideal S5000x512 .f32) (ix2 l d)
      = (m ((c : Thread nD τ).loc main_arg1) : S100000x512.Idx → EReal) (ix2 ⟨t.val * 5000 + l.val, col_lt' t l⟩ d) := by
  obtain ⟨-, -, e0, e1, -⟩ := idx_facts t
  unfold iblk
  rw [View.read_apply]
  show V m c main_arg1 _ = _
  rw [V_main_arg1]
  refine congrArg (m ((c : Thread nD τ).loc main_arg1)) ?_
  funext a
  apply Fin.ext
  match a with
  | ⟨0, _⟩ => show win0_1.index t (0 : Fin 2) * 5000 + 1 * l.val = t.val * 5000 + l.val; rw [e0]; omega
  | ⟨1, _⟩ => show win0_1.index t (1 : Fin 2) * 512 + 1 * d.val = d.val; rw [e1]; omega

/-- The labels' block at any point, at (r, 0), is row r's label. -/
theorem labelBlock_apply (c : Dev nD) (t : Fin cfg0.N) (r : Fin 512) :
    (iblk m c 2 t : IVec S512x1 32) (ix2 r ⟨0, Nat.one_pos⟩)
      = (m ((c : Thread nD τ).loc main_arg2) : S512.Idx → BitVec 32) (ix1 r) := by
  obtain ⟨-, -, -, -, e0, e1, -⟩ := idx_facts t
  have hb : (iblk m c 2 t : IVec S512x1 32) (ix2 r ⟨0, Nat.one_pos⟩)
      = (V m c main_call0_v5 : S512x1.Idx → BitVec 32) (ix2 r ⟨0, Nat.one_pos⟩) := by
    unfold iblk
    rw [View.read_apply]
    show V m c main_call0_v5 _ = V m c main_call0_v5 _
    refine congrArg (V m c main_call0_v5) ?_
    funext a
    apply Fin.ext
    match a with
    | ⟨0, _⟩ => show win0_2.index t (0 : Fin 2) * 512 + 1 * r.val = r.val; rw [e0]; omega
    | ⟨1, _⟩ => show win0_2.index t (1 : Fin 2) * 1 + 1 * 0 = 0; rw [e1]
  rw [hb, V_labelCol]
  exact Head.labelCol_apply _ r

/-- A class row of the block at point t, scaled to unit length, is the table's row 5000 t + l scaled: the block's row
    is the table's row, entry by entry, and so are their norms. -/
theorem tileRow_unit (c : Dev nD) (t : Fin cfg0.N) (l : Fin 5000) (d : Fin 512) :
    unitRow (r := 5000) (iblk m c 1 t) l d
      = unitRow (m ((c : Thread nD τ).loc main_arg1)) ⟨t.val * 5000 + l.val, col_lt' t l⟩ d := by
  unfold unitRow clampedNorm
  rw [tileBlock_apply m c t l d]
  refine congrArg (fun z => Ideal.div _ (max (Ideal.sqrt z) epsE)) ?_
  refine Finset.sum_congr rfl fun d' _ => ?_
  dsimp only
  rw [tileBlock_apply m c t l d']

/-! ## The tile's value at a point -/

/-- The tile's sum at point t and row r, as a function of the arguments. -/
theorem tile_value (c : Dev nD) (t : Fin cfg0.N) (r : Fin 512) :
    k0_pay4 (F := Ideal) (grid0.coords t) (iblk m c 1 t) (iblk m c 0 t) (iblk m c 2 t) (ix2 r ⟨0, Nat.one_pos⟩)
      = ∑ l : Fin 5000,
          if BitVec.ofNat 32 (t.val * 5000 + l.val) = m ((c : Thread nD τ).loc main_arg2) (ix1 r) then (0 : EReal)
          else Ideal.exp (scaleE * cosine (m ((c : Thread nD τ).loc main_arg0)) (m ((c : Thread nD τ).loc main_arg1)) r
                 ⟨t.val * 5000 + l.val, col_lt' t l⟩ - scaleE) := by
  refine (TileValue.tile_apply (grid0.coords t) (iblk m c 1 t) (iblk m c 0 t) (iblk m c 2 t) r).trans ?_
  refine Finset.sum_congr rfl fun l _ => ?_
  refine if_congr (by rw [colBase_coords t, labelBlock_apply m c t r]) rfl ?_
  refine congrArg (fun z => Ideal.exp (scaleE * z - scaleE)) ?_
  unfold cosine
  refine Finset.sum_congr rfl fun d _ => ?_
  rw [batchBlock_apply m c t r d, tileRow_unit m c t l d]

end Cert.KernelIdeal.Blocks

end
-- ==== Proof.Tiles.lean ====
/-
  The 100000 classes cut into tiles, and the masked sum of exponentials read tile by tile.

  The classes are numbered 0 to 99999 and cut into 2 groups of 10 tiles of 5000 lanes: lane l of tile s of group g
  is class (g · 10 + s) · 5000 + l. Every class is exactly one such lane (g = j / 50000, s = j / 5000 mod 10,
  l = j mod 5000), so a sum over the classes is the triple sum over groups, tiles and lanes. A class number below
  100000 is below 2³², so a 32-bit word holds it faithfully: the word of class j equals a given word exactly when j
  is that word's value. Hence the sum of the shifted exponentials over every lane whose word is not the label's word
  is the sum over every class other than the label.
-/
import proofs.«431268_j55817394979146_2_alg».proof.Proof.Spec
import Mathlib.Data.Fintype.BigOperators
import Mathlib.Algebra.BigOperators.Group.Finset.Defs

open scoped BigOperators

namespace MarginLoss

open Idealize.ShloMosaic Idealize.ShloMosaic.ValueIdx

/-- The class number of lane l of tile s of group g is below 100000: the 100000 classes are cut into 2 groups of
    10 tiles of 5000. -/
theorem col_lt (g : Fin 2) (s : Fin 10) (l : Fin 5000) : (g.val * 10 + s.val) * 5000 + l.val < 100000 := by
  have hg := g.isLt
  have hs := s.isLt
  have hl := l.isLt
  omega

/-- Class number of lane l of tile s of group g: the 100000 classes are cut into 2 groups of 10 tiles of 5000. -/
def col (g : Fin 2) (s : Fin 10) (l : Fin 5000) : Fin 100000 := ⟨(g.val * 10 + s.val) * 5000 + l.val, col_lt g s l⟩

/-- The value of a lane's class number. -/
theorem col_val (g : Fin 2) (s : Fin 10) (l : Fin 5000) : (col g s l).val = (g.val * 10 + s.val) * 5000 + l.val := rfl

/-- Groups, tiles and lanes against classes: (g, s, l) goes to class (g · 10 + s) · 5000 + l, and class j comes from
    g = j / 50000, s = j / 5000 mod 10, l = j mod 5000. -/
def tileEquiv : Fin 2 × Fin 10 × Fin 5000 ≃ Fin 100000 where
  toFun p := col p.1 p.2.1 p.2.2
  invFun j :=
    (⟨j.val / 50000, by have := j.isLt; omega⟩, ⟨j.val / 5000 % 10, Nat.mod_lt _ (by norm_num)⟩,
      ⟨j.val % 5000, Nat.mod_lt _ (by norm_num)⟩)
  left_inv := by
    rintro ⟨g, s, l⟩
    have hg := g.isLt
    have hs := s.isLt
    have hl := l.isLt
    refine Prod.ext (Fin.ext ?_) (Prod.ext (Fin.ext ?_) (Fin.ext ?_))
    · show ((g.val * 10 + s.val) * 5000 + l.val) / 50000 = g.val
      omega
    · show ((g.val * 10 + s.val) * 5000 + l.val) / 5000 % 10 = s.val
      omega
    · show ((g.val * 10 + s.val) * 5000 + l.val) % 5000 = l.val
      omega
  right_inv := by
    intro j
    apply Fin.ext
    show (j.val / 50000 * 10 + j.val / 5000 % 10) * 5000 + j.val % 5000 = j.val
    omega

/-- A sum over the 100000 classes is the sum over the 2 groups of the sums over each group's 10 tiles of the sums
    over each tile's 5000 lanes. -/
theorem sum_tiles {M : Type*} [AddCommMonoid M] (f : Fin 100000 → M) :
    ∑ g : Fin 2, ∑ s : Fin 10, ∑ l : Fin 5000, f (col g s l) = ∑ j : Fin 100000, f j :=
  calc ∑ g : Fin 2, ∑ s : Fin 10, ∑ l : Fin 5000, f (col g s l)
      = ∑ g : Fin 2, ∑ p : Fin 10 × Fin 5000, f (col g p.1 p.2) :=
        Finset.sum_congr rfl fun g _ => (Fintype.sum_prod_type' fun s l => f (col g s l)).symm
    _ = ∑ q : Fin 2 × Fin 10 × Fin 5000, f (col q.1 q.2.1 q.2.2) :=
        (Fintype.sum_prod_type' fun g (p : Fin 10 × Fin 5000) => f (col g p.1 p.2)).symm
    _ = ∑ j : Fin 100000, f j := Fintype.sum_equiv tileEquiv _ _ fun _ => rfl

/-- A class number is below 2³², so the 32-bit word of class j equals a word w of value below 100000 exactly when
    j is that value. -/
theorem word_eq_iff (j : Fin 100000) (w : BitVec 32) (hw : w.toNat < 100000) :
    BitVec.ofNat 32 j.val = w ↔ j = ⟨w.toNat, hw⟩ := by
  have hj := j.isLt
  constructor
  · intro h
    apply Fin.ext
    show j.val = w.toNat
    rw [← h, BitVec.toNat_ofNat]
    omega
  · intro h
    apply BitVec.eq_of_toNat_eq
    have hv : j.val = w.toNat := congrArg Fin.val h
    rw [BitVec.toNat_ofNat]
    omega

/-- The sum of the shifted exponentials over every lane of every tile whose class word is not the label's word is the
    sum over every class other than the label. -/
theorem maskedExpSum_tiles (x : (⟨2, ![512, 512]⟩ : Shape).Idx → EReal) (w : (⟨2, ![100000, 512]⟩ : Shape).Idx → EReal)
    (tw : BitVec 32) (hw : tw.toNat < 100000) (i : Fin 512) :
    (∑ g : Fin 2, ∑ s : Fin 10, ∑ l : Fin 5000,
        if BitVec.ofNat 32 ((g.val * 10 + s.val) * 5000 + l.val) = tw then (0 : EReal)
        else Ideal.exp (scaleE * cosine x w i (col g s l) - scaleE))
      = maskedExpSum x w ⟨tw.toNat, hw⟩ i := by
  unfold maskedExpSum
  rw [← sum_tiles fun j => if j = ⟨tw.toNat, hw⟩ then (0 : EReal) else Ideal.exp (scaleE * cosine x w i j - scaleE)]
  refine Finset.sum_congr rfl fun g _ => Finset.sum_congr rfl fun s _ => Finset.sum_congr rfl fun l _ => ?_
  exact if_congr (word_eq_iff (col g s l) tw hw) rfl rfl

end MarginLoss
-- ==== Proof.KRun.lean ====
/-
  The kernel program's result.

  After the region the output array holds the two groups' sums of masked exponentials; the host operations that
  follow read it together with the scaled batch, the class table and the labels. Their value is the mean over the rows
  of log (sum over the classes other than the label of exp (30 cos − 30), plus exp (30 φ − 30)) + 30 (1 − φ), where φ is
  the margin value of the label's cosine: the two groups of ten tiles of 5000 classes are all 100000 classes, and the
  only class a tile leaves out is the row's label.
-/
import proofs.«431268_j55817394979146_2_alg».proof.Proof.KFinal
import proofs.«431268_j55817394979146_2_alg».proof.Proof.KTailDef
import proofs.«431268_j55817394979146_2_alg».proof.Proof.KTailApply
import proofs.«431268_j55817394979146_2_alg».proof.Proof.KHeadDef
import proofs.«431268_j55817394979146_2_alg».proof.Proof.KHeadApply
import proofs.«431268_j55817394979146_2_alg».proof.Proof.KBlocks
import proofs.«431268_j55817394979146_2_alg».proof.Proof.Tiles
import proofs.«431268_j55817394979146_2_alg».proof.Proof.Spec
import Idealize.ShloMosaic.Lib.StableHlo.Run
import Idealize.ShloMosaic.Lib.Pipeline.Value

noncomputable section

open Idealize.ShloMosaic Idealize.ShloMosaic.TcCoe Idealize.SL.Sem Idealize.ShloMosaic.ValueIdx
open Idealize.ShloMosaic.StableHlo
open Idealize.ShloMosaic.Pipeline (Dat)
open scoped BigOperators

namespace Cert.KernelIdeal.KValue

open Cert.KernelIdeal Cert.KernelIdeal.Gen MarginLoss

section AnyValues

variable {F : FTy → Type} [FloatOps F]

set_option maxHeartbeats 4000000 in
/-- The host operations after the region, run from any contents of the buffers, leave in the result buffer the
    tail function of the four buffers they read. -/
theorem tail_of_valuation (W : Valuation τ sig (Elt F)) :
    StableHlo.after (hostOps1 (F := F)) W (Proc.devRef .tc main_v0)
      = Tail.tail (F := F) (W (Proc.devRef .tc main_call0_v6)) (W (Proc.devRef .tc main_call0_v4))
          (W (Proc.devRef .tc main_arg1)) (W (Proc.devRef .tc main_arg2)) := by
  after_results_simp
  rfl

end AnyValues

variable (m : (ℓ : Loc nD τ sig) → Buf (Elt Ideal) ℓ) (ρ : Dev nD → PrngReg)

/-- The array the region leaves, at its literal type: entry (g, r, 0) is group g's sum at row r. -/
def sums (c : Dev nD) : S2x512x1.Idx → EReal := Final.groupSums m c

theorem sums_apply (c : Dev nD) (g : Fin 2) (r : Fin 512) (v : Fin 1) :
    sums m c (ix3 g r v) = ∑ u ∈ Finset.range 10, Acc.tileNat m c (10 * g.val + u) (ix2 r v) :=
  Final.groupSums_apply m c g r v

/-- The result buffer after the whole program: the tail function of the region's output array, the scaled batch, the
    class table and the labels. -/
theorem result_tail (c : Dev nD) :
    Pipeline.afterTail₀ cfgs (dats m) 0 (V0 m) [hostOps1] c main_v0
      = Tail.tail (F := Ideal) (sums m c) (Head.unitBatch (F := Ideal) (m ((c : Thread nD τ).loc main_arg0)))
          (m ((c : Thread nD τ).loc main_arg1)) (m ((c : Thread nD τ).loc main_arg2)) := by
  unfold Pipeline.afterTail₀
  simp only [List.flatten_cons, List.flatten_nil, List.append_nil]
  rw [tail_of_valuation]
  have r6 : Pipeline.withArrays spec0 c (V0 m c) (fun w => (dats m 0 c).arrAt w cfg0.N) (Proc.devRef .tc main_call0_v6)
      = sums m c :=
    (Pipeline.withArrays_arr spec0 launch0.win.arr_inj c _ _ 3).trans (Final.final m c)
  have r4 : Pipeline.withArrays spec0 c (V0 m c) (fun w => (dats m 0 c).arrAt w cfg0.N) (Proc.devRef .tc main_call0_v4)
      = Head.unitBatch (F := Ideal) (m ((c : Thread nD τ).loc main_arg0)) :=
    (Pipeline.withArrays_arr spec0 launch0.win.arr_inj c _ _ 0).trans
      (((dats m 0 c).arrAt_in 0 rfl _).trans ((A_eq m c 0).trans (Blocks.V_unitBatch m c)))
  have r1 : Pipeline.withArrays spec0 c (V0 m c) (fun w => (dats m 0 c).arrAt w cfg0.N) (Proc.devRef .tc main_arg1)
      = m ((c : Thread nD τ).loc main_arg1) :=
    (Pipeline.withArrays_arr spec0 launch0.win.arr_inj c _ _ 1).trans
      (((dats m 0 c).arrAt_in 1 rfl _).trans ((A_eq m c 1).trans (V_main_arg1 m c)))
  have r2 : Pipeline.withArrays spec0 c (V0 m c) (fun w => (dats m 0 c).arrAt w cfg0.N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [r6, r4, r1, r2]

/-- One term of a tile's sum, with the class number written in two ways. -/
theorem term_congr (x : (⟨2, ![512, 512]⟩ : Shape).Idx → EReal) (w : (⟨2, ![100000, 512]⟩ : Shape).Idx → EReal)
    (tw : BitVec 32) (i : Fin 512) (A B : ℕ) (e : A = B) (hA : A < 100000) (hB : B < 100000) :
    (if BitVec.ofNat 32 A = tw then (0 : EReal) else Ideal.exp (scaleE * cosine x w i ⟨A, hA⟩ - scaleE))
      = if BitVec.ofNat 32 B = tw then (0 : EReal) else Ideal.exp (scaleE * cosine x w i ⟨B, hB⟩ - scaleE) := by
  subst e
  rfl

/-- Tile `s` of group `g` at row `i`: the exponentials of the tile's 5000 classes, the row's label left out. -/
theorem tile_sum (c : Dev nD) (g : Fin 2) (s : Fin 10) (i : Fin 512) :
    Acc.tileNat m c (10 * g.val + s.val) (ix2 i ⟨0, Nat.one_pos⟩)
      = ∑ l : Fin 5000,
          if BitVec.ofNat 32 ((g.val * 10 + s.val) * 5000 + l.val) = m ((c : Thread nD τ).loc main_arg2) (ix1 i)
          then (0 : EReal)
          else Ideal.exp (scaleE * cosine (m ((c : Thread nD τ).loc main_arg0)) (m ((c : Thread nD τ).loc main_arg1)) i
                 (col g s l) - scaleE) := by
  have hN : cfg0.N = 20 := N_0
  have ht : 10 * g.val + s.val < cfg0.N := by have := g.isLt; have := s.isLt; omega
  unfold Acc.tileNat
  rw [dif_pos ht]
  refine (Blocks.tile_value m c ⟨10 * g.val + s.val, ht⟩ i).trans ?_
  refine Finset.sum_congr rfl fun l _ => ?_
  exact term_congr _ _ _ i _ _ (by dsimp only; ring) _ (col_lt g s l)

/-- The two groups' sums at row `i` are the sum over every class but the label. -/
theorem groups_sum (c : Dev nD) (i : Fin 512) (hw : (m ((c : Thread nD τ).loc main_arg2) (ix1 i)).toNat < 100000) :
    sums m c (ix3 (0 : Fin 2) i (0 : Fin 1)) + sums m c (ix3 (1 : Fin 2) i (0 : Fin 1))
      = maskedExpSum (m ((c : Thread nD τ).loc main_arg0)) (m ((c : Thread nD τ).loc main_arg1))
          ⟨(m ((c : Thread nD τ).loc main_arg2) (ix1 i)).toNat, hw⟩ i := by
  rw [← maskedExpSum_tiles _ _ _ hw i, Fin.sum_univ_two]
  have hg : ∀ g : Fin 2, sums m c (ix3 g i (0 : Fin 1))
      = ∑ s : Fin 10, ∑ l : Fin 5000,
          if BitVec.ofNat 32 ((g.val * 10 + s.val) * 5000 + l.val) = m ((c : Thread nD τ).loc main_arg2) (ix1 i)
          then (0 : EReal)
          else Ideal.exp (scaleE * cosine (m ((c : Thread nD τ).loc main_arg0)) (m ((c : Thread nD τ).loc main_arg1)) i
                 (col g s l) - scaleE) := by
    intro g
    rw [sums_apply, Finset.sum_range]
    exact Finset.sum_congr rfl fun s _ => tile_sum m c g s i
  rw [hg 0, hg 1]

/-- The result buffer after the whole program is the mean of the rows' losses, each written with the logits shifted
    by the scale. -/
theorem result_eq (c : Dev nD) (hr : ∀ i : Fin 512, (m ((c : Thread nD τ).loc main_arg2) (ix1 i)).toNat < 100000) :
    Pipeline.afterTail₀ cfgs (dats m) 0 (V0 m) [hostOps1] c main_v0
      = fun _ => meanLoss fun i => kernelRow (m ((c : Thread nD τ).loc main_arg0)) (m ((c : Thread nD τ).loc main_arg1))
          ⟨(m ((c : Thread nD τ).loc main_arg2) (ix1 i)).toNat, hr i⟩ i := by
  rw [result_tail, Tail.tail_apply _ _ _ _ hr]
  funext _
  refine congrArg meanLoss (funext fun i => ?_)
  have hct : (∑ d : Fin 512, Head.unitBatch (F := Ideal) (m ((c : Thread nD τ).loc main_arg0)) (ix2 i d)
        * unitRow (m ((c : Thread nD τ).loc main_arg1)) ⟨(m ((c : Thread nD τ).loc main_arg2) (ix1 i)).toNat, hr i⟩ d)
      = cosine (m ((c : Thread nD τ).loc main_arg0)) (m ((c : Thread nD τ).loc main_arg1)) i
          ⟨(m ((c : Thread nD τ).loc main_arg2) (ix1 i)).toNat, hr i⟩ := by
    unfold cosine
    exact Finset.sum_congr rfl fun d _ => by rw [Head.unitBatch_apply]
  rw [hct, groups_sum m c i (hr i)]
  rfl

/-- The kernel program runs, ends with the mean loss in its result buffer, and leaves its arguments as they were. -/
theorem run (hr : ∀ (c : Dev nD) (i : Fin 512), (m ((c : Thread nD τ).loc main_arg2) (ix1 i)).toNat < 100000) :
    θ_run defs (onTc (τ := τ) (main (F := Ideal))) ⟨m, fun _ => 0, ρ⟩ (fun r => ∀ c : Dev nD,
      r.2.mem ((c.tc : Thread nD τ).loc main_v0)
          = (fun _ => meanLoss fun i => kernelRow (m ((c : Thread nD τ).loc main_arg0)) (m ((c : Thread nD τ).loc main_arg1))
              ⟨(m ((c : Thread nD τ).loc main_arg2) (ix1 i)).toNat, hr c i⟩ i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v0 (Pipeline.mem_restRefs_of main_v0 (by decide) (by decide))).trans (result_eq m c (hr c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefRunSteps.lean ====
/-
  The reference program's run, read back in six stretches.

  The reference is one straight line of a hundred host operations. Read in order: the batch rows and the class rows are
  scaled to unit length and multiplied (the cosines); the margin value of every cosine; the label's indicator and the
  scaled logits; the log-softmax of each row; the entry at the row's label, or the fill where the label is out of
  range; the negated mean. Each stretch is a pure function of what the stretch before left, so the value a stretch
  leaves is the stage function of the three arguments once the earlier stage's value is known, and the program's result
  is the last stage.
-/
import proofs.«431268_j55817394979146_2_alg».proof.Proof.RefRun
import proofs.«431268_j55817394979146_2_alg».proof.Proof.RefRead
import Idealize.ShloMosaic.Lib.StableHlo.Run
import Idealize.ShloMosaic.Lib.Pipeline.Frame

noncomputable section

namespace Cert.ReferenceIdeal.Steps

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Contents carried to a typed reference's buffer and back are the contents: the two transports along the one
    equation of types cancel. -/
theorem ofBuf_toBuf {Val : EltTy → Type} {T : BufTy} (x : TRef sig T) (v : T.Contents Val) :
    x.ofBuf (x.toBuf v) = v := by
  obtain ⟨r, rfl, _, _⟩ := x
  rfl

/-- The hundred operations, cut after the cosines (22), the margin values (41), the logits (56), the log-softmax (71)
    and the entry at the label (94). -/
theorem ops_cut : (ops (F := F)) = (ops (F := F)).take 22 ++ (((ops (F := F)).drop 22).take 19 ++ (((ops (F := F)).drop 41).take 15 ++ (((ops (F := F)).drop 56).take 15 ++ (((ops (F := F)).drop 71).take 23 ++ (ops (F := F)).drop 94)))) := rfl

set_option maxHeartbeats 4000000 in
/-- Operations 1 to 22 leave the cosines. -/
theorem cosines (W : Valuation τ sig (Elt F)) :
    StableHlo.after ((ops (F := F)).take 22) W (Proc.devRef .tc main_v11)
      = val_main_v11 (F := F) (W (Proc.devRef .tc main_arg0)) (W (Proc.devRef .tc main_arg1)) := by
  simp only [ops, List.drop_succ_cons, List.drop_zero, List.take_succ_cons, List.take_zero]
  after_results_simp
  try simp only [ofBuf_toBuf]
  rfl

set_option maxHeartbeats 4000000 in
/-- They leave the labels as they were. -/
theorem cosines_keep (W : Valuation τ sig (Elt F)) :
    StableHlo.after ((ops (F := F)).take 22) W (Proc.devRef .tc main_arg2) = W (Proc.devRef .tc main_arg2) := by
  simp only [ops, List.drop_succ_cons, List.drop_zero, List.take_succ_cons, List.take_zero]
  after_results_simp

set_option maxHeartbeats 4000000 in
/-- Operations 23 to 41 leave the margin values, given the cosines. -/
theorem margins (W : Valuation τ sig (Elt F)) (x0 : (⟨S512x512, .f32⟩ : BufTy).Contents (Elt F))
    (x1 : (⟨S100000x512, .f32⟩ : BufTy).Contents (Elt F)) (h : W (Proc.devRef .tc main_v11) = val_main_v11 (F := F) x0 x1) :
    StableHlo.after (((ops (F := F)).drop 22).take 19) W (Proc.devRef .tc main_v25) = val_main_v25 (F := F) x0 x1 := by
  simp only [ops, List.drop_succ_cons, List.drop_zero, List.take_succ_cons, List.take_zero]
  after_results_simp
  try simp only [ofBuf_toBuf]
  rw [h]
  rfl

set_option maxHeartbeats 4000000 in
/-- They leave the cosines and the labels as they were. -/
theorem margins_keep (W : Valuation τ sig (Elt F)) :
    StableHlo.after (((ops (F := F)).drop 22).take 19) W (Proc.devRef .tc main_v11) = W (Proc.devRef .tc main_v11)
      ∧ StableHlo.after (((ops (F := F)).drop 22).take 19) W (Proc.devRef .tc main_arg2) = W (Proc.devRef .tc main_arg2) := by
  simp only [ops, List.drop_succ_cons, List.drop_zero, List.take_succ_cons, List.take_zero]
  constructor <;> after_results_simp

set_option maxHeartbeats 4000000 in
/-- Operations 42 to 56 leave the scaled logits, given the cosines, the margin values and the labels. -/
theorem logits (W : Valuation τ sig (Elt F)) (x0 : (⟨S512x512, .f32⟩ : BufTy).Contents (Elt F))
    (x1 : (⟨S100000x512, .f32⟩ : BufTy).Contents (Elt F)) (x2 : (⟨S512, .i32⟩ : BufTy).Contents (Elt F))
    (h11 : W (Proc.devRef .tc main_v11) = val_main_v11 (F := F) x0 x1) (h25 : W (Proc.devRef .tc main_v25) = val_main_v25 (F := F) x0 x1)
    (h2 : W (Proc.devRef .tc main_arg2) = x2) :
    StableHlo.after (((ops (F := F)).drop 41).take 15) W (Proc.devRef .tc main_v33) = val_main_v33 (F := F) x0 x1 x2 := by
  simp only [ops, List.drop_succ_cons, List.drop_zero, List.take_succ_cons, List.take_zero]
  after_results_simp
  try simp only [ofBuf_toBuf]
  rw [h11, h25, h2]
  rfl

set_option maxHeartbeats 4000000 in
/-- They leave the labels as they were. -/
theorem logits_keep (W : Valuation τ sig (Elt F)) :
    StableHlo.after (((ops (F := F)).drop 41).take 15) W (Proc.devRef .tc main_arg2) = W (Proc.devRef .tc main_arg2) := by
  simp only [ops, List.drop_succ_cons, List.drop_zero, List.take_succ_cons, List.take_zero]
  after_results_simp

set_option maxHeartbeats 4000000 in
/-- Operations 57 to 71 leave the log-softmax, given the logits. -/
theorem logSoftmax (W : Valuation τ sig (Elt F)) (x0 : (⟨S512x512, .f32⟩ : BufTy).Contents (Elt F))
    (x1 : (⟨S100000x512, .f32⟩ : BufTy).Contents (Elt F)) (x2 : (⟨S512, .i32⟩ : BufTy).Contents (Elt F))
    (h : W (Proc.devRef .tc main_v33) = val_main_v33 (F := F) x0 x1 x2) :
    StableHlo.after (((ops (F := F)).drop 56).take 15) W (Proc.devRef .tc main_v34) = val_main_v34 (F := F) x0 x1 x2 := by
  simp only [ops, List.drop_succ_cons, List.drop_zero, List.take_succ_cons, List.take_zero]
  after_results_simp
  try simp only [ofBuf_toBuf]
  rw [h]
  rfl

set_option maxHeartbeats 4000000 in
/-- They leave the labels as they were. -/
theorem logSoftmax_keep (W : Valuation τ sig (Elt F)) :
    StableHlo.after (((ops (F := F)).drop 56).take 15) W (Proc.devRef .tc main_arg2) = W (Proc.devRef .tc main_arg2) := by
  simp only [ops, List.drop_succ_cons, List.drop_zero, List.take_succ_cons, List.take_zero]
  after_results_simp

set_option maxHeartbeats 4000000 in
/-- Operations 72 to 94 leave each row's entry at its label, given the log-softmax and the labels. -/
theorem atLabel (W : Valuation τ sig (Elt F)) (x0 : (⟨S512x512, .f32⟩ : BufTy).Contents (Elt F))
    (x1 : (⟨S100000x512, .f32⟩ : BufTy).Contents (Elt F)) (x2 : (⟨S512, .i32⟩ : BufTy).Contents (Elt F))
    (h34 : W (Proc.devRef .tc main_v34) = val_main_v34 (F := F) x0 x1 x2) (h2 : W (Proc.devRef .tc main_arg2) = x2) :
    StableHlo.after (((ops (F := F)).drop 71).take 23) W (Proc.devRef .tc main_v36) = val_main_v36 (F := F) x0 x1 x2 := by
  simp only [ops, List.drop_succ_cons, List.drop_zero, List.take_succ_cons, List.take_zero]
  after_results_simp
  try simp only [ofBuf_toBuf]
  rw [h34, h2]
  rfl

set_option maxHeartbeats 4000000 in
/-- Operations 95 to 100 leave the negated mean, given the entries at the labels. -/
theorem mean (W : Valuation τ sig (Elt F)) (x0 : (⟨S512x512, .f32⟩ : BufTy).Contents (Elt F))
    (x1 : (⟨S100000x512, .f32⟩ : BufTy).Contents (Elt F)) (x2 : (⟨S512, .i32⟩ : BufTy).Contents (Elt F))
    (h : W (Proc.devRef .tc main_v36) = val_main_v36 (F := F) x0 x1 x2) :
    StableHlo.after ((ops (F := F)).drop 94) W (Proc.devRef .tc main_v40) = val_main_v40 (F := F) x0 x1 x2 := by
  simp only [ops, List.drop_succ_cons, List.drop_zero, List.take_succ_cons, List.take_zero]
  after_results_simp
  try simp only [ofBuf_toBuf]
  rw [h]
  rfl

/-- All hundred operations leave the last stage of the three arguments. -/
theorem result (W : Valuation τ sig (Elt F)) :
    StableHlo.after (ops (F := F)) W (Proc.devRef .tc main_v40)
      = val_main_v40 (F := F) (W (Proc.devRef .tc main_arg0)) (W (Proc.devRef .tc main_arg1)) (W (Proc.devRef .tc main_arg2)) := by
  rw [ops_cut, StableHlo.after_append, StableHlo.after_append, StableHlo.after_append, StableHlo.after_append,
    StableHlo.after_append]
  refine mean _ _ _ _ (atLabel _ _ _ _ (logSoftmax _ _ _ _ (logits _ _ _ _ ?_ (margins _ _ _ (cosines W)) ?_)) ?_)
  · exact ((margins_keep _).1).trans (cosines W)
  · exact (logits_keep _).trans (((margins_keep _).2).trans (cosines_keep W))
  · exact (logSoftmax_keep _).trans ((logits_keep _).trans (((margins_keep _).2).trans (cosines_keep W)))

set_option maxRecDepth 16384 in
set_option maxHeartbeats 40000000 in
/-- On every device, from any memory: every weakly fair execution of the reference terminates with its result at the
    last stage of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = val_main_v40 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v40).trans (result _),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.Steps

end
-- ==== Proof.RefValue.lean ====
/-
  The reference program's result, read one operation at a time.

  Each row of the batch and each class vector is divided by its clamped norm; the cosines are the inner products of
  the scaled rows; the margin value replaces the cosine where the cosine is positive; the one-hot indicator of the
  label mixes the two; the scaled logits go through a log-softmax shifted by the row's maximum; the entry at the label
  is taken, negated, and the rows are averaged. A label word below 100000 is nonnegative read signed, so the take
  keeps it, finds it in range and does not clamp it.
-/
import proofs.«431268_j55817394979146_2_alg».proof.Defs
import proofs.«431268_j55817394979146_2_alg».proof.Proof.RefRead
import proofs.«431268_j55817394979146_2_alg».proof.Proof.Spec
import Idealize.ShloMosaic.PureOps.Reduce
import Idealize.ShloMosaic.PureOps.Ideal.Laws
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Cert.ReferenceIdeal.ReadP Idealize.ShloMosaic Idealize.ShloMosaic.ValueIdx
open Idealize.ShloMosaic.StableHlo.Predicate (slt_iff_toNat sge_iff_toNat sle_iff_toNat cmpi_eq_iff toInt_eq_toNat_of_lt)

/-! ## The scaled rows -/

/-- The clamped norm of batch row \`i\`: the root of the sum of squares (summed from zero), kept above the small constant. -/
theorem norm_batch (x0 : FVec Ideal S512x512 .f32) (i : Fin 512) :
    val_main_v2 (F := Ideal) x0 (ix2 i (⟨0, Nat.one_pos⟩ : Fin 1)) = MarginLoss.clampedNorm fun d => x0 (ix2 i d) := by
  have e : ∀ k : Fin 512, idx_main_call0_v1 (idx_main_call0_v2 (ix2 i (⟨0, Nat.one_pos⟩ : Fin 1))) k = ix2 i k := fun k =>
    funext fun a => Fin.ext (by match a with | ⟨0, _⟩ => rfl | ⟨1, _⟩ => rfl)
  rw [val_main_v2_apply, val_main_v0_apply, val_main_call0_v2_apply, val_main_call0_v1_apply, val_main_v1_apply,
    val_main_cst_apply, val_main_call0_cst_apply]
  simp only [val_main_call0_v0_apply, e, Ideal.maximumf_def, Ideal.hostUnary_sqrt_def, Ideal.ofBits_def, Ideal.mulf_def,
    Ideal.ofBits_zero_f32, zero_add]
  rfl

/-- The clamped norm of class vector \`j\`. -/
theorem norm_class (x1 : FVec Ideal S100000x512 .f32) (j : Fin 100000) :
    val_main_v7 (F := Ideal) x1 (ix2 j (⟨0, Nat.one_pos⟩ : Fin 1)) = MarginLoss.clampedNorm fun d => x1 (ix2 j d) := by
  have e : ∀ k : Fin 512, idx_main_call1_v1 (idx_main_call1_v2 (ix2 j (⟨0, Nat.one_pos⟩ : Fin 1))) k = ix2 j k := fun k =>
    funext fun a => Fin.ext (by match a with | ⟨0, _⟩ => rfl | ⟨1, _⟩ => rfl)
  rw [val_main_v7_apply, val_main_v5_apply, val_main_call1_v2_apply, val_main_call1_v1_apply, val_main_v6_apply,
    val_main_cst_0_apply, val_main_call1_cst_apply]
  simp only [val_main_call1_v0_apply, e, Ideal.maximumf_def, Ideal.hostUnary_sqrt_def, Ideal.ofBits_def, Ideal.mulf_def,
    Ideal.ofBits_zero_f32, zero_add]
  rfl

/-- Entry \`d\` of batch row \`i\` divided by the row's clamped norm. -/
theorem unit_batch (x0 : FVec Ideal S512x512 .f32) (i d : Fin 512) :
    val_main_v4 (F := Ideal) x0 (ix2 i d) = MarginLoss.unitRow x0 i d := by
  have e : idx_main_v3 (ix2 i d) = ix2 i (⟨0, Nat.one_pos⟩ : Fin 1) :=
    funext fun a => Fin.ext (by match a with | ⟨0, _⟩ => rfl | ⟨1, _⟩ => rfl)
  rw [val_main_v4_apply, val_main_v3_apply, e, norm_batch, Ideal.hostDivf_def]
  rfl

/-- Entry \`d\` of class vector \`j\` divided by the vector's clamped norm. -/
theorem unit_class (x1 : FVec Ideal S100000x512 .f32) (j : Fin 100000) (d : Fin 512) :
    val_main_v9 (F := Ideal) x1 (ix2 j d) = MarginLoss.unitRow x1 j d := by
  have e : idx_main_v8 (ix2 j d) = ix2 j (⟨0, Nat.one_pos⟩ : Fin 1) :=
    funext fun a => Fin.ext (by match a with | ⟨0, _⟩ => rfl | ⟨1, _⟩ => rfl)
  rw [val_main_v9_apply, val_main_v8_apply, e, norm_class, Ideal.hostDivf_def]
  rfl

/-! ## The cosines and the margin -/

/-- The contraction of the scaled batch with the transposed scaled table, at (i, j), is the cosine of row \`i\` against class \`j\`. -/
theorem cosine_eq (x0 : FVec Ideal S512x512 .f32) (x1 : FVec Ideal S100000x512 .f32) (i : Fin 512) (j : Fin 100000) :
    val_main_v11 (F := Ideal) x0 x1 (ix2 i j) = MarginLoss.cosine x0 x1 i j := by
  have el : ∀ k : Fin 512, lidx_main_v11 (ix2 i j) k = ix2 i k := fun k =>
    funext fun a => Fin.ext (by match a with | ⟨0, _⟩ => rfl | ⟨1, _⟩ => rfl)
  have er : ∀ k : Fin 512, idx_main_v10 (ridx_main_v11 (ix2 i j) k) = ix2 j k := fun k =>
    funext fun a => Fin.ext (by match a with | ⟨0, _⟩ => rfl | ⟨1, _⟩ => rfl)
  rw [val_main_v11_apply]
  unfold MarginLoss.cosine
  refine Finset.sum_congr rfl fun k _ => ?_
  rw [val_main_v10_apply, el, er, unit_batch, unit_class]

/-- A select on the bit of a decided proposition is the \`if\` on it. -/
theorem select_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

/-- Where the cosine is positive the program takes c · cos m − √(max (1 − c²) 0) · sin m, elsewhere the cosine. -/
theorem margin_eq (x0 : FVec Ideal S512x512 .f32) (x1 : FVec Ideal S100000x512 .f32) (i : Fin 512) (j : Fin 100000) :
    val_main_v25 (F := Ideal) x0 x1 (ix2 i j) = MarginLoss.margin (MarginLoss.cosine x0 x1 i j) := by
  rw [val_main_v25_apply, val_main_v24_apply, val_main_v22_apply, val_main_v19_apply, val_main_v21_apply, val_main_v17_apply,
    val_main_v16_apply, val_main_v14_apply, val_main_v12_apply, val_main_v13_apply, val_main_v15_apply, val_main_v18_apply,
    val_main_v20_apply, val_main_v23_apply, val_main_cst_1_apply, val_main_cst_2_apply, val_main_cst_3_apply,
    val_main_cst_4_apply, val_main_cst_5_apply, cosine_eq]
  generalize MarginLoss.cosine x0 x1 i j = c
  simp only [Ideal.cmpf_def, Ideal.subf_def, Ideal.mulf_def, Ideal.hostUnary_sqrt_def, Ideal.maximumf_def, Ideal.ofBits_def,
    Ideal.ofBits_zero_f32]
  have hc : Ideal.cmp .ogt c 0 = BitVec.ofBool (decide (0 < c)) := rfl
  rw [hc, select_decide]
  rfl

/-! ## The one-hot indicator and the logits -/

/-- The converted compare of the row's label against the class number is the label's indicator. -/
theorem onehot_eq (x2 : IVec S512 32) (hr : ∀ i : Fin 512, (x2 (ix1 i)).toNat < 100000) (i : Fin 512) (j : Fin 100000) :
    val_main_v26 (F := Ideal) x2 (ix2 i j) = if j = (⟨(x2 (ix1 i)).toNat, hr i⟩ : Fin 100000) then (1 : EReal) else 0 := by
  have e1 : idx_main_call3_v0 (idx_main_call3_v2 (ix2 i j)) = ix1 i :=
    funext fun a => Fin.ext (by match a with | ⟨0, _⟩ => rfl)
  rw [val_main_v26_apply, val_main_call3_v4_apply, val_main_call3_v2_apply, val_main_call3_v0_apply, val_main_call3_v3_apply,
    val_main_call3_v1_apply, e1]
  show FloatOps.uitofp (F := Ideal) .f32 (IntOp.cmpi .eq (x2 (ix1 i)) (BitVec.ofNat 32 j.val)) = _
  have hw : (x2 (ix1 i)).toNat < 2 ^ 32 := (x2 (ix1 i)).isLt
  have hj : j.val < 2 ^ 32 := by have := j.isLt; omega
  by_cases h : j = ⟨(x2 (ix1 i)).toNat, hr i⟩
  · have hv : j.val = (x2 (ix1 i)).toNat := congrArg Fin.val h
    have hb : IntOp.cmpi .eq (x2 (ix1 i)) (BitVec.ofNat 32 j.val) = 1#1 :=
      cmpi_eq_iff.2 (BitVec.eq_of_toNat_eq (by rw [BitVec.toNat_ofNat, hv, Nat.mod_eq_of_lt hw]))
    rw [if_pos h, hb]
    show (((1 : ℕ) : ℝ) : EReal) = 1
    rw [Nat.cast_one, EReal.coe_one]
  · have hb : IntOp.cmpi .eq (x2 (ix1 i)) (BitVec.ofNat 32 j.val) = 0#1 :=
      eq_zero_of_ne_one fun hb => h (Fin.ext (by
        have := congrArg BitVec.toNat (cmpi_eq_iff.1 hb)
        rw [BitVec.toNat_ofNat, Nat.mod_eq_of_lt hj] at this
        exact this.symm))
    rw [if_neg h, hb]
    show (((0 : ℕ) : ℝ) : EReal) = 0
    rw [Nat.cast_zero, EReal.coe_zero]

/-- The scaled logit at (i, j): the indicator times the margin value plus its complement times the cosine, times the scale. -/
theorem logit_eq (x0 : FVec Ideal S512x512 .f32) (x1 : FVec Ideal S100000x512 .f32) (x2 : IVec S512 32)
    (hr : ∀ i : Fin 512, (x2 (ix1 i)).toNat < 100000) (i : Fin 512) (j : Fin 100000) :
    val_main_v33 (F := Ideal) x0 x1 x2 (ix2 i j) = MarginLoss.logit x0 x1 ⟨(x2 (ix1 i)).toNat, hr i⟩ i j := by
  rw [val_main_v33_apply, val_main_v31_apply, val_main_v27_apply, val_main_v30_apply, val_main_v29_apply, val_main_v32_apply,
    val_main_v28_apply, val_main_cst_7_apply, val_main_cst_6_apply, margin_eq, cosine_eq, onehot_eq x2 hr]
  simp only [Ideal.mulf_def, Ideal.addf_def, Ideal.subf_def, Ideal.ofBits_def]
  rfl

/-! ## The row maximum -/

/-- Row \`i\` of the logits with class \`k\` put back on the reduced axis is (i, k). -/
theorem lift_row (h : (⟨2, ![512, 100000]⟩ : Shape).Reduces [1] (⟨1, ![512]⟩ : Shape)) (i : Fin 512)
    (k : Fin ((⟨2, ![512, 100000]⟩ : Shape).size 1)) : h.lift (ix1 i) k = ix2 i (⟨k.val, k.isLt⟩ : Fin 100000) := by
  funext c; apply Fin.ext
  fin_cases c <;> rfl

/-- The maximum-reduce of row \`i\` from −∞, then the maximum with −∞ again, is the row's maximum. -/
theorem rowMax_eq (x0 : FVec Ideal S512x512 .f32) (x1 : FVec Ideal S100000x512 .f32) (x2 : IVec S512 32)
    (hr : ∀ i : Fin 512, (x2 (ix1 i)).toNat < 100000) (i : Fin 512) :
    val_main_call4_v2 (F := Ideal) x0 x1 x2 (ix1 i) = MarginLoss.rowMax x0 x1 ⟨(x2 (ix1 i)).toNat, hr i⟩ i := by
  have h : S512x100000.Reduces [1] S512 := by decide
  have hf : (val_main_v33 (F := Ideal) x0 x1 x2 ∘ h.lift (ix1 i)) = MarginLoss.logit x0 x1 ⟨(x2 (ix1 i)).toNat, hr i⟩ i :=
    funext fun k => by
      show val_main_v33 (F := Ideal) x0 x1 x2 (h.lift (ix1 i) k) = _
      rw [lift_row h i k, logit_eq x0 x1 x2 hr]
      rfl
  rw [val_main_call4_v2_apply, val_main_call4_v1_apply, val_main_call4_cst_0_apply]
  unfold val_main_call4_v0
  rw [Host.reduce_eq_fold_single (FloatOps.maximumf (F := Ideal) (φ := .f32)) (val_main_v33 (F := Ideal) x0 x1 x2)
    (val_main_call4_cst (F := Ideal)) reducesTo_S512x100000_S512_d1 h h_S_ (ix1 i), hf, val_main_call4_cst_apply]
  rfl

/-! ## The log-softmax -/

/-- The logit at (i, j) less the row's maximum. -/
theorem shifted_eq (x0 : FVec Ideal S512x512 .f32) (x1 : FVec Ideal S100000x512 .f32) (x2 : IVec S512 32)
    (hr : ∀ i : Fin 512, (x2 (ix1 i)).toNat < 100000) (i : Fin 512) (j : Fin 100000) :
    val_main_call4_v5 (F := Ideal) x0 x1 x2 (ix2 i j)
      = MarginLoss.logit x0 x1 ⟨(x2 (ix1 i)).toNat, hr i⟩ i j - MarginLoss.rowMax x0 x1 ⟨(x2 (ix1 i)).toNat, hr i⟩ i := by
  have e : idx_main_call4_v3 (idx_main_call4_v4 (ix2 i j)) = ix1 i :=
    funext fun a => Fin.ext (by match a with | ⟨0, _⟩ => rfl)
  rw [val_main_call4_v5_apply, val_main_call4_v4_apply, val_main_call4_v3_apply, e, logit_eq x0 x1 x2 hr,
    rowMax_eq x0 x1 x2 hr, Ideal.subf_def]

/-- The log-softmax at (i, j): the shifted logit less the logarithm of the row's sum of exponentials of shifted logits. -/
theorem logsoftmax_eq (x0 : FVec Ideal S512x512 .f32) (x1 : FVec Ideal S100000x512 .f32) (x2 : IVec S512 32)
    (hr : ∀ i : Fin 512, (x2 (ix1 i)).toNat < 100000) (i : Fin 512) (j : Fin 100000) :
    val_main_v34 (F := Ideal) x0 x1 x2 (ix2 i j)
      = (MarginLoss.logit x0 x1 ⟨(x2 (ix1 i)).toNat, hr i⟩ i j - MarginLoss.rowMax x0 x1 ⟨(x2 (ix1 i)).toNat, hr i⟩ i)
        - Ideal.log (∑ k : Fin 100000, Ideal.exp (MarginLoss.logit x0 x1 ⟨(x2 (ix1 i)).toNat, hr i⟩ i k
            - MarginLoss.rowMax x0 x1 ⟨(x2 (ix1 i)).toNat, hr i⟩ i)) := by
  have e1 : idx_main_call4_v8 (idx_main_call4_v10 (ix2 i j)) = ix1 i :=
    funext fun a => Fin.ext (by match a with | ⟨0, _⟩ => rfl)
  have e2 : ∀ k : Fin 100000, idx_main_call4_v7 (ix1 i) k = ix2 i k := fun k =>
    funext fun a => Fin.ext (by match a with | ⟨0, _⟩ => rfl | ⟨1, _⟩ => rfl)
  have hs : ∀ k : Fin 100000, val_main_call4_v6 (F := Ideal) x0 x1 x2 (idx_main_call4_v7 (ix1 i) k)
      = Ideal.exp (MarginLoss.logit x0 x1 ⟨(x2 (ix1 i)).toNat, hr i⟩ i k
          - MarginLoss.rowMax x0 x1 ⟨(x2 (ix1 i)).toNat, hr i⟩ i) := fun k => by
    rw [e2, val_main_call4_v6_apply, shifted_eq x0 x1 x2 hr, Ideal.hostUnary_exp_def]
  rw [val_main_v34_apply, shifted_eq x0 x1 x2 hr, val_main_call4_v10_apply, val_main_call4_v9_apply, val_main_call4_v8_apply, e1,
    val_main_call4_v7_apply, val_main_call4_cst_1_apply, Finset.sum_congr rfl fun k _ => hs k, Ideal.subf_def,
    Ideal.hostUnary_log_def, Ideal.ofBits_def, Ideal.ofBits_zero_f32, zero_add]

/-! ## The entry at the label -/

/-- Every start index of the take is the row's label: the label is not negative, so the wrap-around select keeps it. -/
theorem start_eq (x2 : IVec S512 32) (hr : ∀ i : Fin 512, (x2 (ix1 i)).toNat < 100000) (a : Fin 512) (b c : Fin 1) :
    val_main_call5_v5 (F := Ideal) x2 (ix3 a b c) = x2 (ix1 a) := by
  have e : idx_main_v35 (idx_main_call5_v5 (ix3 a b c)) = ix1 a :=
    funext fun d => Fin.ext (by
      match d with
      | ⟨0, _⟩ =>
        show ((a.val * 1 + b.val) * 1 + c.val) / 1 = a.val
        have := b.isLt; have := c.isLt; omega)
  have hlt : (x2 (ix1 a)).toNat < 2 ^ 31 := by have := hr a; omega
  have h1 : IntOp.cmpi .slt (x2 (ix1 a)) 0#32 = 0#1 :=
    eq_zero_of_ne_one fun h => by
      have := (slt_iff_toNat hlt (by decide)).1 h
      simp at this
  rw [val_main_call5_v5_apply, val_main_call5_v4_apply, val_main_call5_v1_apply, val_main_v35_apply, val_main_call5_v0_apply,
    val_main_call5_c_apply, e, h1, select_zero]

/-- The label is in [0, 99999], so the in-range test holds at every start index. -/
theorem inrange_eq (x2 : IVec S512 32) (hr : ∀ i : Fin 512, (x2 (ix1 i)).toNat < 100000) (a : Fin 512) (b c : Fin 1) :
    val_main_call5_v11 (F := Ideal) x2 (ix3 a b c) = 1#1 := by
  have hlt : (x2 (ix1 a)).toNat < 2 ^ 31 := by have := hr a; omega
  have h7 : IntOp.cmpi .sge (x2 (ix1 a)) 0#32 = 1#1 := (sge_iff_toNat hlt (by decide)).2 (by simp)
  have h10 : IntOp.cmpi .sle (x2 (ix1 a)) 99999#32 = 1#1 :=
    (sle_iff_toNat hlt (by decide)).2 (by have := hr a; simp only [BitVec.toNat_ofNat]; omega)
  rw [val_main_call5_v11_apply, val_main_call5_v7_apply, val_main_call5_v10_apply, start_eq x2 hr, val_main_call5_v6_apply,
    val_main_call5_c_2_apply, val_main_call5_v9_apply, val_main_call5_v8_apply, val_main_call5_c_1_apply, h7, h10]
  rfl

/-- A fold of \`and\` from 1 over bits that are all 1 is 1. -/
theorem fold_andi_ones {ι : Type} (s : Finset ι) (f : ι → BitVec 1) (hf : ∀ k, f k = 1#1) :
    s.fold IntOp.andi 1#1 f = 1#1 := by
  induction s using Finset.cons_induction with
  | empty => rfl
  | cons a s ha ih => rw [Finset.fold_cons, ih, hf a]; rfl

/-- The start indices' position (a, b) with \`k\` put back on the reduced unit axis is (a, b, k). -/
theorem lift_unit (h : (⟨3, ![512, 1, 1]⟩ : Shape).Reduces [2] (⟨2, ![512, 1]⟩ : Shape)) (a : Fin 512) (b : Fin 1)
    (k : Fin ((⟨3, ![512, 1, 1]⟩ : Shape).size 2)) : h.lift (ix2 a b) k = ix3 a b (⟨k.val, k.isLt⟩ : Fin 1) := by
  funext c; apply Fin.ext
  fin_cases c <;> rfl

/-- The and-reduce of the in-range bits over the unit axis is 1 at every row. -/
theorem mask_eq (x2 : IVec S512 32) (hr : ∀ i : Fin 512, (x2 (ix1 i)).toNat < 100000) (a : Fin 512) (b : Fin 1) :
    val_main_call5_v12 (F := Ideal) x2 (ix2 a b) = 1#1 := by
  have h : S512x1x1.Reduces [2] S512x1 := by decide
  unfold val_main_call5_v12
  rw [Host.reduce_eq_fold_single (IntOp.andi (w := 1)) (val_main_call5_v11 (F := Ideal) x2) (val_main_call5_c_3 (F := Ideal))
    reducesTo_S512x1x1_S512x1_d2 h h_S_ (ix2 a b), val_main_call5_c_3_apply]
  exact fold_andi_ones _ _ fun k => by
    show val_main_call5_v11 (F := Ideal) x2 (h.lift (ix2 a b) k) = 1#1
    rw [lift_unit h a b k]
    exact inrange_eq x2 hr a b _

/-- On the batching axis the take reads the result's own row. -/
theorem take_axis0 (idx : IVec S512x1x1 32) (a : Fin 512) (b : Fin 1) :
    (gather_S512x100000_S512x1x1_S512x1_n_1_0_0_1_2_11.operandIdx (ix2 a b) idx 0).val = a.val := by
  show gather_S512x100000_S512x1x1_S512x1_n_1_0_0_1_2_11.start (ix2 a b) idx 0
    + gather_S512x100000_S512x1x1_S512x1_n_1_0_0_1_2_11.batchCoord (ix2 a b) 0
    + gather_S512x100000_S512x1x1_S512x1_n_1_0_0_1_2_11.offCoord (ix2 a b) 0 = a.val
  rw [GatherDims.start_batching gather_S512x100000_S512x1x1_S512x1_n_1_0_0_1_2_11 (ix2 a b) idx 0 (by decide),
    GatherDims.offCoord_eq_zero gather_S512x100000_S512x1x1_S512x1_n_1_0_0_1_2_11 (ix2 a b) 0 (by decide)]
  simp only [Nat.zero_add, Nat.add_zero]
  rfl

/-- On the class axis the take reads the start index at (a, b, 0), read signed and clamped into [0, 99999]. -/
theorem take_axis1 (idx : IVec S512x1x1 32) (a : Fin 512) (b : Fin 1) :
    (gather_S512x100000_S512x1x1_S512x1_n_1_0_0_1_2_11.operandIdx (ix2 a b) idx 1).val
      = min (idx (ix3 a b (⟨0, Nat.one_pos⟩ : Fin 1))).toInt.toNat 99999 := by
  show gather_S512x100000_S512x1x1_S512x1_n_1_0_0_1_2_11.start (ix2 a b) idx 1
    + gather_S512x100000_S512x1x1_S512x1_n_1_0_0_1_2_11.batchCoord (ix2 a b) 1
    + gather_S512x100000_S512x1x1_S512x1_n_1_0_0_1_2_11.offCoord (ix2 a b) 1 = _
  rw [GatherDims.batchCoord_eq_zero gather_S512x100000_S512x1x1_S512x1_n_1_0_0_1_2_11 (ix2 a b) 1 (by decide),
    GatherDims.offCoord_eq_zero gather_S512x100000_S512x1x1_S512x1_n_1_0_0_1_2_11 (ix2 a b) 1 (by decide)]
  simp only [Nat.add_zero]
  unfold GatherDims.start
  rw [dif_pos (show (1 : Fin S512x100000.rank) ∈ gather_S512x100000_S512x1x1_S512x1_n_1_0_0_1_2_11.startIndexMap by decide)]
  have hsi : gather_S512x100000_S512x1x1_S512x1_n_1_0_0_1_2_11.siIdx (ix2 a b)
      ⟨List.idxOf (1 : Fin S512x100000.rank) gather_S512x100000_S512x1x1_S512x1_n_1_0_0_1_2_11.startIndexMap,
        List.idxOf_lt_length_iff.2 (by decide)⟩ = ix3 a b (⟨0, Nat.one_pos⟩ : Fin 1) := by
    funext d; refine Fin.ext ?_
    match d with
    | ⟨0, _⟩ => rfl
    | ⟨1, _⟩ => rfl
    | ⟨2, _⟩ => rfl
  rw [hsi]
  rfl

/-- The take of row \`a\` reads the row at its label. -/
theorem take_eq (x2 : IVec S512 32) (hr : ∀ i : Fin 512, (x2 (ix1 i)).toNat < 100000) (y : FVec Ideal S512x100000 .f32)
    (a : Fin 512) (b : Fin 1) :
    Host.gather gather_S512x100000_S512x1x1_S512x1_n_1_0_0_1_2_11 y (val_main_call5_v5 (F := Ideal) x2) (ix2 a b)
      = y (ix2 a (⟨(x2 (ix1 a)).toNat, hr a⟩ : Fin 100000)) := by
  have hlt : (x2 (ix1 a)).toNat < 2 ^ 31 := by have := hr a; omega
  unfold Host.gather
  refine congrArg y (funext fun c => Fin.ext ?_)
  match c with
  | ⟨0, _⟩ => exact take_axis0 _ a b
  | ⟨1, _⟩ =>
    refine (take_axis1 _ a b).trans ?_
    rw [start_eq x2 hr, toInt_eq_toNat_of_lt hlt, Int.toNat_natCast]
    exact Nat.min_eq_left (by have := hr a; omega)

/-- The negated entry of the log-softmax at the label is the row's loss. -/
theorem row_eq (x0 : FVec Ideal S512x512 .f32) (x1 : FVec Ideal S100000x512 .f32) (x2 : IVec S512 32)
    (hr : ∀ i : Fin 512, (x2 (ix1 i)).toNat < 100000) (i : Fin 512) :
    val_main_v38 (F := Ideal) x0 x1 x2 (ix1 i) = MarginLoss.referenceRow x0 x1 ⟨(x2 (ix1 i)).toNat, hr i⟩ i := by
  have e : idx_main_v37 (ix1 i) = ix2 i (⟨0, Nat.one_pos⟩ : Fin 1) :=
    funext fun a => Fin.ext (by
      match a with
      | ⟨0, _⟩ => show i.val / 1 = i.val; exact Nat.div_one _
      | ⟨1, _⟩ => rfl)
  rw [val_main_v38_apply, val_main_v37_apply, e, val_main_v36_apply, mask_eq x2 hr, select_one]
  unfold val_main_call5_v13
  rw [take_eq x2 hr, logsoftmax_eq x0 x1 x2 hr, Ideal.hostNegf_def, Ideal.negf_def]
  rfl

/-! ## The mean -/

/-- A sum over the rank-1 index set of 512 entries is the sum over the rows. -/
theorem sum_rows (f : S512.Idx → EReal) : ∑ j : S512.Idx, f j = ∑ i : Fin 512, f (ix1 i) := by
  let e : S512.Idx ≃ Fin 512 := ⟨fun j => j 0, fun i => ix1 i, fun j => (eq_ix1 j).symm, fun _ => rfl⟩
  exact (Equiv.sum_comp e.symm f).symm

/-- THE REFERENCE'S RESULT: the mean over the rows of the negative log-softmax at the label. -/
theorem result_eq (x0 : FVec Ideal Cert.ReferenceIdeal.S512x512 .f32) (x1 : FVec Ideal Cert.ReferenceIdeal.S100000x512 .f32)
    (x2 : IVec Cert.ReferenceIdeal.S512 32) (hr : ∀ i : Fin 512, (x2 (ix1 i)).toNat < 100000) :
    Cert.ReferenceIdeal.ReadP.val_main_v40 (F := Ideal) x0 x1 x2
      = fun _ => MarginLoss.meanLoss fun i => MarginLoss.referenceRow x0 x1 ⟨(x2 (ix1 i)).toNat, hr i⟩ i := by
  funext idx
  rw [val_main_v40_apply, val_main_v39_apply, val_main_cst_8_apply, val_main_cst_9_apply,
    sum_rows (val_main_v38 (F := Ideal) x0 x1 x2), Finset.sum_congr rfl fun i _ => row_eq x0 x1 x2 hr i, Ideal.hostDivf_def]
  simp only [Ideal.ofBits_def, Ideal.ofBits_zero_f32, zero_add]
  rfl

end Cert.ReferenceIdeal.RefValue

end
-- ==== Proof.LibRealValued.lean ====
/-
  Arrays of extended reals that hold only real numbers.

  At the ideal values a float is an extended real, and an algebraic identity between two ways of
  computing a softmax holds for REAL logits only (at an infinite logit a difference of infinities is a
  convention, not a number). This file names the property "every entry is a real number" and proves
  that each operation a graph-convolution network is made of keeps it: sums, differences, products and
  maxima of entries, constants, re-indexings (broadcasts, shape casts, transposes, gathers), scattered
  sums, contractions, integers read as floats, and the inverse square root of a node's degree.
-/
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost

namespace RealValued

open Idealize.ShloMosaic
open scoped BigOperators

/-! ## The property -/

/-- An array of extended reals every entry of which is a real number. -/
def IsReal {ι : Type*} (v : ι → EReal) : Prop := ∀ i, ∃ r : ℝ, v i = (r : EReal)

/-- An array is real-valued exactly when no entry is an infinity. -/
theorem isReal_iff_ne {ι : Type*} (v : ι → EReal) : IsReal v ↔ ∀ i, v i ≠ ⊤ ∧ v i ≠ ⊥ := by
  constructor
  · intro h i
    obtain ⟨r, hr⟩ := h i
    rw [hr]
    exact ⟨EReal.coe_ne_top r, EReal.coe_ne_bot r⟩
  · intro h i
    exact ⟨(v i).toReal, (EReal.coe_toReal (h i).1 (h i).2).symm⟩

/-- What a finiteness precondition gives: an array with no infinite entry is real-valued. -/
theorem isReal_of_finite {ι : Type*} {x : ι → EReal} (h : ∀ i, x i ≠ ⊤ ∧ x i ≠ ⊥) : IsReal x :=
  (isReal_iff_ne x).mpr h

/-- An entry of a real-valued array is not `⊤`. -/
theorem IsReal.ne_top {ι : Type*} {v : ι → EReal} (h : IsReal v) (i : ι) : v i ≠ ⊤ :=
  ((isReal_iff_ne v).mp h i).1

/-- An entry of a real-valued array is not `⊥`. -/
theorem IsReal.ne_bot {ι : Type*} {v : ι → EReal} (h : IsReal v) (i : ι) : v i ≠ ⊥ :=
  ((isReal_iff_ne v).mp h i).2

/-- An entry of a real-valued array is the embedding of its real part. -/
theorem IsReal.coe_toReal {ι : Type*} {v : ι → EReal} (h : IsReal v) (i : ι) : ((v i).toReal : EReal) = v i :=
  EReal.coe_toReal (h.ne_top i) (h.ne_bot i)

/-- An array whose absolute values `max a (-a)` all lie below `⊤` is real-valued: `|a| < ⊤` excludes both
    infinities, since `|⊤| = |⊥| = ⊤`. -/
theorem isReal_of_abs_lt_top {ι : Type*} {x : ι → EReal} (h : ∀ i, max (x i) (-(x i)) < ⊤) : IsReal x := by
  refine isReal_of_finite fun i => ⟨?_, ?_⟩
  · intro e; have := h i; rw [e] at this; simp at this
  · intro e; have := h i; rw [e] at this; simp at this

/-! ## Real numbers are closed under the field operations and the lattice operations -/

/-- The sum of two real numbers is a real number. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

/-- The difference of two real numbers is a real number. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

/-- The product of two real numbers is a real number. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

/-- The negation of a real number is a real number. -/
theorem real_neg {a : EReal} (ha : ∃ r : ℝ, a = (r : EReal)) : ∃ r : ℝ, -a = (r : EReal) := by
  obtain ⟨p, rfl⟩ := ha
  exact ⟨-p, (EReal.coe_neg p).symm⟩

/-- The greater of two real numbers is a real number. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The lesser of two real numbers is a real number. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- A finite sum of real numbers is a real number (induction on the index set: the empty sum is `0`, and a
    sum of two reals is real). -/
theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h

/-- The same over a whole finite type. -/
theorem isReal_sum_univ {κ : Type*} [Fintype κ] (f : κ → EReal) (h : ∀ k, ∃ r : ℝ, f k = (r : EReal)) :
    ∃ r : ℝ, ∑ k, f k = (r : EReal) :=
  isReal_sum Finset.univ f fun k _ => h k

/-! ## The elementwise operations -/

section Elementwise
variable {s : Shape} {φ : FTy}

/-- The elementwise sum of two real-valued arrays is real-valued. -/
theorem isReal_addf {x y : FVec Ideal s φ} (hx : IsReal x) (hy : IsReal y) : IsReal (addf (F := Ideal) x y) :=
  fun i => real_add (hx i) (hy i)

/-- The elementwise difference of two real-valued arrays is real-valued. -/
theorem isReal_subf {x y : FVec Ideal s φ} (hx : IsReal x) (hy : IsReal y) : IsReal (subf (F := Ideal) x y) :=
  fun i => real_sub (hx i) (hy i)

/-- The elementwise product of two real-valued arrays is real-valued. -/
theorem isReal_mulf {x y : FVec Ideal s φ} (hx : IsReal x) (hy : IsReal y) : IsReal (mulf (F := Ideal) x y) :=
  fun i => real_mul (hx i) (hy i)

/-- The elementwise maximum of two real-valued arrays is real-valued. -/
theorem isReal_maximumf {x y : FVec Ideal s φ} (hx : IsReal x) (hy : IsReal y) :
    IsReal (maximumf (F := Ideal) x y) :=
  fun i => real_max (hx i) (hy i)

/-- The elementwise minimum of two real-valued arrays is real-valued. -/
theorem isReal_minimumf {x y : FVec Ideal s φ} (hx : IsReal x) (hy : IsReal y) :
    IsReal (minimumf (F := Ideal) x y) :=
  fun i => real_min (hx i) (hy i)

/-- The elementwise negation of a real-valued array is real-valued. -/
theorem isReal_negf {x : FVec Ideal s φ} (hx : IsReal x) : IsReal (negf (F := Ideal) x) :=
  fun i => real_neg (hx i)

/-- The host's elementwise negation of a real-valued array is real-valued. -/
theorem isReal_hostNegf {x : FVec Ideal s φ} (hx : IsReal x) : IsReal (Host.negf (F := Ideal) x) :=
  fun i => real_neg (hx i)

end Elementwise

/-! ## Constants -/

section Constants
variable {s : Shape} {φ : FTy}

/-- A constant array whose bit pattern denotes a real number is real-valued. -/
theorem isReal_const_of {w : BitVec φ.bits} {r : ℝ} (h : Ideal.ofBits φ w = (r : EReal)) :
    IsReal (constant (F := Ideal) s φ w) :=
  fun _ => ⟨r, h⟩

/-- The f32 pattern of `4096.0` (sign 0, exponent 139, fraction 0: `2 ^ 12`) denotes the real `4096`. -/
theorem ofBits_4096_f32 : Ideal.ofBits .f32 0x45800000#32 = ((4096 : ℝ) : EReal) := by
  simp [Ideal.ofBits, Ideal.ieee, -EReal.coe_mul]; norm_num

/-- The f32 pattern `0x358637BD` (the float nearest `1e-6`: sign 0, exponent 107, fraction `0x0637BD`)
    denotes the real `(2 ^ 23 + 407485) · 2 ^ (-43)`. -/
theorem ofBits_1em6_f32 :
    Ideal.ofBits .f32 0x358637BD#32 = (((8796093 : ℝ) * (2 : ℝ) ^ (-43 : ℤ) : ℝ) : EReal) := by
  simp [Ideal.ofBits, Ideal.ieee, -EReal.coe_mul]

/-- The constant `0.0` array is real-valued. -/
theorem isReal_const_zero : IsReal (constant (F := Ideal) s .f32 0x00000000#32) :=
  isReal_const_of (r := 0) Ideal.ofBits_zero_f32

/-- The constant `1.0` array is real-valued. -/
theorem isReal_const_one : IsReal (constant (F := Ideal) s .f32 0x3F800000#32) :=
  isReal_const_of (r := 1) Ideal.ofBits_one_f32

/-- The constant `4096.0` array is real-valued. -/
theorem isReal_const_4096 : IsReal (constant (F := Ideal) s .f32 0x45800000#32) :=
  isReal_const_of ofBits_4096_f32

/-- The constant array of the float nearest `1e-6` is real-valued. -/
theorem isReal_const_1em6 : IsReal (constant (F := Ideal) s .f32 0x358637BD#32) :=
  isReal_const_of ofBits_1em6_f32

/-- Every entry of the constant `1.0` array is `1`. -/
theorem const_one_apply (i : s.Idx) : constant (F := Ideal) s .f32 0x3F800000#32 i = 1 :=
  Ideal.ofBits_one_f32

/-- Every entry of the constant `0.0` array is `0`. -/
theorem const_zero_apply (i : s.Idx) : constant (F := Ideal) s .f32 0x00000000#32 i = 0 :=
  Ideal.ofBits_zero_f32

end Constants

/-! ## Re-indexings: every entry of the result is an entry of the operand -/

section Reindex
variable {s t : Shape}

/-- An array read through any map of indices is real-valued when the array is. -/
theorem isReal_comp {ι κ : Type*} {x : ι → EReal} (hx : IsReal x) (f : κ → ι) : IsReal fun j => x (f j) :=
  fun j => hx (f j)

/-- A broadcast along dimensions of a real-valued array is real-valued. -/
theorem isReal_broadcastInDim {dims : Fin s.rank → Fin t.rank} {h : s.BroadcastsInDim t dims} {x : s.Idx → EReal}
    (hx : IsReal x) : IsReal (broadcastInDim t dims h x) :=
  fun _ => hx _

/-- The splat of a real number is real-valued. -/
theorem isReal_broadcast {a : EReal} (ha : ∃ r : ℝ, a = (r : EReal)) : IsReal (broadcast t a) :=
  fun _ => ha

/-- A trailing-axes broadcast of a real-valued array is real-valued. -/
theorem isReal_broadcastTo {h : s.Broadcasts t} {x : s.Idx → EReal} (hx : IsReal x) : IsReal (broadcastTo t x h) :=
  fun _ => hx _

/-- A shape cast (a reshape: the same entries in row-major order) of a real-valued array is real-valued. -/
theorem isReal_shapeCast {h : s.ShapeCasts t} {x : s.Idx → EReal} (hx : IsReal x) : IsReal (shapeCast t x h) :=
  fun _ => hx _

/-- A transpose of a real-valued array is real-valued. -/
theorem isReal_transpose {perm : List (Fin s.rank)} {h : s.Transposes perm t} {x : s.Idx → EReal} (hx : IsReal x) :
    IsReal (transpose t perm x h) :=
  fun _ => hx _

/-- A gather from a real-valued array is real-valued: each result entry is the operand's at an index. -/
theorem isReal_gather {si : Shape} {w : Nat} (d : GatherDims s si t) {x : s.Idx → EReal} (idx : IVec si w)
    (hx : IsReal x) : IsReal (Host.gather d x idx) :=
  fun _ => hx _

end Reindex

/-! ## Scattered sums, contractions, integers -/

section Sums
variable {s : Shape} {φ : FTy}

/-- An accumulating scatter of real-valued updates into a real-valued operand is real-valued: each entry is the
    operand's plus a finite sum of update entries. -/
theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)

/-- A contraction (`dot_general`) of two real-valued arrays is real-valued: each entry is a finite sum of products. -/
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := by
  intro j
  show ∃ r : ℝ, FloatOps.dotGeneral d prec .single x w j = (r : EReal)
  rw [Ideal.dotGeneral_apply]
  exact isReal_sum_univ _ fun k => real_mul (hx _) (hw _)

/-- The same at any schedule key. -/
theorem isReal_dotGeneralAt (sched : HostSchedule) {sl sr so : Shape} {φ₁ φ₂ : FTy} (d : DotDims sl sr so)
    (prec : Option ContractPrecision) {x : FVec Ideal sl φ₁} {w : FVec Ideal sr φ₂} (hx : IsReal x) (hw : IsReal w) :
    IsReal (Host.dotGeneralAt (F := Ideal) sched d prec x w) := by
  intro j
  show ∃ r : ℝ, FloatOps.dotGeneral d prec sched x w j = (r : EReal)
  rw [Ideal.dotGeneral_apply]
  exact isReal_sum_univ _ fun k => real_mul (hx _) (hw _)

/-- A kernel's matrix product of real-valued operands onto a real-valued accumulator is real-valued: each entry is
    the accumulator's plus a finite sum of products. -/
theorem isReal_matmul {sl sr so : Shape} {φ₁ φ₂ : FTy} (d : DotDims sl sr so) (prec : Option ContractPrecision)
    {x : FVec Ideal sl φ₁} {w : FVec Ideal sr φ₂} {acc : FVec Ideal so .f32} (hx : IsReal x) (hw : IsReal w)
    (hacc : IsReal acc) : IsReal (matmul (F := Ideal) d prec x w acc) := by
  intro j
  show ∃ r : ℝ, FloatOps.matmul d prec x w acc j = (r : EReal)
  rw [Ideal.matmul_apply]
  exact real_add (hacc j) (isReal_sum_univ _ fun k => real_mul (hx _) (hw _))

/-- A signed integer array read as floats is real-valued: each entry is the integer's value. -/
theorem isReal_sitofp {w : Nat} (v : IVec s w) : IsReal (sitofp (F := Ideal) φ v) :=
  fun i => ⟨((v i).toInt : ℝ), rfl⟩

/-- An unsigned integer array read as floats is real-valued. -/
theorem isReal_uitofp {w : Nat} (v : IVec s w) : IsReal (uitofp (F := Ideal) φ v) :=
  fun i => ⟨((v i).toNat : ℝ), rfl⟩

end Sums

/-! ## Positive arrays, and the inverse square root of a degree -/

section Degree
variable {s : Shape} {φ : FTy}

/-- An array every entry of which is a positive real number. -/
def IsPos {ι : Type*} (v : ι → EReal) : Prop := ∀ i, ∃ r : ℝ, 0 < r ∧ v i = (r : EReal)

/-- A positive array is real-valued. -/
theorem IsPos.isReal {ι : Type*} {v : ι → EReal} (h : IsPos v) : IsReal v :=
  fun i => let ⟨r, _, hr⟩ := h i; ⟨r, hr⟩

/-- The inverse square root of a positive real number `r` is the positive real number `(√r)⁻¹`. -/
theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']

/-- The host's elementwise inverse square root of a positive array is positive. -/
theorem isPos_rsqrt {x : FVec Ideal s φ} (hx : IsPos x) : IsPos (Host.rsqrt (F := Ideal) x) :=
  fun i => rsqrt_of_pos (hx i)

/-- The host's elementwise inverse square root of a positive array is real-valued. -/
theorem isReal_rsqrt_of_pos {x : FVec Ideal s φ} (hx : IsPos x) : IsReal (Host.rsqrt (F := Ideal) x) :=
  (isPos_rsqrt hx).isReal

/-- The kernel-side elementwise inverse square root of a positive array is positive. -/
theorem isPos_rsqrt' {x : FVec Ideal s φ} (hx : IsPos x) : IsPos (rsqrt (F := Ideal) x) :=
  fun i => rsqrt_of_pos (hx i)

/-- The product of two positive arrays is positive. -/
theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]

/-- A gather from a positive array is positive. -/
theorem isPos_gather {t si : Shape} {w : Nat} (d : GatherDims s si t) {x : s.Idx → EReal} (idx : IVec si w)
    (hx : IsPos x) : IsPos (Host.gather d x idx) :=
  fun _ => hx _

/-- A broadcast along dimensions of a positive array is positive. -/
theorem isPos_broadcastInDim {t : Shape} {dims : Fin s.rank → Fin t.rank} {h : s.BroadcastsInDim t dims}
    {x : s.Idx → EReal} (hx : IsPos x) : IsPos (broadcastInDim t dims h x) :=
  fun _ => hx _

/-- A degree count: scattering ones onto an array of ones leaves at each entry `1 + n`, `n` the number of updates
    that land there. -/
theorem scatterAdd_ones_apply {si su : Shape} (d : ScatterDims s si su) {w : Nat} (idx : IVec si w)
    (one : FVec Ideal s φ) (ones : FVec Ideal su φ) (h1 : ∀ i, one i = 1) (h2 : ∀ j, ones j = 1) (i : s.Idx) :
    Host.scatterAdd (F := Ideal) d one idx ones i
      = ((1 + ((Finset.univ.filter fun j => d.resultIdx? j idx = some i).card : ℝ) : ℝ) : EReal) := by
  show one i + ∑ j ∈ Finset.univ.filter (fun j => d.resultIdx? j idx = some i), ones j = _
  rw [h1 i, Finset.sum_congr rfl (fun j _ => h2 j), Finset.sum_const, nsmul_one, EReal.coe_add, EReal.coe_one,
    EReal.coe_natCast]

/-- A degree count is positive: each entry is a real number at least `1`. -/
theorem isPos_scatterAdd_ones {si su : Shape} (d : ScatterDims s si su) {w : Nat} (idx : IVec si w)
    (one : FVec Ideal s φ) (ones : FVec Ideal su φ) (h1 : ∀ i, one i = 1) (h2 : ∀ j, ones j = 1) :
    IsPos (Host.scatterAdd (F := Ideal) d one idx ones) := fun i =>
  ⟨_, by positivity, scatterAdd_ones_apply d idx one ones h1 h2 i⟩

/-- The inverse square root of a degree count is positive: each entry is `(√(1 + n))⁻¹`. -/
theorem isPos_rsqrt_degree {si su : Shape} (d : ScatterDims s si su) {w : Nat} (idx : IVec si w)
    (one : FVec Ideal s φ) (ones : FVec Ideal su φ) (h1 : ∀ i, one i = 1) (h2 : ∀ j, ones j = 1) :
    IsPos (Host.rsqrt (F := Ideal) (Host.scatterAdd d one idx ones)) :=
  isPos_rsqrt (isPos_scatterAdd_ones d idx one ones h1 h2)

/-- The inverse square root of a degree count is real-valued. -/
theorem isReal_rsqrt_degree {si su : Shape} (d : ScatterDims s si su) {w : Nat} (idx : IVec si w)
    (one : FVec Ideal s φ) (ones : FVec Ideal su φ) (h1 : ∀ i, one i = 1) (h2 : ∀ j, ones j = 1) :
    IsReal (Host.rsqrt (F := Ideal) (Host.scatterAdd d one idx ones)) :=
  (isPos_rsqrt_degree d idx one ones h1 h2).isReal

/-- A degree count with the ones spelled as broadcasts of the constant `1.0` is positive. -/
theorem isPos_scatterAdd_ones_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.scatterAdd (F := Ideal) d (broadcastInDim s dims₀ hb₀ (constant S₀ .f32 0x3F800000#32)) idx
      (broadcastInDim su dims₁ hb₁ (constant S₁ .f32 0x3F800000#32))) :=
  isPos_scatterAdd_ones d idx _ _ (fun _ => Ideal.ofBits_one_f32) (fun _ => Ideal.ofBits_one_f32)

/-- The inverse square root of a degree count so spelled is positive. -/
theorem isPos_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.rsqrt (F := Ideal) (Host.scatterAdd d (broadcastInDim s dims₀ hb₀ (constant S₀ .f32 0x3F800000#32)) idx
      (broadcastInDim su dims₁ hb₁ (constant S₁ .f32 0x3F800000#32)))) :=
  isPos_rsqrt_degree d idx _ _ (fun _ => Ideal.ofBits_one_f32) (fun _ => Ideal.ofBits_one_f32)

/-- … and real-valued. -/
theorem isReal_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsReal (Host.rsqrt (F := Ideal) (Host.scatterAdd d (broadcastInDim s dims₀ hb₀ (constant S₀ .f32 0x3F800000#32)) idx
      (broadcastInDim su dims₁ hb₁ (constant S₁ .f32 0x3F800000#32)))) :=
  (isPos_rsqrt_degree_bcast d idx hb₀ hb₁).isReal

end Degree

/-! ## More host operations on real-valued arrays -/

section More
variable {s : Shape} {φ : FTy}

/-- A real-valued array minus itself is zero everywhere (for an infinite entry the difference is not zero). -/
theorem subf_self {x : FVec Ideal s φ} (hx : IsReal x) : subf (F := Ideal) x x = fun _ => 0 := by
  funext i
  obtain ⟨r, hr⟩ := hx i
  show x i - x i = 0
  rw [hr, ← EReal.coe_sub, sub_self, EReal.coe_zero]

/-- The host's sum over axes of a real-valued array, from a real initial value, is real-valued: each entry is the
    initial value plus a finite sum of entries. -/
theorem isReal_hostReduceAdd {t u : Shape} {axes : List (Fin s.rank)} {x : FVec Ideal s φ} {init : u.Idx → Ideal φ}
    (h : s.ReducesTo axes t) (hu : 0 < u.numel) (hx : IsReal x) (hinit : IsReal init) :
    IsReal (Host.reduceAdd (F := Ideal) x init h hu) :=
  fun _ => real_add (hinit _) (isReal_sum _ _ fun i _ => hx i)

/-- The host's quotient of a real-valued array by an array of real numbers that are not zero is real-valued. -/
theorem isReal_hostDivf {x y : FVec Ideal s φ} (hx : IsReal x) (hy : ∀ i, ∃ r : ℝ, r ≠ 0 ∧ y i = (r : EReal)) :
    IsReal (Host.divf (F := Ideal) x y) := by
  intro i
  obtain ⟨q, hq, hqy⟩ := hy i
  show ∃ r : ℝ, Ideal.div (x i) (y i) = (r : EReal)
  rw [hqy, Ideal.div_coe hq]
  exact real_mul (hx i) ⟨_, rfl⟩

/-- The host's exponential of a real-valued array is positive. -/
theorem isPos_hostExp {x : FVec Ideal s φ} (hx : IsReal x) : IsPos (Host.exp (F := Ideal) x) := by
  intro i
  obtain ⟨r, hr⟩ := hx i
  refine ⟨Real.exp r, Real.exp_pos r, ?_⟩
  show Ideal.exp (x i) = _
  rw [hr, Ideal.exp_coe]

/-- The host's exponential of a real-valued array is real-valued. -/
theorem isReal_hostExp {x : FVec Ideal s φ} (hx : IsReal x) : IsReal (Host.exp (F := Ideal) x) :=
  (isPos_hostExp hx).isReal

/-- The host's logarithm of a positive array is real-valued. -/
theorem isReal_hostLog {x : FVec Ideal s φ} (hx : IsPos x) : IsReal (Host.log (F := Ideal) x) := by
  intro i
  obtain ⟨r, hr, hrx⟩ := hx i
  refine ⟨Real.log r, ?_⟩
  show Ideal.log (x i) = _
  rw [hrx, Ideal.log_coe, if_neg (not_le.mpr hr)]

/-- The host's square root of an array of real numbers that are not negative is real-valued. -/
theorem isReal_hostSqrt {x : FVec Ideal s φ} (hx : ∀ i, ∃ r : ℝ, 0 ≤ r ∧ x i = (r : EReal)) :
    IsReal (Host.sqrt (F := Ideal) x) := by
  intro i
  obtain ⟨r, hr, hrx⟩ := hx i
  refine ⟨Real.sqrt r, ?_⟩
  show Ideal.sqrt (x i) = _
  rw [hrx, Ideal.sqrt_coe, if_neg (not_lt.mpr hr)]

end More

/-! ## A tactic for nested terms -/

/-- `real_valued` proves a goal `IsReal t` for a term `t` built from real-valued hypotheses by the operations above:
    it applies the closure lemma of the outermost operation, then works on the operands, and closes a leaf by a
    hypothesis or by a lemma about a constant or an integer array. A goal it cannot progress on is left to the caller. -/
syntax (name := realValuedTac) "real_valued" : tactic

macro_rules
  | `(tactic| real_valued) => `(tactic|
      repeat' (with_reducible first
        | assumption
        | exact isReal_const_zero
        | exact isReal_const_one
        | exact isReal_const_4096
        | exact isReal_const_1em6
        | exact isReal_sitofp _
        | exact isReal_uitofp _
        | exact isReal_rsqrt_degree_bcast _ _ _ _
        | exact IsPos.isReal (by assumption)
        | exact isPos_scatterAdd_ones_bcast _ _ _ _
        | apply isReal_addf
        | apply isReal_subf
        | apply isReal_mulf
        | apply isReal_maximumf
        | apply isReal_minimumf
        | apply isReal_negf
        | apply isReal_hostNegf
        | apply isReal_broadcastInDim
        | apply isReal_shapeCast
        | apply isReal_transpose
        | apply isReal_gather
        | apply isReal_scatterAdd
        | apply isReal_dotGeneral
        | apply isReal_matmul
        | apply isReal_hostReduceAdd
        | apply isReal_hostExp
        | apply isReal_rsqrt_of_pos
        | apply isPos_rsqrt
        | apply isPos_mulf
        | apply isPos_gather
        | apply isPos_broadcastInDim
        | apply isPos_hostExp))

/-! ## Usage -/

section Usage

/-- Small shapes standing for nodes, edges and features: `N` nodes, `E` edges, `D` features. -/
private abbrev S0 : Shape := ⟨0, ![]⟩
private abbrev SN : Shape := ⟨1, ![5]⟩
private abbrev SN1 : Shape := ⟨2, ![5, 1]⟩
private abbrev SND : Shape := ⟨2, ![5, 3]⟩
private abbrev SE : Shape := ⟨1, ![7]⟩
private abbrev SE1 : Shape := ⟨2, ![7, 1]⟩
private abbrev SED : Shape := ⟨2, ![7, 3]⟩
private abbrev SD : Shape := ⟨1, ![3]⟩
private abbrev S1D : Shape := ⟨2, ![1, 3]⟩
private abbrev SKD : Shape := ⟨2, ![4, 3]⟩
private abbrev SNK : Shape := ⟨2, ![5, 4]⟩

/-- One graph-convolution aggregation, term by term: a scattered sum of weighted gathered rows onto zeros, plus the
    weighted self term. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) :=
  isReal_addf
    (isReal_scatterAdd d idx (isReal_broadcastInDim isReal_const_zero)
      (isReal_mulf (isReal_broadcastInDim ha) (isReal_gather g idx' hx)))
    (isReal_mulf (isReal_broadcastInDim hc) hx)

/-- The same by the tactic. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) := by
  real_valued

/-- The normalisation weights of an edge: the product of the two endpoints' inverse-square-root degrees, the degree
    a scattered count of ones onto ones, the operations applied through `fun`s as a host program writes them. -/
example (d : ScatterDims SN SE1 SE) (g : GatherDims SN SE1 SE) (idx i₁ i₂ : IVec SE1 32)
    (hb0 : S0.BroadcastsInDim SN ![]) (hb1 : S0.BroadcastsInDim SE ![]) :
    IsReal (mulf (F := Ideal)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₁)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₂)) := by
  real_valued

/-- A dense layer with a bias and a relu: a contraction of real-valued arrays, plus a broadcast bias, against zero. -/
example (dd : DotDims SNK SKD SND) (x : FVec Ideal SNK .f32) (w : FVec Ideal SKD .f32) (b : FVec Ideal SD .f32)
    (hb0 : S0.BroadcastsInDim SND ![]) (hb1 : SD.BroadcastsInDim S1D ![1]) (hb2 : S1D.BroadcastsInDim SND ![0, 1])
    (hx : IsReal x) (hw : IsReal w) (hbias : IsReal b) :
    IsReal (maximumf (F := Ideal)
      (addf ((fun l r => Host.dotGeneral dd none l r) x w) (broadcastInDim SND ![0, 1] hb2 (broadcastInDim S1D ![1] hb1 b)))
      (broadcastInDim SND ![] hb0 (constant S0 .f32 0x00000000#32))) := by
  real_valued

/-- Labels read as floats, negated. -/
example (v : IVec SN 32) : IsReal (Host.negf (F := Ideal) (sitofp .f32 v)) := by
  real_valued

/-- A leaf the tactic does not know is left as a goal: here an input known finite by a precondition. -/
example (x y : FVec Ideal SN .f32) (hx : IsReal x) (hy : ∀ i, y i ≠ ⊤ ∧ y i ≠ ⊥) :
    IsReal (addf (F := Ideal) x (mulf y x)) := by
  real_valued
  exact isReal_of_finite hy

/-- A host program's term as such a program is written: generic in the float values, each operation applied at its
    buffers' contents types. -/
private def edgeWeights {F : FTy → Type} [FloatOps F] (d : ScatterDims SN SE1 SE) (g : GatherDims SN SE1 SE)
    (idx i₁ : IVec SE1 32) (hb0 : S0.BroadcastsInDim SN ![]) (hb1 : S0.BroadcastsInDim SE ![])
    (hbe : SE.BroadcastsInDim SE1 ![0]) (x : FVec F SE1 .f32) : FVec F SE1 .f32 :=
  (mulf : (⟨SE1, .f32⟩ : BufTy).Contents (Elt F) → (⟨SE1, .f32⟩ : BufTy).Contents (Elt F)
      → (⟨SE1, .f32⟩ : BufTy).Contents (Elt F))
    ((broadcastInDim SE1 ![0] hbe : (⟨SE, .f32⟩ : BufTy).Contents (Elt F) → (⟨SE1, .f32⟩ : BufTy).Contents (Elt F))
      (((fun x i => Host.gather g x i) : (⟨SN, .f32⟩ : BufTy).Contents (Elt F) → (⟨SE1, .i32⟩ : BufTy).Contents (Elt F)
          → (⟨SE, .f32⟩ : BufTy).Contents (Elt F))
        ((Host.rsqrt : (⟨SN, .f32⟩ : BufTy).Contents (Elt F) → (⟨SN, .f32⟩ : BufTy).Contents (Elt F))
          (((fun x i u => Host.scatterAdd d x i u) : (⟨SN, .f32⟩ : BufTy).Contents (Elt F)
              → (⟨SE1, .i32⟩ : BufTy).Contents (Elt F) → (⟨SE, .f32⟩ : BufTy).Contents (Elt F)
              → (⟨SN, .f32⟩ : BufTy).Contents (Elt F))
            ((broadcastInDim SN ![] hb0 : (⟨S0, .f32⟩ : BufTy).Contents (Elt F) → (⟨SN, .f32⟩ : BufTy).Contents (Elt F))
              (constant S0 .f32 0x3F800000#32))
            idx
            ((broadcastInDim SE ![] hb1 : (⟨S0, .f32⟩ : BufTy).Contents (Elt F) → (⟨SE, .f32⟩ : BufTy).Contents (Elt F))
              (constant S0 .f32 0x3F800000#32))))
        i₁))
    x

/-- Read at the ideal values, that term is real-valued when its input is. -/
example (d : ScatterDims SN SE1 SE) (g : GatherDims SN SE1 SE) (idx i₁ : IVec SE1 32) (hb0 : S0.BroadcastsInDim SN ![])
    (hb1 : S0.BroadcastsInDim SE ![]) (hbe : SE.BroadcastsInDim SE1 ![0]) (x : FVec Ideal SE1 .f32) (hx : IsReal x) :
    IsReal (edgeWeights (F := Ideal) d g idx i₁ hb0 hb1 hbe x) := by
  unfold edgeWeights
  real_valued

end Usage

end RealValued
-- ==== Proof.LibOnlineSoftmax.lean ====
/-
  The online softmax against the plain one, over the extended reals.

  A row of real logits is cut into n blocks of B columns. The online softmax walks the blocks keeping the
  running maximum m and the running sum l of the exponentials relative to it; a new block with maximum m₀ moves
  the state to (max m m₀, exp (m - max m m₀) · l + Σ_q exp (s q - max m m₀)). The state before the first block is
  (-∞, 0). After the last block the state is (M, Σ exp (s - M)) with M the maximum of the whole row, so
  m + log l is the row's log-sum-exp, and the cross-entropy term read off it equals the one read off the
  plain log-softmax over all n · B columns.
-/
import Idealize.ShloMosaic.PureOps.Ideal
import Mathlib.Data.Finset.Fold
import Mathlib.Algebra.BigOperators.Fin
import Mathlib.Logic.Equiv.Fin.Basic
import Mathlib.Analysis.SpecialFunctions.Log.Basic
import Mathlib.Analysis.SpecialFunctions.Exp

noncomputable section

namespace OnlineSoftmax

open Idealize.ShloMosaic

/-! ### Coercion facts -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with the binary maximum. -/
theorem coe_max (x y : ℝ) : ((max x y : ℝ) : EReal) = max (x : EReal) (y : EReal) :=
  EReal.coe_strictMono.monotone.map_max

/-- The maximum of a nonempty finite family of reals, folded from -∞ in the extended reals, is the real
    maximum of the family: it bounds the family, is attained, and is the fold's value. -/
theorem fold_max_real {N : ℕ} (hN : 0 < N) (f : Fin N → ℝ) :
    ∃ M : ℝ, (∀ j, f j ≤ M) ∧ (∃ j, f j = M) ∧
      Finset.univ.fold max (⊥ : EReal) (fun j => ((f j : ℝ) : EReal)) = (M : EReal) := by
  obtain ⟨j0, -, hj0⟩ := Finset.exists_max_image Finset.univ f ⟨⟨0, hN⟩, Finset.mem_univ _⟩
  refine ⟨f j0, fun j => hj0 j (Finset.mem_univ j), ⟨j0, rfl⟩, le_antisymm ?_ ?_⟩
  · rw [Finset.fold_max_le]
    exact ⟨bot_le, fun x _ => EReal.coe_le_coe_iff.mpr (hj0 x (Finset.mem_univ x))⟩
  · rw [Finset.le_fold_max]
    exact Or.inr ⟨j0, Finset.mem_univ _, le_rfl⟩

/-! ### The online softmax's state -/

/-- One step of the online softmax: the state (m, l) — the running maximum and the running sum of the
    exponentials relative to it — meets a block of B columns. The new maximum m' is the larger of m and the
    block's maximum; the old sum is rescaled by exp (m - m') and the block's exponentials relative to m' are
    added. -/
def upd {B : ℕ} (row : Fin B → EReal) (ml : EReal × EReal) : EReal × EReal :=
  let m' := max ml.1 (Finset.univ.fold max (⊥ : EReal) row)
  (m', Ideal.exp (ml.1 - m') * ml.2 + ∑ q, Ideal.exp (row q - m'))

/-- The online softmax's state after the first k blocks of the row s; before the first block it is
    (-∞, 0). -/
def acc {B : ℕ} (s : ℕ → Fin B → EReal) : ℕ → EReal × EReal
  | 0 => (⊥, 0)
  | k + 1 => upd (s k) (acc s k)

/-- The new running maximum of a step. -/
theorem upd_fst {B : ℕ} (row : Fin B → EReal) (ml : EReal × EReal) :
    (upd row ml).1 = max ml.1 (Finset.univ.fold max (⊥ : EReal) row) := rfl

/-- The new running sum of a step. -/
theorem upd_snd {B : ℕ} (row : Fin B → EReal) (ml : EReal × EReal) :
    (upd row ml).2 = Ideal.exp (ml.1 - (upd row ml).1) * ml.2 + ∑ q, Ideal.exp (row q - (upd row ml).1) := rfl

/-- The state before the first block. -/
theorem acc_zero {B : ℕ} (s : ℕ → Fin B → EReal) : acc s 0 = (⊥, 0) := rfl

/-- The state after one more block. -/
theorem acc_succ {B : ℕ} (s : ℕ → Fin B → EReal) (k : ℕ) : acc s (k + 1) = upd (s k) (acc s k) := rfl

/-- The exponentials of a real block relative to a real maximum sum to a real. -/
theorem sum_exp_coe {B : ℕ} (row : Fin B → ℝ) (M : ℝ) :
    ∑ q, Ideal.exp (((row q : ℝ) : EReal) - (M : EReal)) = ((∑ q, Real.exp (row q - M) : ℝ) : EReal) := by
  rw [coe_sum]
  refine Finset.sum_congr rfl fun q _ => ?_
  rw [← EReal.coe_sub, Ideal.exp_coe]

/-- After k ≥ 1 blocks of real logits the state is real: the running maximum is the maximum M of the logits
    seen so far (it bounds them and is attained) and the running sum is Σ exp (s - M) over them. -/
theorem acc_real {B : ℕ} (hB : 0 < B) (s : ℕ → Fin B → ℝ) (k : ℕ) (hk : 0 < k) :
    ∃ M : ℝ, (∀ j, j < k → ∀ q, s j q ≤ M) ∧ (∃ j, j < k ∧ ∃ q, s j q = M) ∧
      (acc (fun j q => ((s j q : ℝ) : EReal)) k).1 = (M : EReal) ∧
      (acc (fun j q => ((s j q : ℝ) : EReal)) k).2
        = ((∑ j ∈ Finset.range k, ∑ q, Real.exp (s j q - M) : ℝ) : EReal) := by
  obtain ⟨k, rfl⟩ : ∃ k', k = k' + 1 := ⟨k - 1, by omega⟩
  clear hk
  induction k with
  | zero =>
    obtain ⟨M, hle, ⟨q0, hq0⟩, hM⟩ := fold_max_real hB (s 0)
    have h1 : (acc (fun j q => ((s j q : ℝ) : EReal)) (0 + 1)).1 = (M : EReal) := by
      rw [acc_succ, upd_fst, acc_zero, hM]; exact max_eq_right bot_le
    refine ⟨M, ?_, ⟨0, Nat.zero_lt_one, q0, hq0⟩, h1, ?_⟩
    · intro j hj q
      obtain rfl : j = 0 := by omega
      exact hle q
    · have hu : (upd (fun q => ((s 0 q : ℝ) : EReal)) (acc (fun j q => ((s j q : ℝ) : EReal)) 0)).1
          = (M : EReal) := h1
      rw [acc_succ, upd_snd, hu, acc_zero, mul_zero, zero_add, sum_exp_coe, Finset.sum_range_one]
  | succ k ih =>
    obtain ⟨M, hle, ⟨j1, hj1, q1, hq1⟩, h1, h2⟩ := ih
    obtain ⟨Mk, hlek, ⟨q0, hq0⟩, hMk⟩ := fold_max_real hB (s (k + 1))
    have h1' : (acc (fun j q => ((s j q : ℝ) : EReal)) (k + 1 + 1)).1 = ((max M Mk : ℝ) : EReal) := by
      rw [acc_succ, upd_fst, h1, hMk, coe_max]
    refine ⟨max M Mk, ?_, ?_, h1', ?_⟩
    · intro j hj q
      rcases Nat.lt_succ_iff_lt_or_eq.mp hj with h | rfl
      · exact le_trans (hle j h q) (le_max_left _ _)
      · exact le_trans (hlek q) (le_max_right _ _)
    · rcases le_total M Mk with h | h
      · exact ⟨k + 1, Nat.lt_succ_self _, q0, by rw [hq0, max_eq_right h]⟩
      · exact ⟨j1, Nat.lt_succ_of_lt hj1, q1, by rw [hq1, max_eq_left h]⟩
    · have hu : (upd (fun q => ((s (k + 1) q : ℝ) : EReal))
          (acc (fun j q => ((s j q : ℝ) : EReal)) (k + 1))).1 = ((max M Mk : ℝ) : EReal) := h1'
      rw [acc_succ, upd_snd, hu, h1, h2, sum_exp_coe, ← EReal.coe_sub, Ideal.exp_coe,
        ← EReal.coe_mul, ← EReal.coe_add, Finset.sum_range_succ _ (k + 1), Finset.mul_sum]
      congr 2
      refine Finset.sum_congr rfl fun j _ => ?_
      rw [Finset.mul_sum]
      refine Finset.sum_congr rfl fun q _ => ?_
      rw [← Real.exp_add]
      congr 1
      ring

/-! ### The blocks of a row -/

/-- Column q of block j lies in the row: j · B + q < n · B for j < n. -/
theorem blk_lt {n B j : ℕ} (h : j < n) (q : Fin B) : j * B + q.val < n * B :=
  calc j * B + q.val < j * B + B := Nat.add_lt_add_left q.isLt _
    _ = (j + 1) * B := (Nat.succ_mul j B).symm
    _ ≤ n * B := Nat.mul_le_mul_right B h

/-- A sum over the n · B columns of a row is the sum over its n blocks of the sums over each block's B
    columns, column q of block j being column j · B + q. -/
theorem sum_blocks {n B : ℕ} (g : Fin (n * B) → ℝ) :
    ∑ j : Fin n, ∑ q : Fin B, g ⟨j.val * B + q.val, blk_lt j.isLt q⟩ = ∑ c : Fin (n * B), g c := by
  rw [← Fintype.sum_prod_type'
    (f := fun (j : Fin n) (q : Fin B) => g ⟨j.val * B + q.val, blk_lt j.isLt q⟩)]
  refine Fintype.sum_equiv finProdFinEquiv _ _ fun p => ?_
  congr 1
  apply Fin.ext
  simp [finProdFinEquiv, mul_comm, add_comm]

/-- The same with the blocks counted by a natural number below n and the row's columns read through a
    function F: the block-wise double sum of F over the row is the sum of F over all n · B columns. -/
theorem sum_range_blocks {n B : ℕ} (sf : Fin (n * B) → ℝ) (F : ℝ → ℝ) :
    ∑ j ∈ Finset.range n, ∑ q : Fin B, F (if h : j < n then sf ⟨j * B + q.val, blk_lt h q⟩ else 0)
      = ∑ c : Fin (n * B), F (sf c) := by
  rw [← sum_blocks (fun c => F (sf c)), ← Fin.sum_univ_eq_sum_range
    (fun j => ∑ q : Fin B, F (if h : j < n then sf ⟨j * B + q.val, blk_lt h q⟩ else 0)) n]
  refine Finset.sum_congr rfl fun j _ => Finset.sum_congr rfl fun q _ => ?_
  rw [dif_pos j.isLt]

/-! ### The cross-entropy term of a row -/

/-- The online softmax's final state over the n blocks of a row of n · B real logits sf (column q of block j
    is column j · B + q): the running maximum is the row's maximum M — it bounds the row, is attained, and is
    the value of the row's fold from -∞ — and the running sum is Σ_c exp (sf c - M) over all the columns. -/
theorem acc_row {n B : ℕ} (hn : 0 < n) (hB : 0 < B) (sf : Fin (n * B) → ℝ) :
    ∃ M : ℝ, (∀ c, sf c ≤ M) ∧ (∃ c, sf c = M) ∧
      Finset.univ.fold max (⊥ : EReal) (fun j => ((sf j : ℝ) : EReal)) = (M : EReal) ∧
      (acc (fun j (q : Fin B) =>
        (((if h : j < n then sf ⟨j * B + q.val, blk_lt h q⟩ else 0 : ℝ)) : EReal)) n).1 = (M : EReal) ∧
      (acc (fun j (q : Fin B) =>
        (((if h : j < n then sf ⟨j * B + q.val, blk_lt h q⟩ else 0 : ℝ)) : EReal)) n).2
          = ((∑ c, Real.exp (sf c - M) : ℝ) : EReal) := by
  obtain ⟨M, hMle, ⟨jM, hjM, qM, hqM⟩, ha1, ha2⟩ :=
    acc_real hB (fun j q => if h : j < n then sf ⟨j * B + q.val, blk_lt h q⟩ else 0) n hn
  obtain ⟨M', hM'le, ⟨c0, hc0⟩, hM'⟩ := fold_max_real (Nat.mul_pos hn hB) sf
  -- the blocks' maximum is the row's maximum
  have hMM : M' = M := by
    apply le_antisymm
    · rw [← hc0]
      have hdiv : c0.val / B < n := Nat.div_lt_of_lt_mul (lt_of_lt_of_eq c0.isLt (Nat.mul_comm n B))
      have hb : (if h : c0.val / B < n then
          sf ⟨c0.val / B * B + c0.val % B, blk_lt h ⟨c0.val % B, Nat.mod_lt _ hB⟩⟩ else 0) ≤ M :=
        hMle (c0.val / B) hdiv ⟨c0.val % B, Nat.mod_lt _ hB⟩
      rw [dif_pos hdiv] at hb
      have hc : (⟨c0.val / B * B + c0.val % B, blk_lt hdiv ⟨c0.val % B, Nat.mod_lt _ hB⟩⟩ : Fin (n * B))
          = c0 := Fin.ext (Nat.div_add_mod' _ _)
      rw [hc] at hb
      exact hb
    · rw [← hqM]
      show (if h : jM < n then sf ⟨jM * B + qM.val, blk_lt h qM⟩ else 0) ≤ M'
      rw [dif_pos hjM]
      exact hM'le _
  subst hMM
  refine ⟨M', hM'le, ⟨c0, hc0⟩, hM', ha1, ?_⟩
  -- the blocks' sum of exponentials is the row's
  rw [ha2, sum_range_blocks sf (fun x => Real.exp (x - M'))]

/-- The cross-entropy term of one row of n · B real logits sf with label weight lab at column i. On the left
    the row's log-sum-exp is m + log l for the online softmax's final state (m, l) over the n blocks of B
    columns (column q of block j is column j · B + q); on the right it is the plain log-softmax: the maximum
    Mref over all columns (folded from -∞), the logits shifted by it, and a sum over the columns in which only
    column i carries the label weight. The two are equal. -/
theorem row_loss {n B : ℕ} (hn : 0 < n) (hB : 0 < B) (sf : Fin (n * B) → ℝ) (lab : ℝ) (i : Fin (n * B)) :
    let sb : ℕ → Fin B → ℝ := fun j q => if h : j < n then sf ⟨j * B + q.val, blk_lt h q⟩ else 0
    let a := acc (fun j q => ((sb j q : ℝ) : EReal)) n
    let Mref : EReal := max ⊥ (Finset.univ.fold max (⊥ : EReal) (fun j => ((sf j : ℝ) : EReal)))
    (0 - (lab : EReal)) * (((sf i : ℝ) : EReal) - (a.1 + Ideal.log a.2))
      = (0 : EReal) + ∑ j : Fin (n * B), (-(if j = i then (lab : EReal) else 0)) *
          ((((sf j : ℝ) : EReal) - Mref) - Ideal.log ((0 : EReal) +
            ∑ j' : Fin (n * B), Ideal.exp (((sf j' : ℝ) : EReal) - Mref))) := by
  intro sb a Mref
  obtain ⟨M, -, -, hM, ha1, ha2⟩ := acc_row hn hB sf
  have hSpos : 0 < ∑ c, Real.exp (sf c - M) :=
    Finset.sum_pos (fun _ _ => Real.exp_pos _) ⟨i, Finset.mem_univ _⟩
  have ha1' : a.1 = (M : EReal) := ha1
  have ha2' : a.2 = ((∑ c, Real.exp (sf c - M) : ℝ) : EReal) := ha2
  have hMref : Mref = (M : EReal) := by
    show max ⊥ (Finset.univ.fold max (⊥ : EReal) (fun j => ((sf j : ℝ) : EReal))) = (M : EReal)
    rw [hM, max_eq_right bot_le]
  have hlog : Ideal.log ((∑ c, Real.exp (sf c - M) : ℝ) : EReal)
      = ((Real.log (∑ c, Real.exp (sf c - M)) : ℝ) : EReal) := by
    rw [Ideal.log_coe, if_neg (not_le.mpr hSpos)]
  rw [ha1', ha2', hMref, zero_add, zero_add, sum_exp_coe, hlog]
  refine Eq.trans ?_ (Finset.sum_eq_single i ?_ ?_).symm
  · have hr : sf i - (M + Real.log (∑ c, Real.exp (sf c - M)))
        = sf i - M - Real.log (∑ c, Real.exp (sf c - M)) := by ring
    rw [if_pos rfl, zero_sub, ← EReal.coe_add, ← EReal.coe_sub, ← EReal.coe_sub, ← EReal.coe_sub, hr]
  · intro j _ hji
    rw [if_neg hji, neg_zero, ← EReal.coe_sub, ← EReal.coe_sub, zero_mul]
  · intro h
    exact absurd (Finset.mem_univ i) h

end OnlineSoftmax
-- ==== Proof.Bridge.lean ====
/-
  The two ways of writing a row's margin-softmax loss agree on real inputs.

  With every entry of the batch and of the class table a real number, each quantity the two formulas are built
  from is a real number. A row's clamped norm is the larger of a square root of a sum of squares and a positive
  constant, so it is a positive real; a scaled entry is a real divided by a positive real; a cosine is a finite sum
  of products of such entries; the margin value of a real cosine is a real, the argument of its square root being a
  maximum with zero. The logit at class j is therefore the real L j = 30 · φ at the label (φ the margin value of
  the label's cosine) and 30 · c j elsewhere (c j the cosine), and the row maximum folded from −∞ over the classes is
  a real M.

  The identity itself is the shift law of the log-sum-exp. For any real shift a,
      Σ_j exp (L j − a) = exp (M − a) · Σ_j exp (L j − M),
  so with a = 30 the sum over the classes other than the label plus the label's own term is
  exp (M − 30) · Σ_j exp (L j − M), whose logarithm is (M − 30) + log Σ_j exp (L j − M); adding 30 · (1 − φ)
  gives M − 30 φ + log Σ_j exp (L j − M) = −((L t − M) − log Σ_j exp (L j − M)).
-/
import proofs.«431268_j55817394979146_2_alg».proof.Proof.Spec
import proofs.«431268_j55817394979146_2_alg».proof.Proof.LibRealValued
import proofs.«431268_j55817394979146_2_alg».proof.Proof.LibOnlineSoftmax
import Mathlib.Analysis.SpecialFunctions.Log.Basic
import Mathlib.Analysis.SpecialFunctions.Exp
import Mathlib.Analysis.SpecialFunctions.Sqrt

open scoped BigOperators

namespace MarginLoss

open Idealize.ShloMosaic Idealize.ShloMosaic.ValueIdx RealValued

/-! ### The constants -/

/-- The scale is the real number 30: sign 0, exponent 131, fraction 0x700000, that is 15728640 · 2⁻¹⁹. -/
theorem scaleE_eq : scaleE = ((30 : ℝ) : EReal) := by
  show Ideal.ofBits .f32 0x41F00000#32 = ((30 : ℝ) : EReal)
  simp [Ideal.ofBits, Ideal.ieee, -EReal.coe_mul]; norm_num

/-- The constant one is the extended real 1. -/
theorem oneE_eq_one : oneE = 1 := Ideal.ofBits_one_f32

/-- The constant one is the real number 1. -/
theorem oneE_eq : oneE = ((1 : ℝ) : EReal) := oneE_eq_one.trans EReal.coe_one.symm

/-- The pattern a running maximum starts from is −∞. -/
theorem negInfE_eq : negInfE = ⊥ := by
  show Ideal.ofBits .f32 0xFF800000#32 = (⊥ : EReal)
  simp [Ideal.ofBits, Ideal.ieee]

/-- The clamp of the norms is a positive real: sign 0, exponent 87, fraction 0x0CBCCC, that is
    9223372 · 2⁻⁶³. -/
theorem epsE_pos : ∃ r : ℝ, 0 < r ∧ epsE = (r : EReal) := by
  refine ⟨(9223372 : ℝ) * (2 : ℝ) ^ (-63 : ℤ), by positivity, ?_⟩
  show Ideal.ofBits .f32 0x2B8CBCCC#32 = _
  simp [Ideal.ofBits, Ideal.ieee, -EReal.coe_mul]

/-- The constant standing for cos m is a real: sign 0, exponent 126, fraction 0x60A940. -/
theorem cosmE_real : ∃ r : ℝ, cosmE = (r : EReal) := by
  refine ⟨(14723392 : ℝ) * (2 : ℝ) ^ (-24 : ℤ), ?_⟩
  show Ideal.ofBits .f32 0x3F60A940#32 = _
  simp [Ideal.ofBits, Ideal.ieee, -EReal.coe_mul]

/-- The constant standing for sin m is a real: sign 0, exponent 125, fraction 0x757744. -/
theorem sinmE_real : ∃ r : ℝ, sinmE = (r : EReal) := by
  refine ⟨(16086852 : ℝ) * (2 : ℝ) ^ (-25 : ℤ), ?_⟩
  show Ideal.ofBits .f32 0x3EF57744#32 = _
  simp [Ideal.ofBits, Ideal.ieee, -EReal.coe_mul]

/-! ### Norms, scaled rows, cosines and margin values are real -/

/-- The clamped norm of a real vector is a positive real: the sum of squares is a real that is not negative, its
    square root is a real, and the maximum with the positive clamp is at least the clamp. -/
theorem clampedNorm_pos {n : ℕ} {v : Fin n → EReal} (hv : IsReal v) :
    ∃ r : ℝ, 0 < r ∧ clampedNorm v = (r : EReal) := by
  obtain ⟨e, he, hee⟩ := epsE_pos
  choose a ha using hv
  have hs : ∑ d, v d * v d = ((∑ d, a d * a d : ℝ) : EReal) := by
    rw [OnlineSoftmax.coe_sum]
    exact Finset.sum_congr rfl fun d _ => by rw [ha d, EReal.coe_mul]
  have hnn : 0 ≤ ∑ d, a d * a d := Finset.sum_nonneg fun d _ => mul_self_nonneg (a d)
  refine ⟨max (Real.sqrt (∑ d, a d * a d)) e, lt_max_of_lt_right he, ?_⟩
  unfold clampedNorm
  rw [hs, Ideal.sqrt_coe, if_neg (not_lt.mpr hnn), hee, OnlineSoftmax.coe_max]

/-- An entry of a row scaled by its clamped norm is a real: a real times the reciprocal of a positive real. -/
theorem unitRow_real {r : ℕ} {x : (⟨2, ![r, 512]⟩ : Shape).Idx → EReal} (hx : IsReal x) (i : Fin r)
    (d : Fin 512) : ∃ q : ℝ, unitRow x i d = (q : EReal) := by
  obtain ⟨n, hn, hnn⟩ := clampedNorm_pos (v := fun d' => x (ix2 i d')) fun d' => hx (ix2 i d')
  unfold unitRow
  rw [hnn, Ideal.div_coe hn.ne']
  exact real_mul (hx _) ⟨_, rfl⟩

/-- A cosine of real rows is a real: a finite sum of products of reals. -/
theorem cosine_real {x : (⟨2, ![512, 512]⟩ : Shape).Idx → EReal}
    {w : (⟨2, ![100000, 512]⟩ : Shape).Idx → EReal} (hx : IsReal x) (hw : IsReal w) (i : Fin 512)
    (j : Fin 100000) : ∃ r : ℝ, cosine x w i j = (r : EReal) :=
  isReal_sum_univ _ fun d => real_mul (unitRow_real hx i d) (unitRow_real hw j d)

/-- The margin value of a real cosine is a real: where the cosine is positive it is c · cos m − √(max (1 − c²) 0) · sin m
    with the square root taken of a real that is not negative, and otherwise it is the cosine itself. -/
theorem margin_real {c : EReal} (hc : ∃ r : ℝ, c = (r : EReal)) : ∃ r : ℝ, margin c = (r : EReal) := by
  obtain ⟨c, rfl⟩ := hc
  obtain ⟨cm, hcm⟩ := cosmE_real
  obtain ⟨sm, hsm⟩ := sinmE_real
  unfold margin
  split_ifs with h
  · have h1 : max (oneE - (c : EReal) * (c : EReal)) 0 = ((max (1 - c * c) 0 : ℝ) : EReal) := by
      rw [oneE_eq, ← EReal.coe_mul, ← EReal.coe_sub, OnlineSoftmax.coe_max, EReal.coe_zero]
    rw [h1, Ideal.sqrt_coe, if_neg (not_lt.mpr (le_max_right _ _)), hcm, hsm]
    exact real_sub (real_mul ⟨_, rfl⟩ ⟨_, rfl⟩) (real_mul ⟨_, rfl⟩ ⟨_, rfl⟩)
  · exact ⟨c, rfl⟩

/-! ### The logit with the label's indicator as a factor -/

/-- At the label the indicator is one: 1 · a + (1 − 1) · b = a. -/
theorem blend_label (a b : EReal) : (1 : EReal) * a + (oneE - 1) * b = a := by
  have h : (1 : EReal) - 1 = 0 := by
    rw [← EReal.coe_one, ← EReal.coe_sub, sub_self, EReal.coe_zero]
  rw [oneE_eq_one, h, one_mul, zero_mul, add_zero]

/-- Off the label the indicator is zero: 0 · a + (1 − 0) · b = b. -/
theorem blend_other (a b : EReal) : (0 : EReal) * a + (oneE - 0) * b = b := by
  rw [oneE_eq_one, zero_mul, zero_add, sub_zero, one_mul]

/-! ### The shift law in the reals -/

/-- The log-sum-exp shift law for a row whose logit at the label t is 30 · φ and elsewhere 30 · c j. The sum of
    exp (30 · c j − 30) over the classes other than t, plus exp (30 · φ − 30), is Σ_j exp (L j − 30)
    = exp (M − 30) · Σ_j exp (L j − M) for any real M; taking logarithms and adding 30 · (1 − φ) gives the
    negative log-softmax at the label with the logits shifted by M. -/
theorem shift_law {n : ℕ} (c L : Fin n → ℝ) (φ M : ℝ) (t : Fin n) (hLt : L t = 30 * φ)
    (hL : ∀ j, j ≠ t → L j = 30 * c j) :
    Real.log ((∑ j, if j = t then 0 else Real.exp (30 * c j - 30)) + Real.exp (30 * φ - 30)) + 30 * (1 - φ)
      = -((L t - M) - Real.log (∑ j, Real.exp (L j - M))) := by
  have hterm : ∀ j, Real.exp (M - 30) * Real.exp (L j - M)
      = (if j = t then 0 else Real.exp (30 * c j - 30)) + (if j = t then Real.exp (30 * φ - 30) else 0) := by
    intro j
    rw [← Real.exp_add]
    by_cases h : j = t
    · rw [if_pos h, if_pos h, zero_add, h, hLt]
      congr 1; ring
    · rw [if_neg h, if_neg h, add_zero, hL j h]
      congr 1; ring
  have hsum : (∑ j, if j = t then 0 else Real.exp (30 * c j - 30)) + Real.exp (30 * φ - 30)
      = Real.exp (M - 30) * ∑ j, Real.exp (L j - M) := by
    rw [Finset.mul_sum, Finset.sum_congr rfl fun j _ => hterm j, Finset.sum_add_distrib,
      Finset.sum_ite_eq' Finset.univ t fun _ => Real.exp (30 * φ - 30), if_pos (Finset.mem_univ t)]
  have hS : 0 < ∑ j, Real.exp (L j - M) :=
    Finset.sum_pos (fun _ _ => Real.exp_pos _) ⟨t, Finset.mem_univ t⟩
  rw [hsum, Real.log_mul (Real.exp_ne_zero _) hS.ne', Real.log_exp, hLt]
  ring

/-! ### The two losses -/

/-- On real inputs the loss of a row written with the logits shifted by the scale and the label's term added apart
    is the loss written as the negative log-softmax at the label with the logits shifted by the row's maximum. -/
theorem kernelRow_eq_referenceRow
    (x : (⟨2, ![512, 512]⟩ : Shape).Idx → EReal) (w : (⟨2, ![100000, 512]⟩ : Shape).Idx → EReal)
    (hx : RealValued.IsReal x) (hw : RealValued.IsReal w) (t : Fin 100000) (i : Fin 512) :
    MarginLoss.kernelRow x w t i = MarginLoss.referenceRow x w t i := by
  -- the cosines c j of the row and the margin value φ of the label's cosine
  choose c hc using fun j => cosine_real hx hw i j
  obtain ⟨φ, hφ⟩ := margin_real ⟨c t, hc t⟩
  -- the logits L j
  obtain ⟨L, hLdef⟩ : ∃ L : Fin 100000 → ℝ, ∀ j, L j = 30 * (if j = t then φ else c j) := ⟨_, fun _ => rfl⟩
  have hLt : L t = 30 * φ := by rw [hLdef t, if_pos rfl]
  have hL : ∀ j, j ≠ t → L j = 30 * c j := fun j h => by rw [hLdef j, if_neg h]
  have hlogit : ∀ j, logit x w t i j = ((L j : ℝ) : EReal) := by
    intro j
    unfold logit
    by_cases h : j = t
    · rw [if_pos h, h, blend_label, hφ, scaleE_eq, ← EReal.coe_mul, hLt]
    · rw [if_neg h, blend_other, hc j, scaleE_eq, ← EReal.coe_mul, hL j h]
  -- the row maximum M
  obtain ⟨M, -, -, hM⟩ := OnlineSoftmax.fold_max_real (by norm_num : 0 < 100000) L
  have hrowMax : rowMax x w t i = (M : EReal) := by
    unfold rowMax
    rw [funext hlogit, negInfE_eq, hM, max_eq_right bot_le]
  have hS : 0 < ∑ j, Real.exp (L j - M) :=
    Finset.sum_pos (fun _ _ => Real.exp_pos _) ⟨t, Finset.mem_univ t⟩
  -- the reference's loss as a real
  have href : referenceRow x w t i
      = ((-((L t - M) - Real.log (∑ j, Real.exp (L j - M))) : ℝ) : EReal) := by
    unfold referenceRow
    rw [hrowMax, hlogit t, Finset.sum_congr rfl fun j _ => by rw [hlogit j], OnlineSoftmax.sum_exp_coe L M,
      Ideal.log_coe, if_neg (not_le.mpr hS), ← EReal.coe_sub, ← EReal.coe_sub, ← EReal.coe_neg]
  -- the sum over the classes other than the label as a real
  have hmask : maskedExpSum x w t i
      = ((∑ j, (if j = t then 0 else Real.exp (30 * c j - 30)) : ℝ) : EReal) := by
    unfold maskedExpSum
    rw [OnlineSoftmax.coe_sum]
    refine Finset.sum_congr rfl fun j _ => ?_
    by_cases h : j = t
    · rw [if_pos h, if_pos h, EReal.coe_zero]
    · rw [if_neg h, if_neg h, hc j, scaleE_eq, ← EReal.coe_mul, ← EReal.coe_sub, Ideal.exp_coe]
  -- the other loss as a real
  have hpos : 0 < (∑ j, if j = t then 0 else Real.exp (30 * c j - 30)) + Real.exp (30 * φ - 30) :=
    add_pos_of_nonneg_of_pos
      (Finset.sum_nonneg fun j _ => by
        by_cases h : j = t
        · rw [if_pos h]
        · rw [if_neg h]; exact (Real.exp_pos _).le)
      (Real.exp_pos _)
  have e1 : ((30 : ℝ) : EReal) * (φ : EReal) - ((30 : ℝ) : EReal) = ((30 * φ - 30 : ℝ) : EReal) := by
    rw [← EReal.coe_mul, ← EReal.coe_sub]
  have e2 : ((30 : ℝ) : EReal) * (((1 : ℝ) : EReal) - (φ : EReal)) = ((30 * (1 - φ) : ℝ) : EReal) := by
    rw [← EReal.coe_sub, ← EReal.coe_mul]
  have hker : kernelRow x w t i
      = ((Real.log ((∑ j, if j = t then 0 else Real.exp (30 * c j - 30)) + Real.exp (30 * φ - 30))
          + 30 * (1 - φ) : ℝ) : EReal) := by
    unfold kernelRow
    rw [hmask, hφ, scaleE_eq, oneE_eq, e1, e2, Ideal.exp_coe, ← EReal.coe_add, Ideal.log_coe,
      if_neg (not_le.mpr hpos), ← EReal.coe_add]
  rw [hker, href, shift_law c L φ M t hLt hL]

end MarginLoss
-- ==== Proof.PreDecode.lean ====
/-
  The printed precondition, read back.

  The precondition is a conjunction of three one-bit words: every entry of the first float array has an absolute
  value below +∞, every entry of the second one has too, and every label word lies in the signed range [0, 100000).
  Each conjunct is a reduction by `and` over all axes of an elementwise comparison. When the whole word is 1, every
  element of every comparison is 1; an absolute value `max a (-a)` below `⊤` excludes both infinities, so the float
  arrays hold real numbers only; and a 32-bit word that is at least 0 and below 100000 when read signed has the same
  reading unsigned, so it is below 100000 as a natural number.
-/
import proofs.«431268_j55817394979146_2_alg».proof.Pre_finite_inputs
import proofs.«431268_j55817394979146_2_alg».proof.Proof.LibRealValued
import Idealize.ShloMosaic.Lib.ReduceAll
import Idealize.ShloMosaic.Lib.StableHlo.Predicate
import Idealize.ShloMosaic.Lib.ValueIdx
import Idealize.ShloMosaic.PureOps.Ideal

namespace Cert.PreDecode

open Idealize.ShloMosaic
open Idealize.ShloMosaic.ValueIdx
open Cert.Pre_finite_inputs

/-- The scalar shape has exactly one index: a function out of the empty type. -/
instance subsingleton_scalar_idx : Subsingleton S_.Idx := ⟨fun _ _ => funext fun d => d.elim0⟩

/-- The f32 pattern `0x7F800000` (sign 0, exponent all ones, fraction 0) denotes `+∞`. -/
theorem ofBits_posInf : Ideal.ofBits .f32 0x7F800000#32 = ⊤ := by
  simp [Ideal.ofBits, Ideal.ieee]

/-- A one-bit word made from a truth value is 1 exactly when the value is true. -/
theorem ofBool_decide_eq_one {p : Prop} [Decidable p] (h : BitVec.ofBool (decide p) = 1#1) : p := by
  by_contra hn
  rw [decide_eq_false hn] at h
  exact absurd h (by decide)

/-- One element of the finiteness test: if `|a| < +∞` compares true, then `max a (-a) < ⊤`. -/
theorem abs_lt_top_of_cmp {a : EReal}
    (h : Ideal.cmp .olt (max a (-a)) (Ideal.ofBits .f32 0x7F800000#32) = 1#1) : max a (-a) < ⊤ := by
  rw [ofBits_posInf] at h
  exact ofBool_decide_eq_one h

/-- One `all(|x| < +∞)`: when the reduction by `and` of the elementwise test is 1, the array is real-valued. -/
theorem isReal_of_all_abs_lt {s : Shape} {axes : List (Fin s.rank)} {dims : Fin S_.rank → Fin s.rank}
    (hb : S_.BroadcastsInDim s dims) (hr : s.ReducesTo axes S_) (hu : 0 < S_.numel) (x : FVec Ideal s .f32)
    (h : Host.reduce IntOp.andi
          (cmpf .olt (Host.absf x) (broadcastInDim s dims hb (constant (F := Ideal) S_ .f32 0x7F800000#32)))
          (constantI S_ 1 1#1) hr hu ix0 = 1#1) :
    RealValued.IsReal x := by
  refine RealValued.isReal_of_abs_lt_top fun i => ?_
  have hi := Host.reduce_andi_all _ _ hr hu ix0 h i
  exact abs_lt_top_of_cmp hi

/-- The signed reading of the 32-bit word `0` is 0. -/
theorem toInt_zero32 : (0#32 : BitVec 32).toInt = 0 := by decide

/-- The signed reading of the 32-bit word `100000` is 100000. -/
theorem toInt_100000 : (100000#32 : BitVec 32).toInt = 100000 := by decide

/-- One label: a word that is at least 0 and below 100000 when read signed has its top bit clear, so its unsigned
    reading is the signed one and lies below 100000. -/
theorem label_lt {w : BitVec 32} (h0 : IntOp.cmpi .sge w 0#32 = 1#1) (h1 : IntOp.cmpi .slt w 100000#32 = 1#1) :
    w.toNat < 100000 := by
  rw [IntOp.cmpi_sge, toInt_zero32] at h0
  rw [IntOp.cmpi_slt, toInt_100000] at h1
  rw [BitVec.toInt_eq_toNat_cond] at h0 h1
  split at h0 <;> omega

/-- The precondition read back: both float arrays hold real numbers only, and every label is below 100000. -/
theorem decode [Cert.Pre_finite_inputs.Facts]
    (x0 : FVec Ideal Cert.Pre_finite_inputs.S512x512 .f32) (x1 : FVec Ideal Cert.Pre_finite_inputs.S100000x512 .f32)
    (x2 : IVec Cert.Pre_finite_inputs.S512 32)
    (h : Cert.Pre_finite_inputs.fn (F := Ideal) x0 x1 x2 = fun _ => 1#1) :
    RealValued.IsReal x0 ∧ RealValued.IsReal x1 ∧ ∀ i : Fin 512, (x2 (Idealize.ShloMosaic.ValueIdx.ix1 i)).toNat < 100000 := by
  have h' := congrFun h ix0
  dsimp only [Cert.Pre_finite_inputs.fn] at h'
  obtain ⟨h01, h2⟩ := IntOp.andi_eq_one.1 h'
  obtain ⟨h0, h1⟩ := IntOp.andi_eq_one.1 h01
  refine ⟨isReal_of_all_abs_lt _ _ _ x0 h0, isReal_of_all_abs_lt _ _ _ x1 h1, fun i => ?_⟩
  have hi := Host.reduce_andi_all _ _ _ _ ix0 h2 (ix1 i)
  obtain ⟨ha, hb⟩ := IntOp.andi_eq_one.1 hi
  exact label_lt ha hb

end Cert.PreDecode
-- ==== Proof.lean ====
/-
  The kernel's program and the reference compute the same mean margin-softmax loss.

  Under the precondition every entry of the batch and of the class table is a real number and every label is a class
  number below 100000. The kernel walks the classes in two groups of ten tiles of 5000, keeping per row the sum of
  exp (30 cos − 30) over the classes other than the row's label; its host code adds the label's own term
  exp (30 φ − 30), φ the margin value of the label's cosine, takes the logarithm, adds 30 (1 − φ), and averages. The
  reference forms the logits of all classes (φ at the label, the cosine elsewhere, times 30), shifts them by the row's
  maximum, and averages the negative log-softmax at the label. For real logits the two are one number, row by row: the
  log-sum-exp does not depend on the shift.

  The three frames: the kernel's two programs run by the generated frame certificates, the reference by its run read
  back. The idealization rewrote nothing, so there is nothing to preserve.
-/
import proofs.«431268_j55817394979146_2_alg».proof.Defs
import proofs.«431268_j55817394979146_2_alg».proof.Proof.Gen.Kernel
import proofs.«431268_j55817394979146_2_alg».proof.Proof.Gen.Kernel.Frame
import proofs.«431268_j55817394979146_2_alg».proof.Proof.Gen.KernelIdeal
import proofs.«431268_j55817394979146_2_alg».proof.Proof.Gen.KernelIdeal.Frame
import proofs.«431268_j55817394979146_2_alg».proof.Proof.Gen.ReferenceIdeal
import proofs.«431268_j55817394979146_2_alg».proof.Proof.Gen.Pre_finite_inputs
import proofs.«431268_j55817394979146_2_alg».proof.Proof.KRun
import proofs.«431268_j55817394979146_2_alg».proof.Proof.RefRunSteps
import proofs.«431268_j55817394979146_2_alg».proof.Proof.RefValue
import proofs.«431268_j55817394979146_2_alg».proof.Proof.Bridge
import proofs.«431268_j55817394979146_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx MarginLoss

/-- The word-level kernel program runs and leaves its arguments as they were. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Steps.run (F := Ideal) m ρ)

/-- The idealization rewrote no operation. -/
theorem preserves : Cert.preserves_Kernel_KernelIdeal := trivial

/-- From memories that agree on the arguments both programs end with the mean over the rows of one and the same loss. -/
theorem algebraic : Cert.algebraic_KernelIdeal_ReferenceIdeal := by
  intro m ρ m' ρ' hpre hagree
  have hd := fun c : Dev Cert.KernelIdeal.nD => Cert.PreDecode.decode _ _ _ (hpre c)
  have hr : ∀ (c : Dev Cert.KernelIdeal.nD) (i : Fin 512),
      (m ((c : Thread Cert.KernelIdeal.nD Cert.KernelIdeal.τ).loc Cert.KernelIdeal.main_arg2) (ix1 i)).toNat < 100000 :=
    fun c i => (hd c).2.2 i
  refine ⟨_, Cert.KernelIdeal.KValue.run m ρ hr, ?_⟩
  refine (θ_run Cert.ReferenceIdeal.defs _ _).mono (fun _ h c => ⟨(h c).1.trans ?_, (h c).2⟩)
    (Cert.ReferenceIdeal.Steps.run (F := Ideal) m' ρ')
  rw [(hagree c).1, (hagree c).2.1, (hagree c).2.2, Cert.ReferenceIdeal.RefValue.result_eq _ _ _ (hr c)]
  funext _
  exact congrArg meanLoss (funext fun i => (kernelRow_eq_referenceRow _ _ (hd c).1 (hd c).2.1 _ i).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
